-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg0 : IVec S800000 32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S800000 32 := broadcastInDim S800000 ![] bcast_S_S800000 main_c_28
  let main_v75 : IVec S800000 1 := cmpi .sge main_arg0 main_v74
  let main_c_29 : IVec S_ 32 := constantI S_ 32 50000#32
  let main_v76 : IVec S800000 32 := broadcastInDim S800000 ![] bcast_S_S800000 main_c_29
  let main_v77 : IVec S800000 1 := cmpi .slt main_arg0 main_v76
  let main_v78 : IVec S800000 1 := andi main_v75 main_v77
  let main_c_30 : IVec S_ 1 := constantI S_ 1 1#1
  let main_v79 : IVec S_ 1 := (fun x v => Host.reduce IntOp.andi x v reducesTo_S800000_S_d0 h_S_) main_v78 main_c_30
  let main_v80 : IVec S_ 1 := andi main_v73 main_v79
  main_v80

def fn_part3 {F : FTy → Type} [FloatOps F] (main_arg0 : IVec S800000 32) (main_arg13 : FVec F S256x128 .f32) (main_arg14 : FVec F S128 .f32) (main_arg15 : FVec F S128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg16 main_v63 main_v67

def fn_part2 {F : FTy → Type} [FloatOps F] (main_arg0 : IVec S800000 32) (main_arg9 : FVec F S128x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg0 main_arg13 main_arg14 main_arg15 main_arg16 main_v48 main_v49 main_v50

def fn_part1 {F : FTy → Type} [FloatOps F] (main_arg0 : IVec S800000 32) (main_arg6 : FVec F S128x128 .f32) (main_arg7 : FVec F S128x128 .f32) (main_arg8 : FVec F S128x128 .f32) (main_arg9 : FVec F S128x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg9 main_arg10 main_arg11 main_arg12 main_arg13 main_arg14 main_arg15 main_arg16 main_v33

def fn {F : FTy → Type} [FloatOps F] (main_arg0 : IVec S800000 32) (main_arg1 : IVec S800000 32) (main_arg2 : FVec F S50000x128 .f32) (main_arg3 : FVec F S800000x128 .f32) (main_arg4 : FVec F S50000x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg3
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_arg9 main_arg10 main_arg11 main_arg12 main_arg13 main_arg14 main_arg15 main_arg16 main_v13 main_v16
-- ==== Kernel.lean ====
abbrev S800000 : Shape := ⟨1, ![800000]⟩
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8x128 : Shape := ⟨2, ![8, 128]⟩
abbrev S5000x128 : Shape := ⟨2, ![5000, 128]⟩
abbrev S6400x128 : Shape := ⟨2, ![6400, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8 : Shape := ⟨2, ![800000, 8]⟩
abbrev S3200x128 : Shape := ⟨2, ![3200, 128]⟩
abbrev S3200x8 : Shape := ⟨2, ![3200, 8]⟩
abbrev S50000x8 : Shape := ⟨2, ![50000, 8]⟩
abbrev S50000x8x16 : Shape := ⟨3, ![50000, 8, 16]⟩
abbrev S1x128 : Shape := ⟨2, ![1, 128]⟩
abbrev S5000x256 : Shape := ⟨2, ![5000, 256]⟩
abbrev S1x256 : Shape := ⟨2, ![1, 256]⟩

abbrev nBuf : Space → Nat
  | .hbm => 139
  | .vmem => 58
  | .smem => 0
  | _ => 0

abbrev hbmTy0_0 (i : Nat) : BufTy := match i % 128 with
  | 0 => ⟨S800000, .i32⟩
  | 1 => ⟨S800000, .i32⟩
  | 2 => ⟨S50000x128, .f32⟩
  | 3 => ⟨S800000x128, .f32⟩
  | 4 => ⟨S50000x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x256, .f32⟩
  | 12 => ⟨S256, .f32⟩
  | 13 => ⟨S256x128, .f32⟩
  | 14 => ⟨S128, .f32⟩
  | 15 => ⟨S128, .f32⟩
  | 16 => ⟨S128, .f32⟩
  | 17 => ⟨S128x8, .f32⟩
  | 18 => ⟨S8x128, .f32⟩
  | 19 => ⟨S50000x128, .f32⟩
  | 20 => ⟨S50000x128, .f32⟩
  | 21 => ⟨S50000x128, .f32⟩
  | 22 => ⟨S800000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x128, .f32⟩
  | 42 => ⟨S800000x128, .i1⟩
  | 43 => ⟨S_, .f32⟩
  | 44 => ⟨S800000x128, .f32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x128, .f32⟩
  | 65 => ⟨S800000x128, .i1⟩
  | 66 => ⟨S_, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x128, .f32⟩
  | 88 => ⟨S800000x128, .i1⟩
  | 89 => ⟨S_, .f32⟩
  | 90 => ⟨S800000x128, .f32⟩
  | 91 => ⟨S800000x128, .f32⟩
  | 92 => ⟨S800000x128, .f32⟩
  | 93 => ⟨S800000x8, .f32⟩
  | 94 => ⟨S_, .f32⟩
  | 95 => ⟨S50000x128, .f32⟩
  | 96 => ⟨S800000x1, .i32⟩
  | 97 => ⟨S50000x128, .f32⟩
  | 98 => ⟨S_, .f32⟩
  | 99 => ⟨S50000x8, .f32⟩
  | 100 => ⟨S800000x1, .i32⟩
  | 101 => ⟨S50000x8, .f32⟩
  | 102 => ⟨S50000x8x16, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S50000x128, .f32⟩
  | 124 => ⟨S_, .f32⟩
  | 125 => ⟨S128, .f32⟩
  | 126 => ⟨S_, .f32⟩
  | 127 => ⟨S128, .f32⟩
  | _ => ⟨S800000, .i32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S50000x128, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S6400x128, .f32⟩
  | .local _ .vmem, ⟨12, _⟩ => ⟨S6400x128, .f32⟩
  | .local _ .vmem, ⟨13, _⟩ => ⟨S128x128, .f32⟩
  | .local _ .vmem, ⟨14, _⟩ => ⟨S6400x128, .f32⟩
  | .local _ .vmem, ⟨15, _⟩ => ⟨S6400x128, .f32⟩
  | .local _ .vmem, ⟨16, _⟩ => ⟨S3200x128, .f32⟩
  | .local _ .vmem, ⟨17, _⟩ => ⟨S3200x128, .f32⟩
  | .local _ .vmem, ⟨18, _⟩ => ⟨S3200x128, .f32⟩
  | .local _ .vmem, ⟨19, _⟩ => ⟨S3200x128, .f32⟩
  | .local _ .vmem, ⟨20, _⟩ => ⟨S3200x128, .f32⟩
  | .local _ .vmem, ⟨21, _⟩ => ⟨S3200x128, .f32⟩
  | .local _ .vmem, ⟨22, _⟩ => ⟨S3200x128, .f32⟩
  | .local _ .vmem, ⟨23, _⟩ => ⟨S3200x128, .f32⟩
  | .local _ .vmem, ⟨24, _⟩ => ⟨S128x8, .f32⟩
  | .local _ .vmem, ⟨25, _⟩ => ⟨S8x128, .f32⟩
  | .local _ .vmem, ⟨26, _⟩ => ⟨S3200x128, .f32⟩
  | .local _ .vmem, ⟨27, _⟩ => ⟨S3200x128, .f32⟩
  | .local _ .vmem, ⟨28, _⟩ => ⟨S3200x8, .f32⟩
  | .local _ .vmem, ⟨29, _⟩ => ⟨S3200x8, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128x256, .f32⟩
  | .local _ .vmem, ⟨45, _⟩ => ⟨S256, .f32⟩
  | .local _ .vmem, ⟨46, _⟩ => ⟨S256x128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128, .f32⟩
  | .local _ .vmem, ⟨53, _⟩ => ⟨S128, .f32⟩
  | .local _ .vmem, ⟨54, _⟩ => ⟨S128, .f32⟩
  | .local _ .vmem, ⟨55, _⟩ => ⟨S128, .f32⟩
  | .local _ .vmem, ⟨56, _⟩ => ⟨S5000x128, .f32⟩
  | .local _ .vmem, ⟨57, _⟩ => ⟨S5000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v1 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v2 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v3 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v4 : Ref sig .tc := ⟨.hbm, 91, rfl⟩
abbrev main_v5_0 : Ref sig .tc := ⟨.hbm, 92, rfl⟩
abbrev main_v5_1 : Ref sig .tc := ⟨.hbm, 93, rfl⟩
abbrev main_cst_1 : Ref sig .tc := ⟨.hbm, 94, rfl⟩
abbrev main_v6 : Ref sig .tc := ⟨.hbm, 95, rfl⟩
abbrev main_v7 : Ref sig .tc := ⟨.hbm, 96, rfl⟩
abbrev main_v8 : Ref sig .tc := ⟨.hbm, 97, rfl⟩
abbrev main_cst_2 : Ref sig .tc := ⟨.hbm, 98, rfl⟩
abbrev main_v9 : Ref sig .tc := ⟨.hbm, 99, rfl⟩
abbrev main_v10 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_cst_3 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_cst_4 : Ref sig .tc := ⟨.hbm, 109, rfl⟩
abbrev main_v18 : Ref sig .tc := ⟨.hbm, 110, rfl⟩
abbrev main_cst_5 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_cst_6 : Ref sig .tc := ⟨.hbm, 118, rfl⟩
abbrev main_v25 : Ref sig .tc := ⟨.hbm, 119, rfl⟩
abbrev main_cst_7 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_cst_8 : Ref sig .tc := ⟨.hbm, 124, rfl⟩
abbrev main_v29 : Ref sig .tc := ⟨.hbm, 125, rfl⟩
abbrev main_cst_9 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_cst_10 : Ref sig .tc := ⟨.hbm, 133, rfl⟩
abbrev main_v36 : Ref sig .tc := ⟨.hbm, 134, rfl⟩
abbrev main_cst_11 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3200x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3200x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S6400x128_S6400x128_0_0 : ∀ a, (![0, 0] : Fin 2 → Nat) a + S6400x128.size a ≤ S6400x128.size a
  h_S6400x128 : 0 < S6400x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x8_S128x8_0_0 : ∀ a, (![0, 0] : Fin 2 → Nat) a + S128x8.size a ≤ S128x8.size a
  h_S128x8 : 0 < S128x8.numel
  inb_S3200x8_S3200x8_0_0 : ∀ a, (![0, 0] : Fin 2 → Nat) a + S3200x8.size a ≤ S3200x8.size a
  h_S3200x8 : 0 < S3200x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  bcast_S_S50000x8 : S_.BroadcastsInDim S50000x8 (![] : Fin 0 → Fin S50000x8.rank)
  bcast_S50000x8_S50000x8x16_0_1 : S50000x8.BroadcastsInDim S50000x8x16 (![0, 1] : Fin 2 → Fin S50000x8x16.rank)
  shapeCasts_S50000x8x16_S50000x128 : S50000x8x16.ShapeCasts S50000x128
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S128 : S128.ShapeCasts S128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  dot_S5000x128_S128x128_S5000x128_1_0_0_1_n_n_wf : DotDims.WF S5000x128 S128x128 S5000x128 [1] [0] [0] [1] [] []
  dot_S6400x128_S128x128_S6400x128_1_0_0_1_n_n_wf : DotDims.WF S6400x128 S128x128 S6400x128 [1] [0] [0] [1] [] []
  gather_S50000x128_S800000x1_S800000x128_1_0_n_n_0_1_1128_wf : GatherDims.WF S50000x128 S800000x1 S800000x128 [1] [0] [] [0] [] 1 ![1, 128]
  dot_S3200x128_S128x8_S3200x8_1_0_0_1_n_n_wf : DotDims.WF S3200x128 S128x8 S3200x8 [1] [0] [0] [1] [] []
  dot_S3200x8_S8x128_S3200x128_1_0_0_1_n_n_wf : DotDims.WF S3200x8 S8x128 S3200x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S800000x128.size a
  hwx2_0 : ∀ i : grid2.Coords, EltTy.bits .f32 = 32 ∨ (Rect.block (s := S800000x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S800000x128.size a
  hwx2_1 : ∀ i : grid2.Coords, EltTy.bits .f32 = 32 ∨ (Rect.block (s := S800000x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x128.size a ≤ S800000x128.size a
  hwx2_2 : ∀ i : grid2.Coords, EltTy.bits .f32 = 32 ∨ (Rect.block (s := S800000x128) S3200x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x128.size a ≤ S800000x128.size a
  hwx2_3 : ∀ i : grid2.Coords, EltTy.bits .f32 = 32 ∨ (Rect.block (s := S800000x128) S3200x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3200x128.size a ≤ S800000x128.size a
  hwx2_6 : ∀ i : grid2.Coords, EltTy.bits .f32 = 32 ∨ (Rect.block (s := S800000x128) S3200x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3200x8.size a ≤ S800000x8.size a
  hwx2_7 : ∀ i : grid2.Coords, EltTy.bits .f32 = 32 ∨ (Rect.block (s := S800000x8) S3200x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S50000x128.size a
  hwx4_9 : ∀ i : grid4.Coords, EltTy.bits .f32 = 32 ∨ (Rect.block (s := S50000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x8_S3200x8_1_0_0_1_n_n : DotDims S3200x128 S128x8 S3200x8 where
  lhsContracting := [1]
  rhsContracting := [0]
  lhsNonContracting := [0]
  rhsNonContracting := [1]
  lhsBatch := []
  rhsBatch := []
  wf := dot_S3200x128_S128x8_S3200x8_1_0_0_1_n_n_wf
def dot_S3200x8_S8x128_S3200x128_1_0_0_1_n_n : DotDims S3200x8 S8x128 S3200x128 where
  lhsContracting := [1]
  rhsContracting := [0]
  lhsNonContracting := [0]
  rhsNonContracting := [1]
  lhsBatch := []
  rhsBatch := []
  wf := dot_S3200x8_S8x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S6400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S3200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S3200x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S3200x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S3200x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v16) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v17) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v27) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg12) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg13) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg14) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v28) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v28) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v38) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v39) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S800000 : Shape := ⟨1, ![800000]⟩
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 162
  | .vmem => 0
  | .smem => 0
  | _ => 0

abbrev hbmTy0_0 (i : Nat) : BufTy := match i % 128 with
  | 0 => ⟨S800000, .i32⟩
  | 1 => ⟨S800000, .i32⟩
  | 2 => ⟨S50000x128, .f32⟩
  | 3 => ⟨S800000x128, .f32⟩
  | 4 => ⟨S50000x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x256, .f32⟩
  | 12 => ⟨S256, .f32⟩
  | 13 => ⟨S256x128, .f32⟩
  | 14 => ⟨S128, .f32⟩
  | 15 => ⟨S128, .f32⟩
  | 16 => ⟨S128, .f32⟩
  | 17 => ⟨S50000x128, .f32⟩
  | 18 => ⟨S50000x8x16, .f32⟩
  | 19 => ⟨S50000x128, .f32⟩
  | 20 => ⟨S50000x8x16, .f32⟩
  | 21 => ⟨S50000x128, .f32⟩
  | 22 => ⟨S50000x8x16, .f32⟩
  | 23 => ⟨S800000x128, .f32⟩
  | 24 => ⟨S800000x8x16, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x8x16, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x8x16, .f32⟩
  | 43 => ⟨S800000x8x16, .f32⟩
  | 44 => ⟨S_, .f32⟩
  | 45 => ⟨S800000x8x16, .f32⟩
  | 46 => ⟨S800000x8x16, .f32⟩
  | 47 => ⟨S800000x8x16, .f32⟩
  | 48 => ⟨S_, .f32⟩
  | 49 => ⟨S800000x8, .f32⟩
  | 50 => ⟨S_, .f32⟩
  | 51 => ⟨S_, .f32⟩
  | 52 => ⟨S_, .f32⟩
  | 53 => ⟨S800000x8, .f32⟩
  | 54 => ⟨S800000x8, .f32⟩
  | 55 => ⟨S_, .f32⟩
  | 56 => ⟨S800000x8, .f32⟩
  | 57 => ⟨S800000x8, .f32⟩
  | 58 => ⟨S800000x8, .f32⟩
  | 59 => ⟨S800000x8x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x8x16, .f32⟩
  | 69 => ⟨S800000x8x16, .f32⟩
  | 70 => ⟨S800000x8x16, .f32⟩
  | 71 => ⟨S_, .f32⟩
  | 72 => ⟨S50000x8x16, .f32⟩
  | 73 => ⟨S800000x1, .i32⟩
  | 74 => ⟨S50000x8x16, .f32⟩
  | 75 => ⟨S_, .f32⟩
  | 76 => ⟨S50000x8x1, .f32⟩
  | 77 => ⟨S800000x1, .i32⟩
  | 78 => ⟨S50000x8x1, .f32⟩
  | 79 => ⟨S_, .f32⟩
  | 80 => ⟨S50000x8x1, .f32⟩
  | 81 => ⟨S50000x8x1, .f32⟩
  | 82 => ⟨S50000x8x16, .f32⟩
  | 83 => ⟨S50000x8x16, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S50000x256, .f32⟩
  | 126 => ⟨S50000x256, .f32⟩
  | 127 => ⟨S50000x128, .f32⟩
  | _ => ⟨S800000, .i32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_9 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call1_cst : Ref sig .tc := ⟨.hbm, 124, rfl⟩
abbrev main_call1_v0 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_16 : Ref sig .tc := ⟨.hbm, 132, rfl⟩
abbrev main_v90 : Ref sig .tc := ⟨.hbm, 133, rfl⟩
abbrev main_cst_17 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_cst_19 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S_S800000x8 : S_.BroadcastsInDim S800000x8 (![] : Fin 0 → Fin S800000x8.rank)
  bcast_S800000x8_S800000x8x1_0_1 : S800000x8.BroadcastsInDim S800000x8x1 (![0, 1] : Fin 2 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The layer as one function of its arguments, stage by stage, at the extended reals.

  Nodes n < 50000, edges r < 800000, channels c < 128 in 8 heads of 16 (channel c lies in head c / 16).
  q, k, v are the node features times three weight matrices; ef the edge features times a fourth.  For an edge r with
  source s(r) and destination d(r): the score is k[s(r), c] · q[d(r), c] · ¼ · ef[r, c]; its sum over the 16 channels of
  a head, clipped to [-5, 5] and exponentiated, is the edge's weight for that head; the weighted values
  v[s(r), c] · weight[r, c / 16] and the weights themselves are added up over the edges that end in a node; their
  quotient (with 1e-6 added below) is projected, added to the node features, normalised over the nodes, passed through
  a two-layer network with a residual, and normalised again.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-! ## Shapes and constants -/

abbrev SNxD : Shape := ⟨2, ![50000, 128]⟩
abbrev SExD : Shape := ⟨2, ![800000, 128]⟩
abbrev SNxH : Shape := ⟨2, ![50000, 8]⟩
abbrev SExH : Shape := ⟨2, ![800000, 8]⟩
abbrev SDxD : Shape := ⟨2, ![128, 128]⟩
abbrev SDxF : Shape := ⟨2, ![128, 256]⟩
abbrev SFxD : Shape := ⟨2, ![256, 128]⟩
abbrev SD : Shape := ⟨1, ![128]⟩
abbrev SF : Shape := ⟨1, ![256]⟩
abbrev SE : Shape := ⟨1, ![800000]⟩

/-- An array over a rank-2 index set from a function of the two coordinates. -/
def of2 {α : Type} {a b : Nat} (f : Fin a → Fin b → α) : (⟨2, ![a, b]⟩ : Shape).Idx → α := fun i => f (i 0) (i 1)
/-- An array over a rank-1 index set from a function of the coordinate. -/
def of1 {α : Type} {a : Nat} (f : Fin a → α) : (⟨1, ![a]⟩ : Shape).Idx → α := fun i => f (i 0)

@[simp] theorem of2_ix2 {α : Type} {a b : Nat} (f : Fin a → Fin b → α) (p : Fin a) (q : Fin b) : of2 f (ix2 p q) = f p q := rfl
@[simp] theorem of1_ix1 {α : Type} {a : Nat} (f : Fin a → α) (p : Fin a) : of1 f (ix1 p) = f p := rfl

/-- The scale of a score, 0.25 as an f32 word. -/
def quarter : EReal := Ideal.ofBits .f32 0x3E800000#32
/-- The clip bounds, -5 and 5. -/
def lo : EReal := Ideal.ofBits .f32 0xC0A00000#32
def hi : EReal := Ideal.ofBits .f32 0x40A00000#32
/-- The two stabilisers, 1e-6 under the quotient and 1e-5 under the inverse square root, and the node count 50000. -/
def eps6 : EReal := Ideal.ofBits .f32 0x358637BD#32
def eps5 : EReal := Ideal.ofBits .f32 0x3727C5AC#32
def nodes : EReal := Ideal.ofBits .f32 0x47435000#32
def zero : EReal := Ideal.ofBits .f32 0x00000000#32
/-- The divisor 4 under a score (the reference divides where the kernel multiplies by a quarter). -/
def four : EReal := Ideal.ofBits .f32 0x40800000#32

/-- The head of a channel. -/
def headOf (c : Fin 128) : Fin 8 := ⟨c.val / 16, by omega⟩
/-- Channel j of head h. -/
def chan (h : Fin 8) (j : Fin 16) : Fin 128 := ⟨16 * h.val + j.val, by omega⟩

/-! ## The projections -/

/-- Rows times a 128 × 128 matrix: entry (n, c) is the sum over k of x[n, k] · w[k, c]. -/
def proj {M : Nat} (x : FVec Ideal ⟨2, ![M, 128]⟩ .f32) (w : FVec Ideal SDxD .f32) : FVec Ideal ⟨2, ![M, 128]⟩ .f32 :=
  of2 fun n c => ∑ k : Fin 128, x (ix2 n k) * w (ix2 k c)

/-! ## Reading a row of a node table at an edge's end -/

/-- The row an index word names: read signed, clamped into the table. -/
def rowIx (idx : IVec SE 32) (r : Fin 800000) : Fin 50000 := ⟨min (idx (ix1 r)).toInt.toNat 49999, by omega⟩

/-- An index word with a negative value moved up by the table's length (a negative index counts from the end). -/
def wrapIx (idx : IVec SE 32) : IVec SE 32 := of1 fun r =>
  if (idx (ix1 r)).toInt < 0 then idx (ix1 r) + 50000#32 else idx (ix1 r)

/-- The rows of a node table named by an index vector, one per edge. -/
def rows (x : FVec Ideal SNxD .f32) (idx : IVec SE 32) : FVec Ideal SExD .f32 :=
  of2 fun r c => x (ix2 (rowIx idx r) c)

/-! ## The edge stage -/

/-- The score of an edge in a channel. -/
def score (ks qd ef : FVec Ideal SExD .f32) : FVec Ideal SExD .f32 :=
  of2 fun r c => ks (ix2 r c) * qd (ix2 r c) * quarter * ef (ix2 r c)

/-- The weight of an edge for a head: the head's scores summed, clipped and exponentiated. -/
def weight (s : FVec Ideal SExD .f32) : FVec Ideal SExH .f32 :=
  of2 fun r h => Ideal.exp (min hi (max lo (∑ j : Fin 16, s (ix2 r (chan h j)))))

/-- The values of an edge's source, each channel times its head's weight. -/
def weighted (vs : FVec Ideal SExD .f32) (wt : FVec Ideal SExH .f32) : FVec Ideal SExD .f32 :=
  of2 fun r c => vs (ix2 r c) * wt (ix2 r (headOf c))

/-- The weight with the head's sum written as a product with a 128 × 8 matrix (the kernel's form: the matrix holds a one
    where the channel lies in the head and a zero elsewhere). -/
def weightM (s : FVec Ideal SExD .f32) (mg : FVec Ideal ⟨2, ![128, 8]⟩ .f32) : FVec Ideal SExH .f32 :=
  of2 fun r h => Ideal.exp (min hi (max lo (∑ d : Fin 128, s (ix2 r d) * mg (ix2 d h))))

/-- The weighted values with the head's weight spread over its channels by a product with an 8 × 128 matrix. -/
def weightedM (vs : FVec Ideal SExD .f32) (wt : FVec Ideal SExH .f32) (mb : FVec Ideal ⟨2, ![8, 128]⟩ .f32) : FVec Ideal SExD .f32 :=
  of2 fun r c => vs (ix2 r c) * ∑ h : Fin 8, wt (ix2 r h) * mb (ix2 h c)

/-- An index word that names a node: read signed it lies in [0, 50000). -/
def InRange (idx : IVec SE 32) (r : Fin 800000) : Prop := 0 ≤ (idx (ix1 r)).toInt ∧ (idx (ix1 r)).toInt < 50000

/-! ## Adding up over the edges that end in a node -/

/-- For node n and column c: zero plus the sum of the update rows of the edges whose destination word is n. -/
def segSum {C : Nat} (upd : FVec Ideal ⟨2, ![800000, C]⟩ .f32) (dst : IVec SE 32) : FVec Ideal ⟨2, ![50000, C]⟩ .f32 :=
  of2 fun n c => zero + ∑ r : Fin 800000, if (dst (ix1 r)).toInt = (n.val : Int) then upd (ix2 r c) else 0

/-- The attention output: the summed weighted values over the summed weights of the channel's head plus 1e-6. -/
def attn (aV : FVec Ideal SNxD .f32) (z : FVec Ideal SNxH .f32) : FVec Ideal SNxD .f32 :=
  of2 fun n c => Ideal.div (aV (ix2 n c)) (z (ix2 n (headOf c)) + eps6)

/-! ## The node stage -/

/-- The projected attention output plus its bias, added to the node features. -/
def residual (ha h : FVec Ideal SNxD .f32) (w : FVec Ideal SDxD .f32) (b : FVec Ideal SD .f32) : FVec Ideal SNxD .f32 :=
  of2 fun n c => h (ix2 n c) + ((∑ k : Fin 128, ha (ix2 n k) * w (ix2 k c)) + b (ix1 c))

/-- The mean of a column over the nodes. -/
def mean (x : FVec Ideal SNxD .f32) : FVec Ideal SD .f32 :=
  of1 fun c => Ideal.div (zero + ∑ n : Fin 50000, x (ix2 n c)) nodes

/-- The mean squared deviation of a column from a given centre. -/
def variance (x : FVec Ideal SNxD .f32) (mu : FVec Ideal SD .f32) : FVec Ideal SD .f32 :=
  of1 fun c => Ideal.div (zero + ∑ n : Fin 50000, (x (ix2 n c) - mu (ix1 c)) * (x (ix2 n c) - mu (ix1 c))) nodes

/-- A column centred, scaled by the inverse root of its variance plus 1e-5, times gamma, plus beta. -/
def norm (x : FVec Ideal SNxD .f32) (mu var g be : FVec Ideal SD .f32) : FVec Ideal SNxD .f32 :=
  of2 fun n c => (x (ix2 n c) - mu (ix1 c)) * Ideal.rsqrt (var (ix1 c) + eps5) * g (ix1 c) + be (ix1 c)

/-- The hidden layer: the rows times a 128 × 256 matrix plus a bias, negative entries set to zero. -/
def hidden (x : FVec Ideal SNxD .f32) (w1 : FVec Ideal SDxF .f32) (b1 : FVec Ideal SF .f32) : FVec Ideal ⟨2, ![50000, 256]⟩ .f32 :=
  of2 fun n k => max ((∑ j : Fin 128, x (ix2 n j) * w1 (ix2 j k)) + b1 (ix1 k)) zero

/-- The two-layer network with its residual. -/
def ffn (x : FVec Ideal SNxD .f32) (w1 : FVec Ideal SDxF .f32) (b1 : FVec Ideal SF .f32) (w2 : FVec Ideal SFxD .f32)
    (b2 : FVec Ideal SD .f32) : FVec Ideal SNxD .f32 :=
  of2 fun n c => x (ix2 n c) + ((∑ k : Fin 256, hidden x w1 b1 (ix2 n k) * w2 (ix2 k c)) + b2 (ix1 c))

/-! ## The whole layer -/

/-- Everything up to the attention output, from the node and edge features, the four projections and the two index
    vectors. -/
def attention (src dst : IVec SE 32) (h : FVec Ideal SNxD .f32) (e : FVec Ideal SExD .f32)
    (wq wk wv we : FVec Ideal SDxD .f32) : FVec Ideal SNxD .f32 :=
  let wt := weight (score (rows (proj h wk) src) (rows (proj h wq) (wrapIx dst)) (proj e we))
  attn (segSum (weighted (rows (proj h wv) src) wt) dst) (segSum wt dst)

/-- The node stage after attention: residual, normalisation, network, normalisation. -/
def encode (ha h : FVec Ideal SNxD .f32) (wsdp : FVec Ideal SDxD .f32) (bsdp : FVec Ideal SD .f32)
    (w1 : FVec Ideal SDxF .f32) (b1 : FVec Ideal SF .f32) (w2 : FVec Ideal SFxD .f32) (b2 g be : FVec Ideal SD .f32) :
    FVec Ideal SNxD .f32 :=
  let x1 := residual ha h wsdp bsdp
  let m1 := mean x1
  let x2 := ffn (norm x1 m1 (variance x1 m1) g be) w1 b1 w2 b2
  let m2 := mean x2
  norm x2 m2 (variance x2 m2) g be

end Cert.Spec

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.K0.lean ====
import proofs.«400303_j74148315398273_1_alg».proof.Proof.Gen.KernelIdeal.Frame
import proofs.«400303_j74148315398273_1_alg».proof.Proof.Spec
import proofs.«400303_j74148315398273_1_alg».proof.Proof.LibDot
import Idealize.ShloMosaic.Lib.Pipeline.Value
import Idealize.ShloMosaic.Lib.ValueIdx
import Mathlib.Algebra.BigOperators.Group.Finset.Basic

/-
  The values of the first two kernel regions.

  Region 0 walks the 50000 rows of the node features in 10 blocks of 5000 rows. At each block it multiplies the block by
  three 128 × 128 matrices and stores the three products as the same rows of the query, key and value arrays. Region 1
  walks the 800000 rows of the edge features in 125 blocks of 6400 rows and multiplies each block by one matrix.

  A product into a zero accumulator is the plain sum of products, and the change of float format before it is the
  identity on the extended reals, so entry (p, q) of a block's product is the sum over k of block[p, k] · matrix[k, q].
  Row p of block t is row T·t + p of the array (T the block height) and the matrix's block is the whole matrix at every
  point, so what point t writes back is block t of the array-wide product. Row r lies in block r / T, so the blocks cover
  the array and it ends holding the product.
-/

noncomputable section

open scoped BigOperators

namespace Cert.KernelIdeal.Val

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace K0

/-- The projection at an entry: row n of the features times column c of the matrix. -/
theorem proj_at {M : Nat} (x : FVec Ideal ⟨2, ![M, 128]⟩ .f32) (w : FVec Ideal Cert.Spec.SDxD .f32) (n : Fin M) (c : Fin 128) :
    Cert.Spec.proj x w (ix2 n c) = ∑ k : Fin 128, x (ix2 n k) * w (ix2 k c) := rfl

/-- The zero offsets of a whole-block access. -/
theorem hz : (![0, 0] : Fin 2 → Nat) = fun _ => 0 := funext fun a => by fin_cases a <;> rfl

/-! ## Region 0: the body's three products at an entry -/

/-- Entry (p, q) of the first product: row p of the node block times column q of the first matrix. -/
theorem pay0_2_apply (x : Vec Ideal S5000x128 .f32) (w : Vec Ideal S128x128 .f32) (p : Fin 5000) (q : Fin 128) :
    (k0_pay2 (F := Ideal) x w) (ix2 p q) = ∑ k : Fin 128, x (ix2 p k) * w (ix2 k q) := by
  unfold k0_pay2 k0_pay1
  exact Cert.LibDot.matmul_zero_apply dot_S5000x128_S128x128_S5000x128_1_0_0_1_n_n rfl rfl rfl rfl rfl rfl none _ _ p q

/-- Entry (p, q) of the second product: row p of the node block times column q of the second matrix. -/
theorem pay0_3_apply (x : Vec Ideal S5000x128 .f32) (w : Vec Ideal S128x128 .f32) (p : Fin 5000) (q : Fin 128) :
    (k0_pay3 (F := Ideal) x w) (ix2 p q) = ∑ k : Fin 128, x (ix2 p k) * w (ix2 k q) := by
  unfold k0_pay3 k0_pay1
  exact Cert.LibDot.matmul_zero_apply dot_S5000x128_S128x128_S5000x128_1_0_0_1_n_n rfl rfl rfl rfl rfl rfl none _ _ p q

/-- Entry (p, q) of the third product: row p of the node block times column q of the third matrix. -/
theorem pay0_4_apply (x : Vec Ideal S5000x128 .f32) (w : Vec Ideal S128x128 .f32) (p : Fin 5000) (q : Fin 128) :
    (k0_pay4 (F := Ideal) x w) (ix2 p q) = ∑ k : Fin 128, x (ix2 p k) * w (ix2 k q) := by
  unfold k0_pay4 k0_pay1
  exact Cert.LibDot.matmul_zero_apply dot_S5000x128_S128x128_S5000x128_1_0_0_1_n_n rfl rfl rfl rfl rfl rfl none _ _ p q

/-! ## Region 0: where the blocks sit -/

/-- The row windows (the node features and the three outputs) sit at block (t, 0) at point t. -/
theorem idx0_rows : ∀ t : Fin cfg0.N,
    win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The three matrices sit at block (0, 0) at every point. -/
theorem idx0_mats : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The node block at point t is rows 5000 t … 5000 t + 4999 of the node features. -/
theorem iblk0_0_apply (c : Dev nD) (t : Fin cfg0.N) (p : Fin 5000) (k : Fin 128) (h : t.val * 5000 + p.val < 50000) :
    (iblk0 V c 0 t : Vec Ideal S5000x128 .f32) (ix2 p k) = (V c main_arg2 : S50000x128.Idx → EReal) (ix2 ⟨t.val * 5000 + p.val, h⟩ k) := by
  obtain ⟨e0, e1, -⟩ := idx0_rows t
  unfold iblk0
  rw [View.read_apply]
  show V c main_arg2 _ = V c main_arg2 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The first matrix's block at every point is the whole matrix. -/
theorem iblk0_1_apply (c : Dev nD) (t : Fin cfg0.N) (a : Fin 128) (b : Fin 128) :
    (iblk0 V c 1 t : Vec Ideal S128x128 .f32) (ix2 a b) = (V c main_arg5 : S128x128.Idx → EReal) (ix2 a b) := by
  obtain ⟨e0, e1, -⟩ := idx0_mats t
  unfold iblk0
  rw [View.read_apply]
  show V c main_arg5 _ = V c main_arg5 _
  congr 1
  funext d
  apply Fin.ext
  match d with
  | ⟨0, _⟩ => show win0_1.index t 0 * 128 + 1 * a.val = a.val; rw [e0]; omega
  | ⟨1, _⟩ => show win0_1.index t 1 * 128 + 1 * b.val = b.val; rw [e1]; omega

/-- The second matrix's block at every point is the whole matrix. -/
theorem iblk0_2_apply (c : Dev nD) (t : Fin cfg0.N) (a : Fin 128) (b : Fin 128) :
    (iblk0 V c 2 t : Vec Ideal S128x128 .f32) (ix2 a b) = (V c main_arg6 : S128x128.Idx → EReal) (ix2 a b) := by
  obtain ⟨-, -, e0, e1, -⟩ := idx0_mats t
  unfold iblk0
  rw [View.read_apply]
  show V c main_arg6 _ = V c main_arg6 _
  congr 1
  funext d
  apply Fin.ext
  match d with
  | ⟨0, _⟩ => show win0_2.index t 0 * 128 + 1 * a.val = a.val; rw [e0]; omega
  | ⟨1, _⟩ => show win0_2.index t 1 * 128 + 1 * b.val = b.val; rw [e1]; omega

/-- The third matrix's block at every point is the whole matrix. -/
theorem iblk0_3_apply (c : Dev nD) (t : Fin cfg0.N) (a : Fin 128) (b : Fin 128) :
    (iblk0 V c 3 t : Vec Ideal S128x128 .f32) (ix2 a b) = (V c main_arg7 : S128x128.Idx → EReal) (ix2 a b) := by
  obtain ⟨-, -, -, -, e0, e1⟩ := idx0_mats t
  unfold iblk0
  rw [View.read_apply]
  show V c main_arg7 _ = V c main_arg7 _
  congr 1
  funext d
  apply Fin.ext
  match d with
  | ⟨0, _⟩ => show win0_3.index t 0 * 128 + 1 * a.val = a.val; rw [e0]; omega
  | ⟨1, _⟩ => show win0_3.index t 1 * 128 + 1 * b.val = b.val; rw [e1]; omega

/-- Where an entry of output block t sits in the query array: row 5000 t + p, column q. -/
theorem emb0_4 (t : Fin cfg0.N) (p : Fin 5000) (q : Fin 128) (h : t.val * 5000 + p.val < 50000) :
    (((cfg0.win 4).blk t).view.emb (ix2 p q : S5000x128.Idx) : S50000x128.Idx) = ix2 ⟨t.val * 5000 + p.val, h⟩ q := by
  obtain ⟨-, -, e0, e1, -⟩ := idx0_rows t
  funext a
  apply Fin.ext
  match a with
  | ⟨0, _⟩ => show win0_4.index t 0 * 5000 + 1 * p.val = t.val * 5000 + p.val; rw [e0]; omega
  | ⟨1, _⟩ => show win0_4.index t 1 * 128 + 1 * q.val = q.val; rw [e1]; omega

/-- The same for the key array. -/
theorem emb0_5 (t : Fin cfg0.N) (p : Fin 5000) (q : Fin 128) (h : t.val * 5000 + p.val < 50000) :
    (((cfg0.win 5).blk t).view.emb (ix2 p q : S5000x128.Idx) : S50000x128.Idx) = ix2 ⟨t.val * 5000 + p.val, h⟩ q := by
  obtain ⟨-, -, -, -, e0, e1, -⟩ := idx0_rows t
  funext a
  apply Fin.ext
  match a with
  | ⟨0, _⟩ => show win0_5.index t 0 * 5000 + 1 * p.val = t.val * 5000 + p.val; rw [e0]; omega
  | ⟨1, _⟩ => show win0_5.index t 1 * 128 + 1 * q.val = q.val; rw [e1]; omega

/-- The same for the value array. -/
theorem emb0_6 (t : Fin cfg0.N) (p : Fin 5000) (q : Fin 128) (h : t.val * 5000 + p.val < 50000) :
    (((cfg0.win 6).blk t).view.emb (ix2 p q : S5000x128.Idx) : S50000x128.Idx) = ix2 ⟨t.val * 5000 + p.val, h⟩ q := by
  obtain ⟨-, -, -, -, -, -, e0, e1⟩ := idx0_rows t
  funext a
  apply Fin.ext
  match a with
  | ⟨0, _⟩ => show win0_6.index t 0 * 5000 + 1 * p.val = t.val * 5000 + p.val; rw [e0]; omega
  | ⟨1, _⟩ => show win0_6.index t 1 * 128 + 1 * q.val = q.val; rw [e1]; omega

/-! ## Region 0: what each point writes back -/

/-- What point t writes back to the query array is block t of the node features times the first matrix. -/
theorem flushed0_4_eq (c : Dev nD) (t : Fin cfg0.N) :
    (dat0 V c).flushed 4 t = ((cfg0.win 4).blk t).view.read (Elt Ideal) (Cert.Spec.proj (V c main_arg2) (V c main_arg5)) := by
  have hN : cfg0.N = 10 := N_0
  have ht : t.val < 10 := by have := t.isLt; omega
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := p.isLt; omega
  rw [View.read_apply]
  show k0_pay2 (F := Ideal) (iblk0 V c 0 t) (iblk0 V c 1 t) (ix2 p q) = Cert.Spec.proj (V c main_arg2) (V c main_arg5) (((cfg0.win 4).blk t).view.emb (ix2 p q : S5000x128.Idx))
  rw [emb0_4 t p q hr]
  refine ((pay0_2_apply (iblk0 V c 0 t) (iblk0 V c 1 t) p q).trans (Finset.sum_congr rfl fun k _ => ?_)).trans
    (proj_at (V c main_arg2) (V c main_arg5) ⟨t.val * 5000 + p.val, hr⟩ q).symm
  rw [iblk0_0_apply V c t p k hr, iblk0_1_apply V c t k q]

/-- What point t writes back to the key array is block t of the node features times the second matrix. -/
theorem flushed0_5_eq (c : Dev nD) (t : Fin cfg0.N) :
    (dat0 V c).flushed 5 t = ((cfg0.win 5).blk t).view.read (Elt Ideal) (Cert.Spec.proj (V c main_arg2) (V c main_arg6)) := by
  have hN : cfg0.N = 10 := N_0
  have ht : t.val < 10 := by have := t.isLt; omega
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := p.isLt; omega
  rw [View.read_apply]
  show k0_pay3 (F := Ideal) (iblk0 V c 0 t) (iblk0 V c 2 t) (ix2 p q) = Cert.Spec.proj (V c main_arg2) (V c main_arg6) (((cfg0.win 5).blk t).view.emb (ix2 p q : S5000x128.Idx))
  rw [emb0_5 t p q hr]
  refine ((pay0_3_apply (iblk0 V c 0 t) (iblk0 V c 2 t) p q).trans (Finset.sum_congr rfl fun k _ => ?_)).trans
    (proj_at (V c main_arg2) (V c main_arg6) ⟨t.val * 5000 + p.val, hr⟩ q).symm
  rw [iblk0_0_apply V c t p k hr, iblk0_2_apply V c t k q]

/-- What point t writes back to the value array is block t of the node features times the third matrix. -/
theorem flushed0_6_eq (c : Dev nD) (t : Fin cfg0.N) :
    (dat0 V c).flushed 6 t = ((cfg0.win 6).blk t).view.read (Elt Ideal) (Cert.Spec.proj (V c main_arg2) (V c main_arg7)) := by
  have hN : cfg0.N = 10 := N_0
  have ht : t.val < 10 := by have := t.isLt; omega
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := p.isLt; omega
  rw [View.read_apply]
  show k0_pay4 (F := Ideal) (iblk0 V c 0 t) (iblk0 V c 3 t) (ix2 p q) = Cert.Spec.proj (V c main_arg2) (V c main_arg7) (((cfg0.win 6).blk t).view.emb (ix2 p q : S5000x128.Idx))
  rw [emb0_6 t p q hr]
  refine ((pay0_4_apply (iblk0 V c 0 t) (iblk0 V c 3 t) p q).trans (Finset.sum_congr rfl fun k _ => ?_)).trans
    (proj_at (V c main_arg2) (V c main_arg7) ⟨t.val * 5000 + p.val, hr⟩ q).symm
  rw [iblk0_0_apply V c t p k hr, iblk0_3_apply V c t k q]

/-! ## Region 0: the blocks cover the arrays -/

/-- An index of the query array lies in point t's block iff each coordinate lies in the block's range. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v0_0).slice (win0_4.rect t)).set ↔ _
  rw [View.set_slice_whole, Rect.mem_set_unit]
  exact Iff.rfl

/-- The same for the key array. -/
theorem mem_blk0_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v0_1).slice (win0_5.rect t)).set ↔ _
  rw [View.set_slice_whole, Rect.mem_set_unit]
  exact Iff.rfl

/-- The same for the value array. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v0_2).slice (win0_6.rect t)).set ↔ _
  rw [View.set_slice_whole, Rect.mem_set_unit]
  exact Iff.rfl

/-- Every index of the query array lies in the block of the point its row falls in: row r in block r / 5000. -/
theorem cover0_4_all (i : S50000x128.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  have hlt : (i 0).val / 5000 < cfg0.N := by rw [hN]; omega
  obtain ⟨-, -, e0, e1, -⟩ := idx0_rows ⟨(i 0).val / 5000, hlt⟩
  refine ⟨⟨(i 0).val / 5000, hlt⟩, flush0_4 _, ?_⟩
  rw [mem_blk0_4]
  intro a
  match a with
  | ⟨0, _⟩ =>
    show win0_4.index ⟨(i 0).val / 5000, hlt⟩ 0 * 5000 ≤ (i 0).val ∧ (i 0).val < win0_4.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_4.index ⟨(i 0).val / 5000, hlt⟩ 1 * 128 ≤ (i 1).val ∧ (i 1).val < win0_4.index ⟨(i 0).val / 5000, hlt⟩ 1 * 128 + 128
    rw [e1]; omega

/-- The same for the key array. -/
theorem cover0_5_all (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  have hlt : (i 0).val / 5000 < cfg0.N := by rw [hN]; omega
  obtain ⟨-, -, -, -, e0, e1, -⟩ := idx0_rows ⟨(i 0).val / 5000, hlt⟩
  refine ⟨⟨(i 0).val / 5000, hlt⟩, flush0_5 _, ?_⟩
  rw [mem_blk0_5]
  intro a
  match a with
  | ⟨0, _⟩ =>
    show win0_5.index ⟨(i 0).val / 5000, hlt⟩ 0 * 5000 ≤ (i 0).val ∧ (i 0).val < win0_5.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ 1 * 128 ≤ (i 1).val ∧ (i 1).val < win0_5.index ⟨(i 0).val / 5000, hlt⟩ 1 * 128 + 128
    rw [e1]; omega

/-- The same for the value array. -/
theorem cover0_6_all (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  have hlt : (i 0).val / 5000 < cfg0.N := by rw [hN]; omega
  obtain ⟨-, -, -, -, -, -, e0, e1⟩ := idx0_rows ⟨(i 0).val / 5000, hlt⟩
  refine ⟨⟨(i 0).val / 5000, hlt⟩, flush0_6 _, ?_⟩
  rw [mem_blk0_6]
  intro a
  match a with
  | ⟨0, _⟩ =>
    show win0_6.index ⟨(i 0).val / 5000, hlt⟩ 0 * 5000 ≤ (i 0).val ∧ (i 0).val < win0_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ 1 * 128 ≤ (i 1).val ∧ (i 1).val < win0_6.index ⟨(i 0).val / 5000, hlt⟩ 1 * 128 + 128
    rw [e1]; omega

/-! ## Region 1: the edge features times their matrix -/

/-- Entry (p, q) of region 1's product: row p of the edge block times column q of the matrix. -/
theorem pay1_1_apply (x : Vec Ideal S6400x128 .f32) (w : Vec Ideal S128x128 .f32) (p : Fin 6400) (q : Fin 128) :
    (k1_pay1 (F := Ideal) x w) (ix2 p q) = ∑ k : Fin 128, x (ix2 p k) * w (ix2 k q) := by
  unfold k1_pay1
  exact Cert.LibDot.matmul_zero_apply dot_S6400x128_S128x128_S6400x128_1_0_0_1_n_n rfl rfl rfl rfl rfl rfl none _ _ p q

/-- The edge features and the output sit at block (t, 0) at point t, the matrix at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The edge block at point t is rows 6400 t … 6400 t + 6399 of the edge features. -/
theorem iblk1_0_apply (c : Dev nD) (t : Fin cfg1.N) (p : Fin 6400) (k : Fin 128) (h : t.val * 6400 + p.val < 800000) :
    (iblk1 V c 0 t : Vec Ideal S6400x128 .f32) (ix2 p k) = (V c main_arg3 : S800000x128.Idx → EReal) (ix2 ⟨t.val * 6400 + p.val, h⟩ k) := by
  obtain ⟨e0, e1, -⟩ := idx1 t
  unfold iblk1
  rw [View.read_apply]
  show V c main_arg3 _ = V c main_arg3 _
  congr 1
  funext a
  apply Fin.ext
  match a with
  | ⟨0, _⟩ => show win1_0.index t 0 * 6400 + 1 * p.val = t.val * 6400 + p.val; rw [e0]; omega
  | ⟨1, _⟩ => show win1_0.index t 1 * 128 + 1 * k.val = k.val; rw [e1]; omega

/-- The matrix's block at every point is the whole matrix. -/
theorem iblk1_1_apply (c : Dev nD) (t : Fin cfg1.N) (a : Fin 128) (b : Fin 128) :
    (iblk1 V c 1 t : Vec Ideal S128x128 .f32) (ix2 a b) = (V c main_arg8 : S128x128.Idx → EReal) (ix2 a b) := by
  obtain ⟨-, -, e0, e1, -⟩ := idx1 t
  unfold iblk1
  rw [View.read_apply]
  show V c main_arg8 _ = V c main_arg8 _
  congr 1
  funext d
  apply Fin.ext
  match d with
  | ⟨0, _⟩ => show win1_1.index t 0 * 128 + 1 * a.val = a.val; rw [e0]; omega
  | ⟨1, _⟩ => show win1_1.index t 1 * 128 + 1 * b.val = b.val; rw [e1]; omega

/-- Where an entry of output block t sits in the projected edge array: row 6400 t + p, column q. -/
theorem emb1_2 (t : Fin cfg1.N) (p : Fin 6400) (q : Fin 128) (h : t.val * 6400 + p.val < 800000) :
    (((cfg1.win 2).blk t).view.emb (ix2 p q : S6400x128.Idx) : S800000x128.Idx) = ix2 ⟨t.val * 6400 + p.val, h⟩ q := by
  obtain ⟨-, -, -, -, e0, e1⟩ := idx1 t
  funext a
  apply Fin.ext
  match a with
  | ⟨0, _⟩ => show win1_2.index t 0 * 6400 + 1 * p.val = t.val * 6400 + p.val; rw [e0]; omega
  | ⟨1, _⟩ => show win1_2.index t 1 * 128 + 1 * q.val = q.val; rw [e1]; omega

/-- What point t writes back is block t of the edge features times their matrix. -/
theorem flushed1_2_eq (c : Dev nD) (t : Fin cfg1.N) :
    (dat1 V c).flushed 2 t = ((cfg1.win 2).blk t).view.read (Elt Ideal) (Cert.Spec.proj (V c main_arg3) (V c main_arg8)) := by
  have hN : cfg1.N = 125 := N_1
  have ht : t.val < 125 := by have := t.isLt; omega
  show (cfg1.win 2).cut (grid1.coords t) ((dat1 V c).after 2 t) = _
  rw [after1_2]
  unfold out1_2
  rw [View.canon_unit_zero hz]
  simp only [View.ld_unit_zero (S := S6400x128) hz, View.ld_unit_zero (S := S128x128) hz]
  refine funext fun (j : S6400x128.Idx) => ?_
  obtain ⟨p, q, rfl⟩ : ∃ (p : Fin 6400) (q : Fin 128), j = ix2 p q := ⟨j 0, j 1, eq_ix2 j⟩
  have hr : t.val * 6400 + p.val < 800000 := by have := p.isLt; omega
  rw [View.read_apply]
  show k1_pay1 (F := Ideal) (iblk1 V c 0 t) (iblk1 V c 1 t) (ix2 p q) = Cert.Spec.proj (V c main_arg3) (V c main_arg8) (((cfg1.win 2).blk t).view.emb (ix2 p q : S6400x128.Idx))
  rw [emb1_2 t p q hr]
  refine ((pay1_1_apply (iblk1 V c 0 t) (iblk1 V c 1 t) p q).trans (Finset.sum_congr rfl fun k _ => ?_)).trans
    (proj_at (V c main_arg3) (V c main_arg8) ⟨t.val * 6400 + p.val, hr⟩ q).symm
  rw [iblk1_0_apply V c t p k hr, iblk1_1_apply V c t k q]

/-- An index of the projected edge array lies in point t's block iff each coordinate lies in the block's range. -/
theorem mem_blk1_2 (t : Fin cfg1.N) (i : S800000x128.Idx) :
    i ∈ ((cfg1.win 2).blk t).view.set ↔ ∀ a : Fin 2, win1_2.index t a * S6400x128.size a ≤ (i a).val ∧ (i a).val < win1_2.index t a * S6400x128.size a + S6400x128.size a := by
  show i ∈ ((View.whole main_v1).slice (win1_2.rect t)).set ↔ _
  rw [View.set_slice_whole, Rect.mem_set_unit]
  exact Iff.rfl

/-- Every index of the projected edge array lies in the block of the point its row falls in: row r in block r / 6400. -/
theorem cover1_2_all (i : S800000x128.Idx) :
    ∃ t : Fin cfg1.N, (cfg1.win 2).flush t = true ∧ i ∈ ((cfg1.win 2).blk t).view.set := by
  have hN : cfg1.N = 125 := N_1
  have hi0 : (i 0).val < 800000 := (i 0).isLt
  have hi1 : (i 1).val < 128 := (i 1).isLt
  have hlt : (i 0).val / 6400 < cfg1.N := by rw [hN]; omega
  obtain ⟨-, -, -, -, e0, e1⟩ := idx1 ⟨(i 0).val / 6400, hlt⟩
  refine ⟨⟨(i 0).val / 6400, hlt⟩, flush1_2 _, ?_⟩
  rw [mem_blk1_2]
  intro a
  match a with
  | ⟨0, _⟩ =>
    show win1_2.index ⟨(i 0).val / 6400, hlt⟩ 0 * 6400 ≤ (i 0).val ∧ (i 0).val < win1_2.index ⟨(i 0).val / 6400, hlt⟩ 0 * 6400 + 6400
    rw [e0]; show (i 0).val / 6400 * 6400 ≤ (i 0).val ∧ (i 0).val < (i 0).val / 6400 * 6400 + 6400; omega
  | ⟨1, _⟩ =>
    show win1_2.index ⟨(i 0).val / 6400, hlt⟩ 1 * 128 ≤ (i 1).val ∧ (i 1).val < win1_2.index ⟨(i 0).val / 6400, hlt⟩ 1 * 128 + 128
    rw [e1]; omega

end K0

/-- Region 0's three outputs: the node features times the query, key and value matrices. -/
theorem region0_q (c : Dev nD) :
    ((dat0 V c).arrAt 4 cfg0.N : S50000x128.Idx → EReal) = Spec.proj (V c main_arg2) (V c main_arg5) :=
  (dat0 V c).arrAt_eq_of_cover 4 (Spec.proj (V c main_arg2) (V c main_arg5)) (fun t _ => K0.flushed0_4_eq V c t) K0.cover0_4_all
theorem region0_k (c : Dev nD) :
    ((dat0 V c).arrAt 5 cfg0.N : S50000x128.Idx → EReal) = Spec.proj (V c main_arg2) (V c main_arg6) :=
  (dat0 V c).arrAt_eq_of_cover 5 (Spec.proj (V c main_arg2) (V c main_arg6)) (fun t _ => K0.flushed0_5_eq V c t) K0.cover0_5_all
theorem region0_v (c : Dev nD) :
    ((dat0 V c).arrAt 6 cfg0.N : S50000x128.Idx → EReal) = Spec.proj (V c main_arg2) (V c main_arg7) :=
  (dat0 V c).arrAt_eq_of_cover 6 (Spec.proj (V c main_arg2) (V c main_arg7)) (fun t _ => K0.flushed0_6_eq V c t) K0.cover0_6_all

/-- Region 1's output: the edge features times their matrix. -/
theorem region1_ef (c : Dev nD) :
    ((dat1 V c).arrAt 2 cfg1.N : S800000x128.Idx → EReal) = Spec.proj (V c main_arg3) (V c main_arg8) :=
  (dat1 V c).arrAt_eq_of_cover 2 (Spec.proj (V c main_arg3) (V c main_arg8)) (fun t _ => K0.flushed1_2_eq V c t) K0.cover1_2_all

end Cert.KernelIdeal.Val

end
-- ==== Proof.K2.lean ====
import proofs.«400303_j74148315398273_1_alg».proof.Proof.Gen.KernelIdeal.Frame
import proofs.«400303_j74148315398273_1_alg».proof.Proof.Spec
import proofs.«400303_j74148315398273_1_alg».proof.Proof.LibDot
import Idealize.ShloMosaic.Lib.Pipeline.Value
import Idealize.ShloMosaic.Lib.ValueIdx

noncomputable section

open scoped BigOperators

namespace Cert.KernelIdeal.Val

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

namespace Region2

/-! ## The body's two stored values at an entry -/

/-- The weight block at row p and head h: the row's scores (key times query times a quarter times edge feature) against
    column h of the 128 × 8 matrix, summed over the 128 channels, clipped to [-5, 5] and exponentiated. A matrix product
    into a zero accumulator is the plain sum of products. -/
theorem pay1_apply (x0 x1 x2 : Vec Ideal S3200x128 .f32) (x4 : Vec Ideal S128x8 .f32) (p : Fin 3200) (h : Fin 8) :
    k2_pay1 x0 x1 x2 x4 (ix2 p h)
      = Ideal.exp (min Spec.hi (max Spec.lo
          (∑ d : Fin 128, (x0 (ix2 p d) * x1 (ix2 p d) * Spec.quarter * x2 (ix2 p d)) * x4 (ix2 d h)))) := by
  unfold k2_pay1
  simp only [shapeCast_self]
  show Ideal.exp (min Spec.hi (max Spec.lo (matmul (F := Ideal) dot_S3200x128_S128x8_S3200x8_1_0_0_1_n_n (some .fp32) _ x4 (constant (F := Ideal) S3200x8 .f32 0x00000000#32) (ix2 p h)))) = _
  rw [LibDot.matmul_zero_apply _ rfl rfl rfl rfl rfl rfl]
  rfl

/-- The weighted-value block at row p and channel c: the value there times the row's eight weights against column c of
    the 8 × 128 matrix, summed over the heads. -/
theorem pay2_apply (x0 x1 x2 x3 : Vec Ideal S3200x128 .f32) (x4 : Vec Ideal S128x8 .f32) (x5 : Vec Ideal S8x128 .f32)
    (p : Fin 3200) (c : Fin 128) :
    k2_pay2 x0 x1 x2 x4 x5 x3 (ix2 p c)
      = x3 (ix2 p c) * ∑ h : Fin 8, k2_pay1 x0 x1 x2 x4 (ix2 p h) * x5 (ix2 h c) := by
  unfold k2_pay2
  simp only [shapeCast_self]
  show x3 (ix2 p c) * (matmul (F := Ideal) dot_S3200x8_S8x128_S3200x128_1_0_0_1_n_n (some .fp32) (k2_pay1 x0 x1 x2 x4) x5 (constant (F := Ideal) S3200x128 .f32 0x00000000#32) (ix2 p c)) = _
  rw [LibDot.matmul_zero_apply _ rfl rfl rfl rfl rfl rfl]

/-- Where row p of the three row blocks is row r of three arrays and the matrix block is a matrix, the weight block's
    row p is row r of the weights of those arrays and that matrix. -/
theorem wt_point (a0 a1 a2 : FVec Ideal Spec.SExD .f32) (mg : FVec Ideal S128x8 .f32)
    (x0 x1 x2 : Vec Ideal S3200x128 .f32) (x4 : Vec Ideal S128x8 .f32) (p : Fin 3200) (r : Fin 800000)
    (h0 : ∀ d, x0 (ix2 p d) = a0 (ix2 r d)) (h1 : ∀ d, x1 (ix2 p d) = a1 (ix2 r d))
    (h2 : ∀ d, x2 (ix2 p d) = a2 (ix2 r d)) (h4 : x4 = mg) (h : Fin 8) :
    k2_pay1 x0 x1 x2 x4 (ix2 p h) = Spec.weightM (Spec.score a0 a1 a2) mg (ix2 r h) := by
  rw [pay1_apply]
  subst h4
  simp only [h0, h1, h2]
  rfl

/-- And with the values' row and the 8 × 128 matrix as well, the weighted-value block's row p is row r of the weighted
    values. -/
theorem wv_point (a0 a1 a2 a3 : FVec Ideal Spec.SExD .f32) (mg : FVec Ideal S128x8 .f32) (mb : FVec Ideal S8x128 .f32)
    (x0 x1 x2 x3 : Vec Ideal S3200x128 .f32) (x4 : Vec Ideal S128x8 .f32) (x5 : Vec Ideal S8x128 .f32)
    (p : Fin 3200) (r : Fin 800000)
    (h0 : ∀ d, x0 (ix2 p d) = a0 (ix2 r d)) (h1 : ∀ d, x1 (ix2 p d) = a1 (ix2 r d))
    (h2 : ∀ d, x2 (ix2 p d) = a2 (ix2 r d)) (h3 : ∀ d, x3 (ix2 p d) = a3 (ix2 r d))
    (h4 : x4 = mg) (h5 : x5 = mb) (c : Fin 128) :
    k2_pay2 x0 x1 x2 x4 x5 x3 (ix2 p c)
      = Spec.weightedM a3 (Spec.weightM (Spec.score a0 a1 a2) mg) mb (ix2 r c) := by
  rw [pay2_apply, h3 c]
  subst h5
  simp only [wt_point a0 a1 a2 mg x0 x1 x2 x4 p r h0 h1 h2 h4]
  rfl

/-! ## The windows' blocks as rows of their arrays -/

theorem hz : (![0, 0] : Fin 2 → Nat) = fun _ => 0 := funext fun a => by fin_cases a <;> rfl

/-- The index maps over the grid: a row-blocked window's block at point t is block (t, 0), a matrix's is (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of the keys' block at point t is row 3200 t + p of the keys. -/
theorem iblk_keys (c : Dev nD) (t : Fin cfg2.N) (p : Fin 3200) (d : Fin 128) (r : Fin 800000)
    (hr : r.val = t.val * 3200 + p.val) :
    (iblk2 V c 0 t : Vec Ideal S3200x128 .f32) (ix2 p d) = (V c main_v2 : S800000x128.Idx → EReal) (ix2 r d) := by
  obtain ⟨e0, e1, -⟩ := idx_facts t
  unfold iblk2
  rw [View.read_apply]
  show V c main_v2 _ = V c main_v2 _
  congr 1
  funext a
  apply Fin.ext
  match a with
  | ⟨0, _⟩ => show win2_0.index t (0 : Fin 2) * 3200 + 1 * p.val = r.val; rw [e0, hr]; omega
  | ⟨1, _⟩ => show win2_0.index t (1 : Fin 2) * 128 + 1 * d.val = d.val; rw [e1]; omega

/-- Row p of the queries' block at point t is row 3200 t + p of the queries. -/
theorem iblk_queries (c : Dev nD) (t : Fin cfg2.N) (p : Fin 3200) (d : Fin 128) (r : Fin 800000)
    (hr : r.val = t.val * 3200 + p.val) :
    (iblk2 V c 1 t : Vec Ideal S3200x128 .f32) (ix2 p d) = (V c main_v3 : S800000x128.Idx → EReal) (ix2 r d) := by
  obtain ⟨-, -, e0, e1, -⟩ := idx_facts t
  unfold iblk2
  rw [View.read_apply]
  show V c main_v3 _ = V c main_v3 _
  congr 1
  funext a
  apply Fin.ext
  match a with
  | ⟨0, _⟩ => show win2_1.index t (0 : Fin 2) * 3200 + 1 * p.val = r.val; rw [e0, hr]; omega
  | ⟨1, _⟩ => show win2_1.index t (1 : Fin 2) * 128 + 1 * d.val = d.val; rw [e1]; omega

/-- Row p of the edge features' block at point t is row 3200 t + p of the edge features. -/
theorem iblk_edge (c : Dev nD) (t : Fin cfg2.N) (p : Fin 3200) (d : Fin 128) (r : Fin 800000)
    (hr : r.val = t.val * 3200 + p.val) :
    (iblk2 V c 2 t : Vec Ideal S3200x128 .f32) (ix2 p d) = (V c main_v1 : S800000x128.Idx → EReal) (ix2 r d) := by
  obtain ⟨-, -, -, -, e0, e1, -⟩ := idx_facts t
  unfold iblk2
  rw [View.read_apply]
  show V c main_v1 _ = V c main_v1 _
  congr 1
  funext a
  apply Fin.ext
  match a with
  | ⟨0, _⟩ => show win2_2.index t (0 : Fin 2) * 3200 + 1 * p.val = r.val; rw [e0, hr]; omega
  | ⟨1, _⟩ => show win2_2.index t (1 : Fin 2) * 128 + 1 * d.val = d.val; rw [e1]; omega

/-- Row p of the values' block at point t is row 3200 t + p of the values. -/
theorem iblk_values (c : Dev nD) (t : Fin cfg2.N) (p : Fin 3200) (d : Fin 128) (r : Fin 800000)
    (hr : r.val = t.val * 3200 + p.val) :
    (iblk2 V c 3 t : Vec Ideal S3200x128 .f32) (ix2 p d) = (V c main_v4 : S800000x128.Idx → EReal) (ix2 r d) := by
  obtain ⟨-, -, -, -, -, -, e0, e1, -⟩ := idx_facts t
  unfold iblk2
  rw [View.read_apply]
  show V c main_v4 _ = V c main_v4 _
  congr 1
  funext a
  apply Fin.ext
  match a with
  | ⟨0, _⟩ => show win2_3.index t (0 : Fin 2) * 3200 + 1 * p.val = r.val; rw [e0, hr]; omega
  | ⟨1, _⟩ => show win2_3.index t (1 : Fin 2) * 128 + 1 * d.val = d.val; rw [e1]; omega

/-- The 128 × 8 matrix's block at every point is the matrix. -/
theorem iblk_gather (c : Dev nD) (t : Fin cfg2.N) :
    (iblk2 V c 4 t : Vec Ideal S128x8 .f32) = (V c main_cst : S128x8.Idx → EReal) := by
  obtain ⟨-, -, -, -, -, -, -, -, e0, e1, -⟩ := idx_facts t
  funext j
  unfold iblk2
  rw [View.read_apply]
  show V c main_cst _ = V c main_cst _
  congr 1
  funext a
  apply Fin.ext
  match a with
  | ⟨0, _⟩ => show win2_4.index t (0 : Fin 2) * 128 + 1 * (j 0).val = (j 0).val; rw [e0]; omega
  | ⟨1, _⟩ => show win2_4.index t (1 : Fin 2) * 8 + 1 * (j 1).val = (j 1).val; rw [e1]; omega

/-- The 8 × 128 matrix's block at every point is the matrix. -/
theorem iblk_spread (c : Dev nD) (t : Fin cfg2.N) :
    (iblk2 V c 5 t : Vec Ideal S8x128 .f32) = (V c main_cst_0 : S8x128.Idx → EReal) := by
  obtain ⟨-, -, -, -, -, -, -, -, -, -, e0, e1, -⟩ := idx_facts t
  funext j
  unfold iblk2
  rw [View.read_apply]
  show V c main_cst_0 _ = V c main_cst_0 _
  congr 1
  funext a
  apply Fin.ext
  match a with
  | ⟨0, _⟩ => show win2_5.index t (0 : Fin 2) * 8 + 1 * (j 0).val = (j 0).val; rw [e0]; omega
  | ⟨1, _⟩ => show win2_5.index t (1 : Fin 2) * 128 + 1 * (j 1).val = (j 1).val; rw [e1]; omega

/-! ## What a point writes back -/

/-- The weights of the region's arrays. -/
abbrev wtArr (c : Dev nD) : FVec Ideal Spec.SExH .f32 :=
  Spec.weightM (Spec.score (V c main_v2) (V c main_v3) (V c main_v1)) (V c main_cst)

/-- The weighted values of the region's arrays. -/
abbrev wvArr (c : Dev nD) : FVec Ideal Spec.SExD .f32 :=
  Spec.weightedM (V c main_v4) (wtArr V c) (V c main_cst_0)

/-- Row p of the weight block at point t is row 3200 t + p of the weights. -/
theorem wt_block (c : Dev nD) (t : Fin cfg2.N) (p : Fin 3200) (h : Fin 8) (r : Fin 800000)
    (hr : r.val = t.val * 3200 + p.val) :
    k2_pay1 (iblk2 V c 0 t) (iblk2 V c 1 t) (iblk2 V c 2 t) (iblk2 V c 4 t) (ix2 p h) = wtArr V c (ix2 r h) :=
  wt_point (V c main_v2) (V c main_v3) (V c main_v1) (V c main_cst)
    (iblk2 V c 0 t) (iblk2 V c 1 t) (iblk2 V c 2 t) (iblk2 V c 4 t) p r
    (fun d => iblk_keys V c t p d r hr) (fun d => iblk_queries V c t p d r hr) (fun d => iblk_edge V c t p d r hr)
    (iblk_gather V c t) h

/-- Row p of the weighted-value block at point t is row 3200 t + p of the weighted values. -/
theorem wv_block (c : Dev nD) (t : Fin cfg2.N) (p : Fin 3200) (k : Fin 128) (r : Fin 800000)
    (hr : r.val = t.val * 3200 + p.val) :
    k2_pay2 (iblk2 V c 0 t) (iblk2 V c 1 t) (iblk2 V c 2 t) (iblk2 V c 4 t) (iblk2 V c 5 t) (iblk2 V c 3 t) (ix2 p k)
      = wvArr V c (ix2 r k) :=
  wv_point (V c main_v2) (V c main_v3) (V c main_v1) (V c main_v4) (V c main_cst) (V c main_cst_0)
    (iblk2 V c 0 t) (iblk2 V c 1 t) (iblk2 V c 2 t) (iblk2 V c 3 t) (iblk2 V c 4 t) (iblk2 V c 5 t) p r
    (fun d => iblk_keys V c t p d r hr) (fun d => iblk_queries V c t p d r hr) (fun d => iblk_edge V c t p d r hr)
    (fun d => iblk_values V c t p d r hr) (iblk_gather V c t) (iblk_spread V c t) k

/-- What point t writes back through the weights' window is block t of the weights. -/
theorem flushed7_eq (c : Dev nD) (t : Fin cfg2.N) :
    (dat2 V c).flushed 7 t = ((cfg2.win 7).blk t).view.read (Elt Ideal) (wtArr V c) := by
  show (cfg2.win 7).cut (grid2.coords t) ((dat2 V c).after 7 t) = _
  rw [after2_7]
  unfold out2_7
  rw [View.canon_unit_zero hz]
  simp only [View.ld_unit_zero (S := S3200x128) hz, View.ld_unit_zero (S := S128x8) hz]
  obtain ⟨-, -, -, -, -, -, -, -, -, -, -, -, -, -, e0, e1⟩ := idx_facts t
  funext j
  obtain ⟨p, h, rfl⟩ : ∃ (p : Fin 3200) (h : Fin 8), j = ix2 p h := ⟨j 0, j 1, eq_ix2 j⟩
  have hN : cfg2.N = 250 := N_2
  have hr : t.val * 3200 + p.val < 800000 := by have := t.isLt; have := p.isLt; omega
  rw [View.read_apply]
  refine (wt_block V c t p h ⟨t.val * 3200 + p.val, hr⟩ rfl).trans ?_
  congr 1
  funext a
  apply Fin.ext
  match a with
  | ⟨0, _⟩ => show t.val * 3200 + p.val = win2_7.index t (0 : Fin 2) * 3200 + 1 * p.val; rw [e0]; omega
  | ⟨1, _⟩ => show h.val = win2_7.index t (1 : Fin 2) * 8 + 1 * h.val; rw [e1]; omega

/-- What point t writes back through the weighted values' window is block t of the weighted values. -/
theorem flushed6_eq (c : Dev nD) (t : Fin cfg2.N) :
    (dat2 V c).flushed 6 t = ((cfg2.win 6).blk t).view.read (Elt Ideal) (wvArr V c) := by
  show (cfg2.win 6).cut (grid2.coords t) ((dat2 V c).after 6 t) = _
  rw [after2_6]
  unfold out2_6
  rw [View.canon_unit_zero hz]
  simp only [View.ld_unit_zero (S := S3200x128) hz, View.ld_unit_zero (S := S128x8) hz, View.ld_unit_zero (S := S8x128) hz]
  obtain ⟨-, -, -, -, -, -, -, -, -, -, -, -, e0, e1, -⟩ := idx_facts t
  funext j
  obtain ⟨p, k, rfl⟩ : ∃ (p : Fin 3200) (k : Fin 128), j = ix2 p k := ⟨j 0, j 1, eq_ix2 j⟩
  have hN : cfg2.N = 250 := N_2
  have hr : t.val * 3200 + p.val < 800000 := by have := t.isLt; have := p.isLt; omega
  rw [View.read_apply]
  refine (wv_block V c t p k ⟨t.val * 3200 + p.val, hr⟩ rfl).trans ?_
  congr 1
  funext a
  apply Fin.ext
  match a with
  | ⟨0, _⟩ => show t.val * 3200 + p.val = win2_6.index t (0 : Fin 2) * 3200 + 1 * p.val; rw [e0]; omega
  | ⟨1, _⟩ => show k.val = win2_6.index t (1 : Fin 2) * 128 + 1 * k.val; rw [e1]; omega

/-! ## The blocks cover the arrays -/

/-- An index of the weights' array is in point t's block iff each coordinate is in the block's range on its axis. -/
theorem mem_blk7 (t : Fin cfg2.N) (i : S800000x8.Idx) :
    i ∈ ((cfg2.win 7).blk t).view.set ↔ ∀ a : Fin 2, win2_7.index t a * S3200x8.size a ≤ (i a).val ∧ (i a).val < win2_7.index t a * S3200x8.size a + S3200x8.size a := by
  show i ∈ ((View.whole main_v5_1).slice (win2_7.rect t)).set ↔ _
  rw [View.set_slice_whole, Rect.mem_set_unit]
  exact Iff.rfl

/-- Every index of the weights' array is in the block of the point its row falls in: row r in point r / 3200. -/
theorem cover7 (i : S800000x8.Idx) :
    ∃ t : Fin cfg2.N, (cfg2.win 7).flush t = true ∧ i ∈ ((cfg2.win 7).blk t).view.set := by
  have hi0 : (i 0).val < 800000 := (i 0).isLt
  have hi1 : (i 1).val < 8 := (i 1).isLt
  have hN : cfg2.N = 250 := N_2
  have ht : (i 0).val / 3200 < cfg2.N := by rw [hN]; omega
  obtain ⟨-, -, -, -, -, -, -, -, -, -, -, -, -, -, e0, e1⟩ := idx_facts ⟨(i 0).val / 3200, ht⟩
  refine ⟨⟨(i 0).val / 3200, ht⟩, flush2_7 _, ?_⟩
  rw [mem_blk7]
  intro a
  match a with
  | ⟨0, _⟩ =>
    show win2_7.index ⟨(i 0).val / 3200, ht⟩ (0 : Fin 2) * 3200 ≤ (i 0).val ∧ (i 0).val < win2_7.index ⟨(i 0).val / 3200, ht⟩ (0 : Fin 2) * 3200 + 3200
    rw [e0]; dsimp only; omega
  | ⟨1, _⟩ =>
    show win2_7.index ⟨(i 0).val / 3200, ht⟩ (1 : Fin 2) * 8 ≤ (i 1).val ∧ (i 1).val < win2_7.index ⟨(i 0).val / 3200, ht⟩ (1 : Fin 2) * 8 + 8
    rw [e1]; omega

/-- An index of the weighted values' array is in point t's block iff each coordinate is in the block's range on its axis. -/
theorem mem_blk6 (t : Fin cfg2.N) (i : S800000x128.Idx) :
    i ∈ ((cfg2.win 6).blk t).view.set ↔ ∀ a : Fin 2, win2_6.index t a * S3200x128.size a ≤ (i a).val ∧ (i a).val < win2_6.index t a * S3200x128.size a + S3200x128.size a := by
  show i ∈ ((View.whole main_v5_0).slice (win2_6.rect t)).set ↔ _
  rw [View.set_slice_whole, Rect.mem_set_unit]
  exact Iff.rfl

/-- Every index of the weighted values' array is in the block of the point its row falls in. -/
theorem cover6 (i : S800000x128.Idx) :
    ∃ t : Fin cfg2.N, (cfg2.win 6).flush t = true ∧ i ∈ ((cfg2.win 6).blk t).view.set := by
  have hi0 : (i 0).val < 800000 := (i 0).isLt
  have hi1 : (i 1).val < 128 := (i 1).isLt
  have hN : cfg2.N = 250 := N_2
  have ht : (i 0).val / 3200 < cfg2.N := by rw [hN]; omega
  obtain ⟨-, -, -, -, -, -, -, -, -, -, -, -, e0, e1, -⟩ := idx_facts ⟨(i 0).val / 3200, ht⟩
  refine ⟨⟨(i 0).val / 3200, ht⟩, flush2_6 _, ?_⟩
  rw [mem_blk6]
  intro a
  match a with
  | ⟨0, _⟩ =>
    show win2_6.index ⟨(i 0).val / 3200, ht⟩ (0 : Fin 2) * 3200 ≤ (i 0).val ∧ (i 0).val < win2_6.index ⟨(i 0).val / 3200, ht⟩ (0 : Fin 2) * 3200 + 3200
    rw [e0]; dsimp only; omega
  | ⟨1, _⟩ =>
    show win2_6.index ⟨(i 0).val / 3200, ht⟩ (1 : Fin 2) * 128 ≤ (i 1).val ∧ (i 1).val < win2_6.index ⟨(i 0).val / 3200, ht⟩ (1 : Fin 2) * 128 + 128
    rw [e1]; omega

end Region2

/-! ## The two output arrays when the region ends -/

/-- Region 2's second output: the edges' weights, the head sum as a product with the 128 × 8 matrix the region is given. -/
theorem region2_wt (c : Dev nD) :
    ((dat2 V c).arrAt 7 cfg2.N : S800000x8.Idx → EReal)
      = Spec.weightM (Spec.score (V c main_v2) (V c main_v3) (V c main_v1)) (V c main_cst) :=
  (dat2 V c).arrAt_eq_of_cover 7 (Region2.wtArr V c) (fun t _ => Region2.flushed7_eq V c t) Region2.cover7

/-- Region 2's first output: the source's values times the head's weight, spread by the 8 × 128 matrix the region is given. -/
theorem region2_wv (c : Dev nD) :
    ((dat2 V c).arrAt 6 cfg2.N : S800000x128.Idx → EReal)
      = Spec.weightedM (V c main_v4) (Spec.weightM (Spec.score (V c main_v2) (V c main_v3) (V c main_v1)) (V c main_cst)) (V c main_cst_0) :=
  (dat2 V c).arrAt_eq_of_cover 6 (Region2.wvArr V c) (fun t _ => Region2.flushed6_eq V c t) Region2.cover6

end Cert.KernelIdeal.Val

end
-- ==== Proof.K3.lean ====
import proofs.«400303_j74148315398273_1_alg».proof.Proof.Gen.KernelIdeal.Frame
import proofs.«400303_j74148315398273_1_alg».proof.Proof.Spec
import proofs.«400303_j74148315398273_1_alg».proof.Proof.LibDot
import Idealize.ShloMosaic.Lib.Pipeline.Value
import Idealize.ShloMosaic.Lib.ValueLayout
import Idealize.ShloMosaic.Lib.ValueIdx

noncomputable section

open scoped BigOperators

namespace Cert.KernelIdeal.Val

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offset of a whole-buffer access, rank 2 and rank 1. -/
theorem off2_zero : (![0, 0] : Fin 2 → Nat) = fun _ => 0 := funext fun a => by fin_cases a <;> rfl
theorem off1_zero : (![0] : Fin 1 → Nat) = fun _ => 0 := funext fun a => by fin_cases a; rfl

/-! ## Region 3: the projected attention output plus bias, added to the node features -/

/-- The payload at entry (p, q): the node feature, plus row p of the attention output times column q of the weight,
    plus the bias of column q. The kernel adds the product to the feature first and the bias last; the sum is
    regrouped by associativity of addition on the extended reals. -/
theorem pay3_apply (xa : FVec Ideal S5000x128 .f32) (w : FVec Ideal S128x128 .f32) (xh : FVec Ideal S5000x128 .f32)
    (b : FVec Ideal S128 .f32) (p : Fin 5000) (q : Fin 128) :
    k3_pay1 (F := Ideal) xa w xh b (ix2 p q)
      = xh (ix2 p q) + ((∑ k : Fin 128, xa (ix2 p k) * w (ix2 k q)) + b (ix1 q)) := by
  unfold k3_pay1
  rw [addf_apply, addf_apply, broadcastTo_1b_ab_apply, shapeCast_a_1a_apply,
    LibDot.matmul_zero_apply _ rfl rfl rfl rfl rfl rfl, add_assoc]
  simp only [truncf_apply, shapeCast_self]

/-- The index maps of region 3 over its ten points: the three row windows sit at block (t, 0), the weight and the
    bias at block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The body's output over two blocks that are rows T*5000 … of two arrays, a whole weight and a whole bias, at a
    block index that sits at array index i, is the residual at i. -/
theorem out3_at (xa xh : FVec Ideal S5000x128 .f32) (w : FVec Ideal S128x128 .f32) (b : FVec Ideal S128 .f32)
    (XA XH : FVec Ideal S50000x128 .f32) (T : Nat)
    (hxa : ∀ (p : Fin 5000) (q : Fin 128) (n : Fin 50000), n.val = T * 5000 + p.val → xa (ix2 p q) = XA (ix2 n q))
    (hxh : ∀ (p : Fin 5000) (q : Fin 128) (n : Fin 50000), n.val = T * 5000 + p.val → xh (ix2 p q) = XH (ix2 n q))
    (y : S5000x128.Idx) (i : S50000x128.Idx) (h0 : (i 0).val = T * 5000 + (y 0).val) (h1 : (i 1).val = (y 1).val) :
    out3_4 (F := Ideal) xa xh w b y = Spec.residual XA XH w b i := by
  unfold out3_4
  rw [View.canon_unit_zero off2_zero]
  simp only [View.ld_unit_zero (S := S5000x128) off2_zero, View.ld_unit_zero (S := S128x128) off2_zero,
    View.ld_unit_zero (S := S128) off1_zero]
  obtain ⟨p, q, rfl⟩ : ∃ (p : Fin 5000) (q : Fin 128), y = ix2 p q := ⟨y 0, y 1, eq_ix2 y⟩
  obtain ⟨n, r, rfl⟩ : ∃ (n : Fin 50000) (r : Fin 128), i = ix2 n r := ⟨i 0, i 1, eq_ix2 i⟩
  obtain rfl : r = q := Fin.ext h1
  rw [pay3_apply, hxh p r n h0, Finset.sum_congr rfl fun k _ => by rw [hxa p k n h0]]
  rfl

/-- Window 0's block at point t is rows t*5000 … t*5000+4999 of the attention output. -/
theorem iblk3_0_apply (c : Dev nD) (t : Fin cfg3.N) (p : Fin 5000) (q : Fin 128) (n : Fin 50000)
    (hn : n.val = t.val * 5000 + p.val) :
    (iblk3 V c 0 t : Vec Ideal S5000x128 .f32) (ix2 p q) = (V c main_v16 : S50000x128.Idx → EReal) (ix2 n q) := by
  obtain ⟨e0, e1, -⟩ := idx3 t
  unfold iblk3
  rw [View.read_apply]
  show V c main_v16 _ = V c main_v16 _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 128 + 1 * q.val = q.val; rw [e1]; omega

/-- Window 1's block at point t is rows t*5000 … t*5000+4999 of the node features. -/
theorem iblk3_1_apply (c : Dev nD) (t : Fin cfg3.N) (p : Fin 5000) (q : Fin 128) (n : Fin 50000)
    (hn : n.val = t.val * 5000 + p.val) :
    (iblk3 V c 1 t : Vec Ideal S5000x128 .f32) (ix2 p q) = (V c main_arg2 : S50000x128.Idx → EReal) (ix2 n q) := by
  obtain ⟨-, -, e0, e1, -⟩ := idx3 t
  unfold iblk3
  rw [View.read_apply]
  show V c main_arg2 _ = V c main_arg2 _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 128 + 1 * q.val = q.val; rw [e1]; omega

/-- The weight's block is the whole matrix, at every point. -/
theorem iblk3_2_eq (c : Dev nD) (t : Fin cfg3.N) :
    (iblk3 V c 2 t : Vec Ideal S128x128 .f32) = (V c main_arg9 : S128x128.Idx → EReal) := by
  obtain ⟨-, -, -, -, e0, e1, -⟩ := idx3 t
  funext y
  unfold iblk3
  rw [View.read_apply]
  show V c main_arg9 _ = V c main_arg9 y
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- The bias's block is the whole vector, at every point. -/
theorem iblk3_3_eq (c : Dev nD) (t : Fin cfg3.N) :
    (iblk3 V c 3 t : Vec Ideal S128 .f32) = (V c main_arg10 : S128.Idx → EReal) := by
  obtain ⟨-, -, -, -, -, -, e, -⟩ := idx3 t
  funext y
  unfold iblk3
  rw [View.read_apply]
  show V c main_arg10 _ = V c main_arg10 y
  congr 1
  funext a
  apply Fin.ext
  match a with
  | ⟨0, _⟩ => show win3_3.index t (0 : Fin 1) * 128 + 1 * (y 0).val = (y 0).val; rw [e]; omega

/-- What point t writes back is block t of the residual of the region's input arrays. -/
theorem flushed3_eq (c : Dev nD) (t : Fin cfg3.N) :
    (dat3 V c).flushed 4 t = ((cfg3.win 4).blk t).view.read (Elt Ideal)
      (Spec.residual (V c main_v16) (V c main_arg2) (V c main_arg9) (V c main_arg10)) := by
  show (cfg3.win 4).cut (grid3.coords t) ((dat3 V c).after 4 t) = _
  rw [after3_4]
  obtain ⟨-, -, -, -, -, -, -, e7, e8⟩ := idx3 t
  funext j
  show out3_4 (iblk3 V c 0 t) (iblk3 V c 1 t) (iblk3 V c 2 t) (iblk3 V c 3 t) ((cfg3.win 4).xinj (grid3.coords t) j)
    = Spec.residual (V c main_v16) (V c main_arg2) (V c main_arg9) (V c main_arg10) (((cfg3.win 4).blk t).view.emb j)
  rw [← iblk3_2_eq V c t, ← iblk3_3_eq V c t]
  refine out3_at (iblk3 V c 0 t) (iblk3 V c 1 t) (iblk3 V c 2 t) (iblk3 V c 3 t) (V c main_v16) (V c main_arg2) t.val
    (fun p q n hn => iblk3_0_apply V c t p q n hn) (fun p q n hn => iblk3_1_apply V c t p q n hn) _ _ ?_ ?_
  · show win3_4.index t (0 : Fin 2) * 5000 + 1 * (j 0).val = t.val * 5000 + (j 0).val
    rw [e7]; omega
  · show win3_4.index t (1 : Fin 2) * 128 + 1 * (j 1).val = (j 1).val
    rw [e8]; omega

/-- An index of the array is in point t's block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v17).slice (win3_4.rect t)).set ↔ _
  rw [View.set_slice_whole, Rect.mem_set_unit]
  exact Iff.rfl

/-- Row r lies in the block of point r / 5000, and every point writes its block back: the ten blocks fill the array. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, -, e7, e8⟩ := idx3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e8]; omega

/-- Region 3's output: the projected attention output plus bias, added to the node features. -/
theorem region3_value (c : Dev nD) :
    ((dat3 V c).arrAt 4 cfg3.N : S50000x128.Idx → EReal)
      = Spec.residual (V c main_v16) (V c main_arg2) (V c main_arg9) (V c main_arg10) :=
  (dat3 V c).arrAt_eq_of_cover 4 _ (fun t _ => flushed3_eq V c t) cover3

/-! ## Region 5: the second normalisation -/

/-- The payload at entry (p, q): the entry centred by the column's mean, scaled by the inverse root of the column's
    variance plus 1e-5, times the column's gamma, plus the column's beta. -/
theorem pay5_apply (x : FVec Ideal S5000x128 .f32) (mu var g be : FVec Ideal S128 .f32) (p : Fin 5000) (q : Fin 128) :
    k5_pay1 (F := Ideal) x mu var g be (ix2 p q)
      = (x (ix2 p q) - mu (ix1 q)) * Ideal.rsqrt (var (ix1 q) + Spec.eps5) * g (ix1 q) + be (ix1 q) := by
  unfold k5_pay1
  rw [addf_apply, mulf_apply, mulf_apply, subf_apply]
  simp only [broadcastTo_1b_ab_apply, shapeCast_a_1a_apply, shapeCast_self]
  rfl

/-- The index maps of region 5 over its ten points: the two row windows sit at block (t, 0), the four vectors at
    block 0. -/
theorem idx5 : ∀ t : Fin cfg5.N, win5_0.index t (0 : Fin 2) = t.val ∧ win5_0.index t (1 : Fin 2) = 0
    ∧ win5_1.index t (0 : Fin 1) = 0 ∧ win5_2.index t (0 : Fin 1) = 0 ∧ win5_3.index t (0 : Fin 1) = 0
    ∧ win5_4.index t (0 : Fin 1) = 0
    ∧ win5_5.index t (0 : Fin 2) = t.val ∧ win5_5.index t (1 : Fin 2) = 0 :=
  (by decide +kernel : ∀ t : Fin grid5.N, _)

/-- The body's output over a block that is rows T*5000 … of one array and four whole vectors, at a block index that
    sits at array index i, is the normalisation at i. -/
theorem out5_at (x : FVec Ideal S5000x128 .f32) (mu var g be : FVec Ideal S128 .f32)
    (X : FVec Ideal S50000x128 .f32) (T : Nat)
    (hx : ∀ (p : Fin 5000) (q : Fin 128) (n : Fin 50000), n.val = T * 5000 + p.val → x (ix2 p q) = X (ix2 n q))
    (y : S5000x128.Idx) (i : S50000x128.Idx) (h0 : (i 0).val = T * 5000 + (y 0).val) (h1 : (i 1).val = (y 1).val) :
    out5_5 (F := Ideal) x mu var g be y = Spec.norm X mu var g be i := by
  unfold out5_5
  rw [View.canon_unit_zero off2_zero]
  simp only [View.ld_unit_zero (S := S5000x128) off2_zero, View.ld_unit_zero (S := S128) off1_zero]
  obtain ⟨p, q, rfl⟩ : ∃ (p : Fin 5000) (q : Fin 128), y = ix2 p q := ⟨y 0, y 1, eq_ix2 y⟩
  obtain ⟨n, r, rfl⟩ : ∃ (n : Fin 50000) (r : Fin 128), i = ix2 n r := ⟨i 0, i 1, eq_ix2 i⟩
  obtain rfl : r = q := Fin.ext h1
  rw [pay5_apply, hx p r n h0]
  rfl

/-- Window 0's block at point t is rows t*5000 … t*5000+4999 of its array. -/
theorem iblk5_0_apply (c : Dev nD) (t : Fin cfg5.N) (p : Fin 5000) (q : Fin 128) (n : Fin 50000)
    (hn : n.val = t.val * 5000 + p.val) :
    (iblk5 V c 0 t : Vec Ideal S5000x128 .f32) (ix2 p q) = (V c main_v28 : S50000x128.Idx → EReal) (ix2 n q) := by
  obtain ⟨e0, e1, -⟩ := idx5 t
  unfold iblk5
  rw [View.read_apply]
  show V c main_v28 _ = V c main_v28 _
  congr 1
  funext a
  apply Fin.ext
  match a with
  | ⟨0, _⟩ => show win5_0.index t (0 : Fin 2) * 5000 + 1 * p.val = n.val; rw [e0, hn]; omega
  | ⟨1, _⟩ => show win5_0.index t (1 : Fin 2) * 128 + 1 * q.val = q.val; rw [e1]; omega

/-- The mean's block is the whole vector, at every point. -/
theorem iblk5_1_eq (c : Dev nD) (t : Fin cfg5.N) :
    (iblk5 V c 1 t : Vec Ideal S128 .f32) = (V c main_v31 : S128.Idx → EReal) := by
  obtain ⟨-, -, e, -⟩ := idx5 t
  funext y
  unfold iblk5
  rw [View.read_apply]
  show V c main_v31 _ = V c main_v31 y
  congr 1
  funext a
  apply Fin.ext
  match a with
  | ⟨0, _⟩ => show win5_1.index t (0 : Fin 1) * 128 + 1 * (y 0).val = (y 0).val; rw [e]; omega

/-- The variance's block is the whole vector, at every point. -/
theorem iblk5_2_eq (c : Dev nD) (t : Fin cfg5.N) :
    (iblk5 V c 2 t : Vec Ideal S128 .f32) = (V c main_v38 : S128.Idx → EReal) := by
  obtain ⟨-, -, -, e, -⟩ := idx5 t
  funext y
  unfold iblk5
  rw [View.read_apply]
  show V c main_v38 _ = V c main_v38 y
  congr 1
  funext a
  apply Fin.ext
  match a with
  | ⟨0, _⟩ => show win5_2.index t (0 : Fin 1) * 128 + 1 * (y 0).val = (y 0).val; rw [e]; omega

/-- Gamma's block is the whole vector, at every point. -/
theorem iblk5_3_eq (c : Dev nD) (t : Fin cfg5.N) :
    (iblk5 V c 3 t : Vec Ideal S128 .f32) = (V c main_arg15 : S128.Idx → EReal) := by
  obtain ⟨-, -, -, -, e, -⟩ := idx5 t
  funext y
  unfold iblk5
  rw [View.read_apply]
  show V c main_arg15 _ = V c main_arg15 y
  congr 1
  funext a
  apply Fin.ext
  match a with
  | ⟨0, _⟩ => show win5_3.index t (0 : Fin 1) * 128 + 1 * (y 0).val = (y 0).val; rw [e]; omega

/-- Beta's block is the whole vector, at every point. -/
theorem iblk5_4_eq (c : Dev nD) (t : Fin cfg5.N) :
    (iblk5 V c 4 t : Vec Ideal S128 .f32) = (V c main_arg16 : S128.Idx → EReal) := by
  obtain ⟨-, -, -, -, -, e, -⟩ := idx5 t
  funext y
  unfold iblk5
  rw [View.read_apply]
  show V c main_arg16 _ = V c main_arg16 y
  congr 1
  funext a
  apply Fin.ext
  match a with
  | ⟨0, _⟩ => show win5_4.index t (0 : Fin 1) * 128 + 1 * (y 0).val = (y 0).val; rw [e]; omega

/-- What point t writes back is block t of the normalisation of the region's input arrays. -/
theorem flushed5_eq (c : Dev nD) (t : Fin cfg5.N) :
    (dat5 V c).flushed 5 t = ((cfg5.win 5).blk t).view.read (Elt Ideal)
      (Spec.norm (V c main_v28) (V c main_v31) (V c main_v38) (V c main_arg15) (V c main_arg16)) := by
  show (cfg5.win 5).cut (grid5.coords t) ((dat5 V c).after 5 t) = _
  rw [after5_5]
  obtain ⟨-, -, -, -, -, -, e6, e7⟩ := idx5 t
  funext j
  show out5_5 (iblk5 V c 0 t) (iblk5 V c 1 t) (iblk5 V c 2 t) (iblk5 V c 3 t) (iblk5 V c 4 t) ((cfg5.win 5).xinj (grid5.coords t) j)
    = Spec.norm (V c main_v28) (V c main_v31) (V c main_v38) (V c main_arg15) (V c main_arg16) (((cfg5.win 5).blk t).view.emb j)
  rw [← iblk5_1_eq V c t, ← iblk5_2_eq V c t, ← iblk5_3_eq V c t, ← iblk5_4_eq V c t]
  refine out5_at (iblk5 V c 0 t) (iblk5 V c 1 t) (iblk5 V c 2 t) (iblk5 V c 3 t) (iblk5 V c 4 t) (V c main_v28) t.val
    (fun p q n hn => iblk5_0_apply V c t p q n hn) _ _ ?_ ?_
  · show win5_5.index t (0 : Fin 2) * 5000 + 1 * (j 0).val = t.val * 5000 + (j 0).val
    rw [e6]; omega
  · show win5_5.index t (1 : Fin 2) * 128 + 1 * (j 1).val = (j 1).val
    rw [e7]; omega

/-- An index of the array is in point t's block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v39).slice (win5_5.rect t)).set ↔ _
  rw [View.set_slice_whole, Rect.mem_set_unit]
  exact Iff.rfl

/-- Row r lies in the block of point r / 5000, and every point writes its block back: the ten blocks fill the array. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨-, -, -, -, -, -, e6, e7⟩ := idx5 ⟨(i 0).val / 5000, ht⟩
  refine ⟨⟨(i 0).val / 5000, ht⟩, flush5_5 _, ?_⟩
  rw [mem_blk5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e7]; omega

/-- Region 5's output: the second normalisation. -/
theorem region5_value (c : Dev nD) :
    ((dat5 V c).arrAt 5 cfg5.N : S50000x128.Idx → EReal)
      = Spec.norm (V c main_v28) (V c main_v31) (V c main_v38) (V c main_arg15) (V c main_arg16) :=
  (dat5 V c).arrAt_eq_of_cover 5 _ (fun t _ => flushed5_eq V c t) cover5

end Cert.KernelIdeal.Val

end
-- ==== Proof.K4.lean ====
/-
  The value of kernel region 4: the first normalisation and the two-layer network with its residual.

  The region walks the 50000 × 128 node table in ten blocks of 5000 rows. At a block x, with the [128] vectors mu, var,
  gamma, beta laid out as rows and repeated over the block's rows, the body computes
    xn  = ((x - mu) · rsqrt(var + 1e-5)) · gamma + beta,
    h1  = max(xn · W1 + b1, 0)      (W1 is 128 × 256),
    out = xn + (h1 · W2 + b2)       (W2 is 256 × 128),
  and stores out over the output's block. At the extended reals a change of float format is the identity and a matrix
  product into a zero accumulator is the plain sum of products, so entry (p, q) of a block's output depends on row p of
  the block alone, and is the specification's entry at the table's row 5000 t + p. The ten blocks tile the output array,
  every point writes its block back, so the array ends as the specification's.
-/
import proofs.«400303_j74148315398273_1_alg».proof.Proof.Gen.KernelIdeal.Frame
import proofs.«400303_j74148315398273_1_alg».proof.Proof.Spec
import proofs.«400303_j74148315398273_1_alg».proof.Proof.LibDot
import Idealize.ShloMosaic.Lib.ValueLayout

noncomputable section

open scoped BigOperators

namespace Cert.KernelIdeal.Val

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

namespace R4

/-! ## The body's arithmetic in three stages -/

/-- A 128-vector laid out as one row and repeated over the 5000 rows of a block. -/
def row128 (v : FVec Ideal S128 .f32) : FVec Ideal S5000x128 .f32 :=
  broadcastTo S5000x128 (shapeCast S1x128 v shapeCasts_S128_S1x128) broadcasts_S1x128_S5000x128

/-- A 256-vector laid out as one row and repeated over the 5000 rows of a block. -/
def row256 (v : FVec Ideal S256 .f32) : FVec Ideal S5000x256 .f32 :=
  broadcastTo S5000x256 (shapeCast S1x256 v shapeCasts_S256_S1x256) broadcasts_S1x256_S5000x256

/-- The normalised block: centred, scaled by the inverse root of the variance plus 1e-5, times gamma, plus beta. -/
def nrm (x : FVec Ideal S5000x128 .f32) (mu var g be : FVec Ideal S128 .f32) : FVec Ideal S5000x128 .f32 :=
  addf (mulf (mulf (subf (shapeCast S5000x128 x shapeCasts_S5000x128_S5000x128) (row128 (shapeCast S128 mu shapeCasts_S128_S128)))
    (row128 (rsqrt (addf (shapeCast S128 var shapeCasts_S128_S128) (broadcast S128 (Scalar.ofBits .f32 0x3727C5AC#32))))))
    (row128 g)) (row128 be)

/-- The hidden layer of a block: its rows times the first weight matrix, plus the bias, negative entries set to zero. -/
def hid (xn : FVec Ideal S5000x128 .f32) (w1 : FVec Ideal S128x256 .f32) (b1 : FVec Ideal S256 .f32) : FVec Ideal S5000x256 .f32 :=
  maximumf (addf (matmul dot_S5000x128_S128x256_S5000x256_1_0_0_1_n_n none (truncf .bf16 xn bitsLt_bf16_f32)
      (truncf .bf16 w1 bitsLt_bf16_f32) (constant S5000x256 .f32 0x00000000#32)) (row256 b1))
    (broadcast S5000x256 (Scalar.ofBits .f32 0x00000000#32))

/-- The block's output: the normalised block plus the hidden layer times the second weight matrix plus its bias. -/
def outp (xn : FVec Ideal S5000x128 .f32) (h1 : FVec Ideal S5000x256 .f32) (w2 : FVec Ideal S256x128 .f32)
    (b2 : FVec Ideal S128 .f32) : FVec Ideal S5000x128 .f32 :=
  addf xn (addf (matmul dot_S5000x256_S256x128_S5000x128_1_0_0_1_n_n none (truncf .bf16 h1 bitsLt_bf16_f32)
      (truncf .bf16 w2 bitsLt_bf16_f32) (constant S5000x128 .f32 0x00000000#32)) (row128 b2))

/-- The body's payload is the three stages composed: the same operations in the same order, the normalised block named
    once where the payload uses it twice. -/
theorem pay_eq (x0 : Vec Ideal S5000x128 .f32) (x1 x2 x3 x4 : Vec Ideal S128 .f32) (x5 : Vec Ideal S128x256 .f32)
    (x6 : Vec Ideal S256 .f32) (x7 : Vec Ideal S256x128 .f32) (x8 : Vec Ideal S128 .f32) :
    k4_pay1 x0 x1 x2 x3 x4 x5 x6 x7 x8 = outp (nrm x0 x1 x2 x3 x4) (hid (nrm x0 x1 x2 x3 x4) x5 x6) x7 x8 := rfl

/-! ## The stages at an entry -/

/-- Entry (p, q) of a 128-vector repeated over the rows is the vector's entry q: the broadcast reads the one row, the
    cast to a row reads the vector. -/
theorem row128_apply (v : FVec Ideal S128 .f32) (p : Fin 5000) (q : Fin 128) : row128 v (ix2 p q) = v (ix1 q) :=
  (broadcastTo_1b_ab_apply _ _ p q).trans (shapeCast_a_1a_apply v _ 0 q)

/-- The same for a 256-vector. -/
theorem row256_apply (v : FVec Ideal S256 .f32) (p : Fin 5000) (q : Fin 256) : row256 v (ix2 p q) = v (ix1 q) :=
  (broadcastTo_1b_ab_apply _ _ p q).trans (shapeCast_a_1a_apply v _ 0 q)

/-- The normalised block at row p, channel q: every operation is entry by entry, and a cast to the same shape changes
    nothing. -/
theorem nrm_apply (x : FVec Ideal S5000x128 .f32) (mu var g be : FVec Ideal S128 .f32) (p : Fin 5000) (q : Fin 128) :
    nrm x mu var g be (ix2 p q)
      = (x (ix2 p q) - mu (ix1 q)) * Ideal.rsqrt (var (ix1 q) + Spec.eps5) * g (ix1 q) + be (ix1 q) := by
  show (shapeCast S5000x128 x shapeCasts_S5000x128_S5000x128 (ix2 p q) - row128 (shapeCast S128 mu shapeCasts_S128_S128) (ix2 p q))
      * row128 (rsqrt (addf (shapeCast S128 var shapeCasts_S128_S128) (broadcast S128 (Scalar.ofBits .f32 0x3727C5AC#32)))) (ix2 p q)
      * row128 g (ix2 p q) + row128 be (ix2 p q) = _
  rw [row128_apply, row128_apply, row128_apply, row128_apply, shapeCast_self, shapeCast_self, shapeCast_self]
  rfl

/-- The hidden layer at row p, unit k: the product into the zero accumulator is the sum over the 128 channels of row p
    of the normalised block times column k of the first weight matrix (the change of format is the identity). -/
theorem hid_apply (xn : FVec Ideal S5000x128 .f32) (w1 : FVec Ideal S128x256 .f32) (b1 : FVec Ideal S256 .f32)
    (p : Fin 5000) (k : Fin 256) :
    hid xn w1 b1 (ix2 p k) = max ((∑ j : Fin 128, xn (ix2 p j) * w1 (ix2 j k)) + b1 (ix1 k)) Spec.zero := by
  show max (matmul dot_S5000x128_S128x256_S5000x256_1_0_0_1_n_n none (truncf .bf16 xn bitsLt_bf16_f32)
      (truncf .bf16 w1 bitsLt_bf16_f32) (constant S5000x256 .f32 0x00000000#32) (ix2 p k) + row256 b1 (ix2 p k)) Spec.zero = _
  rw [row256_apply, LibDot.matmul_zero_apply _ rfl rfl rfl rfl rfl rfl]
  rfl

/-- The output at row p, channel q: the product into the zero accumulator is the sum over the 256 hidden units of row p
    of the hidden layer times column q of the second weight matrix. -/
theorem outp_apply (xn : FVec Ideal S5000x128 .f32) (h1 : FVec Ideal S5000x256 .f32) (w2 : FVec Ideal S256x128 .f32)
    (b2 : FVec Ideal S128 .f32) (p : Fin 5000) (q : Fin 128) :
    outp xn h1 w2 b2 (ix2 p q) = xn (ix2 p q) + ((∑ k : Fin 256, h1 (ix2 p k) * w2 (ix2 k q)) + b2 (ix1 q)) := by
  show xn (ix2 p q) + (matmul dot_S5000x256_S256x128_S5000x128_1_0_0_1_n_n none (truncf .bf16 h1 bitsLt_bf16_f32)
      (truncf .bf16 w2 bitsLt_bf16_f32) (constant S5000x128 .f32 0x00000000#32) (ix2 p q) + row128 b2 (ix2 p q)) = _
  rw [row128_apply, LibDot.matmul_zero_apply _ rfl rfl rfl rfl rfl rfl]
  rfl

/-- The payload of a block whose row p is row `up p` of the node table X, at row p, channel q, is the specification at
    row `up p`: both sides read row p of the block only, and the three stages are the specification's norm, hidden and
    ffn written out. -/
theorem pay_rows (X : FVec Ideal S50000x128 .f32) (x0 : Vec Ideal S5000x128 .f32) (mu var g be : Vec Ideal S128 .f32)
    (w1 : Vec Ideal S128x256 .f32) (b1 : Vec Ideal S256 .f32) (w2 : Vec Ideal S256x128 .f32) (b2 : Vec Ideal S128 .f32)
    (up : Fin 5000 → Fin 50000) (hx : ∀ p q, x0 (ix2 p q) = X (ix2 (up p) q)) (p : Fin 5000) (q : Fin 128) :
    k4_pay1 x0 mu var g be w1 b1 w2 b2 (ix2 p q) = Spec.ffn (Spec.norm X mu var g be) w1 b1 w2 b2 (ix2 (up p) q) := by
  rw [pay_eq, outp_apply]
  simp only [hid_apply, nrm_apply, hx]
  rfl

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- What the body leaves in the output's buffer is its payload of the blocks it loaded: its one store covers the
    buffer and every load reads a whole buffer. -/
theorem out_eq (x0 : Vec Ideal S5000x128 .f32) (x1 x2 x3 x4 : Vec Ideal S128 .f32) (x5 : Vec Ideal S128x256 .f32)
    (x6 : Vec Ideal S256 .f32) (x7 : Vec Ideal S256x128 .f32) (x8 : Vec Ideal S128 .f32) :
    out4_9 x0 x1 x2 x3 x4 x5 x6 x7 x8 = k4_pay1 x0 x1 x2 x3 x4 x5 x6 x7 x8 := by
  unfold out4_9
  rw [View.canon_unit_zero hz2]
  simp only [View.ld_unit_zero (S := S5000x128) hz2, View.ld_unit_zero (S := S128) hz1,
    View.ld_unit_zero (S := S128x256) hz2, View.ld_unit_zero (S := S256) hz1, View.ld_unit_zero (S := S256x128) hz2]

/-- The grid has ten points. -/
theorem hN : cfg4.N = 10 := N_4

/-- The windows' index maps over the ten points: the node table's and the output's block index is the point's number on
    the rows and zero on the columns; every other window's block index is zero on every axis. -/
theorem idx_facts : ∀ t : Fin cfg4.N,
    win4_0.index t (0 : Fin 2) = t.val ∧ win4_0.index t (1 : Fin 2) = 0
    ∧ win4_1.index t (0 : Fin 1) = 0 ∧ win4_2.index t (0 : Fin 1) = 0
    ∧ win4_3.index t (0 : Fin 1) = 0 ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = t.val ∧ win4_9.index t (1 : Fin 2) = 0 :=
  (by decide +kernel : ∀ t : Fin grid4.N, _)

/-- Row p of the block at point t, as a row of the node table: row 5000 t + p. -/
def rowOf (t : Fin cfg4.N) (p : Fin 5000) : Fin 50000 :=
  ⟨t.val * 5000 + p.val, by have := lt_of_lt_of_eq t.isLt hN; omega⟩

/-- Row p of the node table's block at point t is row 5000 t + p of the table: an element of a block sits at the
    block's index times the block's size plus its coordinate inside the block. -/
theorem blk0_apply (c : Dev nD) (t : Fin cfg4.N) (p : Fin 5000) (q : Fin 128) :
    (iblk4 V c 0 t : Vec Ideal S5000x128 .f32) (ix2 p q) = (V c main_v17 : Vec Ideal S50000x128 .f32) (ix2 (rowOf t p) q) := by
  obtain ⟨e0, e1, -⟩ := idx_facts t
  unfold iblk4
  rw [View.read_apply]
  show (V c main_v17 : Vec Ideal S50000x128 .f32) _ = _
  congr 1
  funext a
  apply Fin.ext
  match a with
  | ⟨0, _⟩ => show win4_0.index t (0 : Fin 2) * 5000 + 1 * p.val = t.val * 5000 + p.val; omega
  | ⟨1, _⟩ => show win4_0.index t (1 : Fin 2) * 128 + 1 * q.val = q.val; omega

/-! A window whose one block is its whole array reads the array, at every point: the block's index is zero on every axis,
    so an element's coordinate in the array is its coordinate in the block. -/

/-- The mean's block is the mean. -/
theorem blk1_eq (c : Dev nD) (t : Fin cfg4.N) : (iblk4 V c 1 t : Vec Ideal S128 .f32) = V c main_v20 := by
  obtain ⟨-, -, e, -⟩ := idx_facts t
  unfold iblk4
  funext j
  rw [View.read_apply]
  show (V c main_v20 : Vec Ideal S128 .f32) _ = _
  congr 1
  funext a
  apply Fin.ext
  match a with
  | ⟨0, _⟩ => show win4_1.index t (0 : Fin 1) * 128 + 1 * (j 0).val = (j 0).val; omega

/-- The variance's block is the variance. -/
theorem blk2_eq (c : Dev nD) (t : Fin cfg4.N) : (iblk4 V c 2 t : Vec Ideal S128 .f32) = V c main_v27 := by
  obtain ⟨-, -, -, e, -⟩ := idx_facts t
  unfold iblk4
  funext j
  rw [View.read_apply]
  show (V c main_v27 : Vec Ideal S128 .f32) _ = _
  congr 1
  funext a
  apply Fin.ext
  match a with
  | ⟨0, _⟩ => show win4_2.index t (0 : Fin 1) * 128 + 1 * (j 0).val = (j 0).val; omega

/-- Gamma's block is gamma. -/
theorem blk3_eq (c : Dev nD) (t : Fin cfg4.N) : (iblk4 V c 3 t : Vec Ideal S128 .f32) = V c main_arg15 := by
  obtain ⟨-, -, -, -, e, -⟩ := idx_facts t
  unfold iblk4
  funext j
  rw [View.read_apply]
  show (V c main_arg15 : Vec Ideal S128 .f32) _ = _
  congr 1
  funext a
  apply Fin.ext
  match a with
  | ⟨0, _⟩ => show win4_3.index t (0 : Fin 1) * 128 + 1 * (j 0).val = (j 0).val; omega

/-- Beta's block is beta. -/
theorem blk4_eq (c : Dev nD) (t : Fin cfg4.N) : (iblk4 V c 4 t : Vec Ideal S128 .f32) = V c main_arg16 := by
  obtain ⟨-, -, -, -, -, e, -⟩ := idx_facts t
  unfold iblk4
  funext j
  rw [View.read_apply]
  show (V c main_arg16 : Vec Ideal S128 .f32) _ = _
  congr 1
  funext a
  apply Fin.ext
  match a with
  | ⟨0, _⟩ => show win4_4.index t (0 : Fin 1) * 128 + 1 * (j 0).val = (j 0).val; omega

/-- The first weight matrix's block is the matrix. -/
theorem blk5_eq (c : Dev nD) (t : Fin cfg4.N) : (iblk4 V c 5 t : Vec Ideal S128x256 .f32) = V c main_arg11 := by
  obtain ⟨-, -, -, -, -, -, e0, e1, -⟩ := idx_facts t
  unfold iblk4
  funext j
  rw [View.read_apply]
  show (V c main_arg11 : Vec Ideal S128x256 .f32) _ = _
  congr 1
  funext a
  apply Fin.ext
  match a with
  | ⟨0, _⟩ => show win4_5.index t (0 : Fin 2) * 128 + 1 * (j 0).val = (j 0).val; omega
  | ⟨1, _⟩ => show win4_5.index t (1 : Fin 2) * 256 + 1 * (j 1).val = (j 1).val; omega

/-- The first bias's block is the bias. -/
theorem blk6_eq (c : Dev nD) (t : Fin cfg4.N) : (iblk4 V c 6 t : Vec Ideal S256 .f32) = V c main_arg12 := by
  obtain ⟨-, -, -, -, -, -, -, -, e, -⟩ := idx_facts t
  unfold iblk4
  funext j
  rw [View.read_apply]
  show (V c main_arg12 : Vec Ideal S256 .f32) _ = _
  congr 1
  funext a
  apply Fin.ext
  match a with
  | ⟨0, _⟩ => show win4_6.index t (0 : Fin 1) * 256 + 1 * (j 0).val = (j 0).val; omega

/-- The second weight matrix's block is the matrix. -/
theorem blk7_eq (c : Dev nD) (t : Fin cfg4.N) : (iblk4 V c 7 t : Vec Ideal S256x128 .f32) = V c main_arg13 := by
  obtain ⟨-, -, -, -, -, -, -, -, -, e0, e1, -⟩ := idx_facts t
  unfold iblk4
  funext j
  rw [View.read_apply]
  show (V c main_arg13 : Vec Ideal S256x128 .f32) _ = _
  congr 1
  funext a
  apply Fin.ext
  match a with
  | ⟨0, _⟩ => show win4_7.index t (0 : Fin 2) * 256 + 1 * (j 0).val = (j 0).val; omega
  | ⟨1, _⟩ => show win4_7.index t (1 : Fin 2) * 128 + 1 * (j 1).val = (j 1).val; omega

/-- The second bias's block is the bias. -/
theorem blk8_eq (c : Dev nD) (t : Fin cfg4.N) : (iblk4 V c 8 t : Vec Ideal S128 .f32) = V c main_arg14 := by
  obtain ⟨-, -, -, -, -, -, -, -, -, -, -, e, -⟩ := idx_facts t
  unfold iblk4
  funext j
  rw [View.read_apply]
  show (V c main_arg14 : Vec Ideal S128 .f32) _ = _
  congr 1
  funext a
  apply Fin.ext
  match a with
  | ⟨0, _⟩ => show win4_8.index t (0 : Fin 1) * 128 + 1 * (j 0).val = (j 0).val; omega

/-- The specification's array, of the arrays the region finds. -/
abbrev G (c : Dev nD) : Vec Ideal S50000x128 .f32 :=
  Spec.ffn (Spec.norm (V c main_v17) (V c main_v20) (V c main_v27) (V c main_arg15) (V c main_arg16))
    (V c main_arg11) (V c main_arg12) (V c main_arg13) (V c main_arg14)

/-- The payload of the blocks at point t, entry by entry: the specification's array at the block's rows. -/
theorem pay_blocks (c : Dev nD) (t : Fin cfg4.N) (j : S5000x128.Idx) :
    k4_pay1 (F := Ideal) (iblk4 V c 0 t) (iblk4 V c 1 t) (iblk4 V c 2 t) (iblk4 V c 3 t) (iblk4 V c 4 t) (iblk4 V c 5 t)
        (iblk4 V c 6 t) (iblk4 V c 7 t) (iblk4 V c 8 t) j
      = G V c (ix2 (rowOf t (j 0)) (j 1)) := by
  obtain ⟨p, q, rfl⟩ : ∃ (p : Fin 5000) (q : Fin 128), j = ix2 p q := ⟨j 0, j 1, eq_ix2 j⟩
  rw [blk1_eq, blk2_eq, blk3_eq, blk4_eq, blk5_eq, blk6_eq, blk7_eq, blk8_eq]
  exact pay_rows (V c main_v17) (iblk4 V c 0 t) (V c main_v20) (V c main_v27) (V c main_arg15) (V c main_arg16)
    (V c main_arg11) (V c main_arg12) (V c main_arg13) (V c main_arg14) (rowOf t) (blk0_apply V c t) p q

/-- What point t writes back is block t of the specification's array: entry (p, q) of the block sits at row 5000 t + p,
    column q of the array. -/
theorem flushed_eq (c : Dev nD) (t : Fin cfg4.N) :
    (dat4 V c).flushed 9 t = ((cfg4.win 9).blk t).view.read (Elt Ideal) (G V c) := by
  obtain ⟨-, -, -, -, -, -, -, -, -, -, -, -, e0, e1⟩ := idx_facts t
  show (cfg4.win 9).cut (grid4.coords t) ((dat4 V c).after 9 t) = _
  rw [after4_9, out_eq]
  funext j
  rw [View.read_apply]
  refine (pay_blocks V c t ((cfg4.win 9).xinj (grid4.coords t) j)).trans ?_
  show G V c _ = G V c _
  congr 1
  funext a
  apply Fin.ext
  match a with
  | ⟨0, _⟩ => show t.val * 5000 + (j 0).val = win4_9.index t (0 : Fin 2) * 5000 + 1 * (j 0).val; omega
  | ⟨1, _⟩ => show (j 1).val = win4_9.index t (1 : Fin 2) * 128 + 1 * (j 1).val; omega

/-- An index of the output array is in point t's block iff each coordinate is in the block's range on its axis. -/
theorem mem_blk (t : Fin cfg4.N) (i : S50000x128.Idx) :
    i ∈ ((cfg4.win 9).blk t).view.set ↔ ∀ a : Fin 2, win4_9.index t a * S5000x128.size a ≤ (i a).val
      ∧ (i a).val < win4_9.index t a * S5000x128.size a + S5000x128.size a := by
  show i ∈ ((View.whole main_v28).slice (win4_9.rect t)).set ↔ _
  rw [View.set_slice_whole, Rect.mem_set_unit]
  exact Iff.rfl

/-- Row r of the output array lies in the block of point r / 5000, and every point writes its block back. -/
theorem cover (i : S50000x128.Idx) :
    ∃ t : Fin cfg4.N, (cfg4.win 9).flush t = true ∧ i ∈ ((cfg4.win 9).blk t).view.set := by
  have hi0 : (i 0).val < 50000 := (i 0).isLt
  have hi1 : (i 1).val < 128 := (i 1).isLt
  have ht : (i 0).val / 5000 < cfg4.N := by rw [hN]; omega
  obtain ⟨t, htv⟩ : ∃ t : Fin cfg4.N, t.val = (i 0).val / 5000 := ⟨⟨_, ht⟩, rfl⟩
  obtain ⟨-, -, -, -, -, -, -, -, -, -, -, -, e0, e1⟩ := idx_facts t
  refine ⟨t, flush4_9 t, ?_⟩
  rw [mem_blk]
  intro a
  match a with
  | ⟨0, _⟩ =>
    show win4_9.index t (0 : Fin 2) * 5000 ≤ (i 0).val ∧ (i 0).val < win4_9.index t (0 : Fin 2) * 5000 + 5000
    omega
  | ⟨1, _⟩ =>
    show win4_9.index t (1 : Fin 2) * 128 ≤ (i 1).val ∧ (i 1).val < win4_9.index t (1 : Fin 2) * 128 + 128
    omega

end R4

/-- Region 4's output: the first normalisation followed by the two-layer network with its residual. -/
theorem region4_value (c : Dev nD) :
    ((dat4 V c).arrAt 9 cfg4.N : S50000x128.Idx → EReal)
      = Spec.ffn (Spec.norm (V c main_v17) (V c main_v20) (V c main_v27) (V c main_arg15) (V c main_arg16))
          (V c main_arg11) (V c main_arg12) (V c main_arg13) (V c main_arg14) :=
  (dat4 V c).arrAt_eq_of_cover 9 (R4.G V c) (fun t _ => R4.flushed_eq V c t) R4.cover

end Cert.KernelIdeal.Val

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.KTake.lean ====
/-
  The three calls of the take in the host code, read as rows of a node table.

  A take of a table [50000, 128] at 800000 index words: a negative word is moved up by 50000, the words are laid out as
  a column of start indices, whole rows are gathered at the column (a start index is clamped into the table), and a
  gathered row is kept where its start index lies in [0, 49999] and replaced by a filler word elsewhere. At a row whose
  word, read signed, lies in [0, 50000) the wrap and the clamp do nothing and the row is kept: the result's row is the
  table's row of that number.
-/
import proofs.«400303_j74148315398273_1_alg».proof.Proof.Gen.KernelIdeal.Launch
import proofs.«400303_j74148315398273_1_alg».proof.Proof.Spec
import proofs.«400303_j74148315398273_1_alg».proof.Proof.LibIndex
import Idealize.ShloMosaic.Lib.StableHlo.Run
import Idealize.ShloMosaic.Lib.Affine
import Idealize.ShloMosaic.PureOps.Reduce
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen

variable (W : Valuation τ sig (Elt Ideal))

namespace Take

/-! ## The take read at one row

The words are wrapped (a negative word moved up by the table's length), laid out as a column of start indices, the
rows gathered at the column, and each gathered row kept where its start index lies in the table and replaced by a
filler word elsewhere. At a row whose word already names a node the wrap and the clamp of the gather do nothing and the
row is kept. -/

section Read

/-- A left fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a List.mem_cons_self⟩) fun n hn => hl n (List.mem_cons_of_mem _ hn)

/-- An `and` over the unit axis of the column, from 1: at row `r` it is 1 when the column's entry in that row is. -/
theorem reduce_andi_col (hr : S800000x1.ReducesTo [1] S800000) {u : Shape} (hu : 0 < u.numel)
    (x : IVec S800000x1 1) (init : IVec u 1) (r : Fin 800000) (hinit : init (Shape.Idx.first hu) = 1#1)
    (hx : x (ix2 r (0 : Fin 1)) = 1#1) : Host.reduce IntOp.andi x init hr hu (ix1 r) = 1#1 := by
  rw [Host.reduce_eq_foldl]
  refine foldl_andi_one x _ _ hinit fun i hi => ?_
  have hd : hr.drop i = ix1 r := of_decide_eq_true (List.mem_filter.1 hi).2
  have h0 : (i 0).val = r.val := by
    have e := hr.drop_apply_val_of_eq i (0 : Fin 1) (0 : Fin 2)
    rw [← e, hd]
  have hi' : i = ix2 r (0 : Fin 1) := by
    funext a
    match a with
    | ⟨0, _⟩ => exact Fin.ext h0
    | ⟨1, h⟩ =>
      have h1 : (i ⟨1, h⟩).val < 1 := (i ⟨1, h⟩).isLt
      exact Fin.ext (by show (i ⟨1, h⟩).val = 0; omega)
  rw [hi']; exact hx

variable (hb0 : S_.BroadcastsInDim S800000 (![] : Fin 0 → Fin S800000.rank))
  (hb1 : S800000.BroadcastsInDim S800000x1 (![0] : Fin 1 → Fin S800000x1.rank))
  (hb2 : S_.BroadcastsInDim S800000x1 (![] : Fin 0 → Fin S800000x1.rank))
  (hb3 : S1.BroadcastsInDim S1x1 (![1] : Fin 1 → Fin S1x1.rank))
  (hb4 : S1x1.BroadcastsInDim S800000x1 (![0, 1] : Fin 2 → Fin S800000x1.rank))
  (hr : S800000x1.ReducesTo [1] S800000) (h0 : 0 < S_.numel)
  (hb5 : S800000.BroadcastsInDim S800000x128 (![0] : Fin 1 → Fin S800000x128.rank))
  (hb6 : S_.BroadcastsInDim S800000x128 (![] : Fin 0 → Fin S800000x128.rank))
  (d : GatherDims S50000x128 S800000x1 S800000x128)

/-- The index words, a negative one moved up by 50000. -/
def wrapW (idx : IVec S800000 32) : IVec S800000 32 :=
  select (cmpi .slt idx (broadcastInDim S800000 ![] hb0 (constantI S_ 32 0#32)))
    (addi idx (broadcastInDim S800000 ![] hb0 (constantI S_ 32 50000#32))) idx

/-- A word that is not negative is left as it is. -/
theorem wrapW_apply (idx : IVec S800000 32) (r : Fin 800000) (h : 0 ≤ (idx (ix1 r)).toInt) :
    wrapW hb0 idx (ix1 r) = idx (ix1 r) := by
  have hc : ¬ IntOp.cmpi .slt (idx (ix1 r)) 0#32 = 1#1 := fun hh => by
    have h1 := IntOp.cmpi_slt.1 hh
    have h2 : (0#32 : BitVec 32).toInt = 0 := by decide
    omega
  show Scalar.select (IntOp.cmpi .slt (idx (ix1 r)) 0#32) (IntOp.addi (idx (ix1 r)) 50000#32) (idx (ix1 r)) = idx (ix1 r)
  rw [eq_zero_of_ne_one hc, select_zero]

/-- The words as a column reads, in row `r`, word `r`. -/
theorem col_apply (w : IVec S800000 32) (r : Fin 800000) :
    broadcastInDim S800000x1 ![0] hb1 w (ix2 r (0 : Fin 1)) = w (ix1 r) := by
  refine broadcastInDim_apply _ hb1 w _ (ix1 r) fun a => ?_
  match a with
  | ⟨0, _⟩ =>
    show r.val = if (800000 : Nat) = 1 then 0 else r.val
    rw [if_neg (by decide)]

/-- A vector spread over the columns of a matrix reads, at `(r, c)`, entry `r`. -/
theorem spread_apply {α : Type} (v : S800000.Idx → α) (r : Fin 800000) (c : Fin 128) :
    broadcastInDim S800000x128 ![0] hb5 v (ix2 r c) = v (ix1 r) := by
  refine broadcastInDim_apply _ hb5 v _ (ix1 r) fun a => ?_
  match a with
  | ⟨0, _⟩ =>
    show r.val = if (800000 : Nat) = 1 then 0 else r.val
    rw [if_neg (by decide)]

/-- The bit that says a start index lies in the table, per row. -/
def okW (col : IVec S800000x1 32) : IVec S800000 1 :=
  Host.reduce IntOp.andi
    (andi (cmpi .sge col (broadcastInDim S800000x1 ![] hb2 (constantI S_ 32 0#32)))
      (cmpi .sle col (broadcastInDim S800000x1 ![0, 1] hb4 (broadcastInDim S1x1 ![1] hb3 (constantI S1 32 49999#32)))))
    (constantI S_ 1 1#1) hr h0

/-- It is 1 in a row whose start index, read signed, lies in [0, 49999]. -/
theorem okW_apply (col : IVec S800000x1 32) (r : Fin 800000)
    (h : 0 ≤ (col (ix2 r (0 : Fin 1))).toInt ∧ (col (ix2 r (0 : Fin 1))).toInt ≤ 49999) :
    okW hb2 hb3 hb4 hr h0 col (ix1 r) = 1#1 := by
  refine reduce_andi_col hr h0 _ _ r rfl ?_
  show IntOp.andi (IntOp.cmpi .sge (col (ix2 r (0 : Fin 1))) 0#32) (IntOp.cmpi .sle (col (ix2 r (0 : Fin 1))) 49999#32) = 1#1
  have h2 : (0#32 : BitVec 32).toInt = 0 := by decide
  have h3 : (49999#32 : BitVec 32).toInt = 49999 := by decide
  exact IntOp.andi_eq_one.2 ⟨IntOp.cmpi_sge.2 (by rw [h2]; exact h.1), IntOp.cmpi_sle.2 (by rw [h3]; exact h.2)⟩

/-- The take: the rows gathered at the wrapped words, a row whose word lies outside the table replaced by a filler. -/
def takeW (table : FVec Ideal S50000x128 .f32) (idx : IVec S800000 32) : FVec Ideal S800000x128 .f32 :=
  select (broadcastInDim S800000x128 ![0] hb5 (okW hb2 hb3 hb4 hr h0 (broadcastInDim S800000x1 ![0] hb1 (wrapW hb0 idx))))
    (Host.gather d table (broadcastInDim S800000x1 ![0] hb1 (wrapW hb0 idx)))
    (broadcastInDim S800000x128 ![] hb6 (constant (F := Ideal) S_ .f32 0x7FC00000#32))

/-- At a row whose word names a node the take reads the table's row of that number. -/
theorem takeW_apply (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 128])
    (table : FVec Ideal S50000x128 .f32) (idx : IVec S800000 32) (r : Fin 800000) (c : Fin 128)
    (hin : Spec.InRange idx r) :
    takeW hb0 hb1 hb2 hb3 hb4 hr h0 hb5 hb6 d table idx (ix2 r c) = table (ix2 (Spec.rowIx idx r) c) := by
  have hcol : broadcastInDim S800000x1 ![0] hb1 (wrapW hb0 idx) (ix2 r (0 : Fin 1)) = idx (ix1 r) := by
    rw [col_apply, wrapW_apply hb0 idx r hin.1]
  have hok : okW hb2 hb3 hb4 hr h0 (broadcastInDim S800000x1 ![0] hb1 (wrapW hb0 idx)) (ix1 r) = 1#1 :=
    okW_apply hb2 hb3 hb4 hr h0 _ r (by rw [hcol]; exact ⟨hin.1, by have := hin.2; omega⟩)
  unfold takeW
  rw [select_apply, spread_apply, hok, select_one,
    LibIndex.gather_row_apply_of (Nat.succ_pos _) d h1 h2 h3 h4 h5 h6 h7 table _ r c]
  refine congrArg table (congrArg (fun p => ix2 p c) (Fin.ext ?_))
  show min (broadcastInDim S800000x1 ![0] hb1 (wrapW hb0 idx) (ix2 r (0 : Fin 1))).toInt.toNat (50000 - 1)
    = min (idx (ix1 r)).toInt.toNat 49999
  rw [hcol]

end Read

/-- Contents carried to a buffer's own type and back are the contents. -/
theorem ofBuf_toBuf {Val : EltTy → Type} {T : BufTy} (x : StableHlo.TRef sig T) (v : T.Contents Val) :
    x.ofBuf (x.toBuf v) = v := by
  obtain ⟨r, e, _, _⟩ := x
  subst e
  rfl

/-- Where a word names a node the wrap leaves it, so the row read at the wrapped words is the row read at the words. -/
theorem rows_wrapIx (table : FVec Ideal S50000x128 .f32) (idx : IVec S800000 32) (r : Fin 800000) (c : Fin 128)
    (h : Spec.InRange idx r) :
    table (ix2 (Spec.rowIx idx r) c) = Spec.rows table (Spec.wrapIx idx) (ix2 r c) := by
  have hw : Spec.wrapIx idx (ix1 r) = idx (ix1 r) := if_neg (Int.not_lt.2 h.1)
  have hrow : Spec.rowIx (Spec.wrapIx idx) r = Spec.rowIx idx r :=
    Fin.ext (by
      show min (Spec.wrapIx idx (ix1 r)).toInt.toNat 49999 = min (idx (ix1 r)).toInt.toNat 49999
      rw [hw])
  show table (ix2 (Spec.rowIx idx r) c) = table (ix2 (Spec.rowIx (Spec.wrapIx idx) r) c)
  rw [hrow]

/-! ## The three stretches

Each of the three stretches is the take above over its own buffers: its result buffer holds the take of its table at
its index words. -/

/-- The stretch's result is the take of its table at its index words. -/
theorem take_k_eq :
    (StableHlo.after hostOps2 W (Proc.devRef .tc main_v2) : S800000x128.Idx → EReal)
      = takeW Facts₀.bcast_S_S800000 Facts₀.bcast_S800000_S800000x1_0 Facts₀.bcast_S_S800000x1 Facts₀.bcast_S1_S1x1_1
          Facts₀.bcast_S1x1_S800000x1_0_1 Facts₀.reducesTo_S800000x1_S800000_d1 Facts₀.h_S_
          Facts₀.bcast_S800000_S800000x128_0 Facts₀.bcast_S_S800000x128
          gather_S50000x128_S800000x1_S800000x128_1_0_n_n_0_1_1128
          (W (Proc.devRef .tc main_v0_1)) (W (Proc.devRef .tc main_arg0)) := by
  have ea : (StableHlo.TRef.of main_arg0 : StableHlo.TRef sig ⟨S800000, .i32⟩).ofBuf (W (Proc.devRef .tc main_arg0))
      = (W (Proc.devRef .tc main_arg0) : IVec S800000 32) := rfl
  have eb : (StableHlo.TRef.of main_v0_1 : StableHlo.TRef sig ⟨S50000x128, .f32⟩).ofBuf (W (Proc.devRef .tc main_v0_1))
      = (W (Proc.devRef .tc main_v0_1) : FVec Ideal S50000x128 .f32) := rfl
  have eo : ∀ v : (⟨S800000x128, .f32⟩ : BufTy).Contents (Elt Ideal),
      (StableHlo.TRef.of main_v2 : StableHlo.TRef sig ⟨S800000x128, .f32⟩).toBuf v = v := fun _ => rfl
  dsimp only [hostOps2]
  after_results_simp
  simp only [ofBuf_toBuf, ea, eb]
  unfold takeW okW wrapW
  exact eo _

/-- The stretch's result is the take of its table at its index words. -/
theorem take_v_eq :
    (StableHlo.after hostOps2_2 W (Proc.devRef .tc main_v4) : S800000x128.Idx → EReal)
      = takeW Facts₀.bcast_S_S800000 Facts₀.bcast_S800000_S800000x1_0 Facts₀.bcast_S_S800000x1 Facts₀.bcast_S1_S1x1_1
          Facts₀.bcast_S1x1_S800000x1_0_1 Facts₀.reducesTo_S800000x1_S800000_d1 Facts₀.h_S_
          Facts₀.bcast_S800000_S800000x128_0 Facts₀.bcast_S_S800000x128
          gather_S50000x128_S800000x1_S800000x128_1_0_n_n_0_1_1128
          (W (Proc.devRef .tc main_v0_2)) (W (Proc.devRef .tc main_arg0)) := by
  have ea : (StableHlo.TRef.of main_arg0 : StableHlo.TRef sig ⟨S800000, .i32⟩).ofBuf (W (Proc.devRef .tc main_arg0))
      = (W (Proc.devRef .tc main_arg0) : IVec S800000 32) := rfl
  have eb : (StableHlo.TRef.of main_v0_2 : StableHlo.TRef sig ⟨S50000x128, .f32⟩).ofBuf (W (Proc.devRef .tc main_v0_2))
      = (W (Proc.devRef .tc main_v0_2) : FVec Ideal S50000x128 .f32) := rfl
  have eo : ∀ v : (⟨S800000x128, .f32⟩ : BufTy).Contents (Elt Ideal),
      (StableHlo.TRef.of main_v4 : StableHlo.TRef sig ⟨S800000x128, .f32⟩).toBuf v = v := fun _ => rfl
  dsimp only [hostOps2_2]
  after_results_simp
  simp only [ofBuf_toBuf, ea, eb]
  unfold takeW okW wrapW
  exact eo _

/-- The stretch's result is the take of its table at its index words. -/
theorem take_q_eq :
    (StableHlo.after hostOps2_1 W (Proc.devRef .tc main_v3) : S800000x128.Idx → EReal)
      = takeW Facts₀.bcast_S_S800000 Facts₀.bcast_S800000_S800000x1_0 Facts₀.bcast_S_S800000x1 Facts₀.bcast_S1_S1x1_1
          Facts₀.bcast_S1x1_S800000x1_0_1 Facts₀.reducesTo_S800000x1_S800000_d1 Facts₀.h_S_
          Facts₀.bcast_S800000_S800000x128_0 Facts₀.bcast_S_S800000x128
          gather_S50000x128_S800000x1_S800000x128_1_0_n_n_0_1_1128
          (W (Proc.devRef .tc main_v0_0)) (W (Proc.devRef .tc main_arg1)) := by
  have ea : (StableHlo.TRef.of main_arg1 : StableHlo.TRef sig ⟨S800000, .i32⟩).ofBuf (W (Proc.devRef .tc main_arg1))
      = (W (Proc.devRef .tc main_arg1) : IVec S800000 32) := rfl
  have eb : (StableHlo.TRef.of main_v0_0 : StableHlo.TRef sig ⟨S50000x128, .f32⟩).ofBuf (W (Proc.devRef .tc main_v0_0))
      = (W (Proc.devRef .tc main_v0_0) : FVec Ideal S50000x128 .f32) := rfl
  have eo : ∀ v : (⟨S800000x128, .f32⟩ : BufTy).Contents (Elt Ideal),
      (StableHlo.TRef.of main_v3 : StableHlo.TRef sig ⟨S800000x128, .f32⟩).toBuf v = v := fun _ => rfl
  dsimp only [hostOps2_1]
  after_results_simp
  simp only [ofBuf_toBuf, ea, eb]
  unfold takeW okW wrapW
  exact eo _

end Take

/-- The first take: the rows of the key table named by the source words, when every source word names a node. -/
theorem take_k (hsrc : ∀ r, Spec.InRange (W (Proc.devRef .tc main_arg0)) r) :
    (StableHlo.after hostOps2 W (Proc.devRef .tc main_v2) : S800000x128.Idx → EReal)
      = Spec.rows (W (Proc.devRef .tc main_v0_1)) (W (Proc.devRef .tc main_arg0)) := by
  rw [Take.take_k_eq]
  funext i
  obtain ⟨r, c, rfl⟩ : ∃ r c, i = ix2 r c := ⟨i 0, i 1, eq_ix2 i⟩
  refine (Take.takeW_apply _ _ _ _ _ _ _ _ _ _ rfl rfl rfl rfl rfl rfl rfl _ _ r c (hsrc r)).trans ?_
  rfl

/-- The third take: the rows of the value table named by the source words. -/
theorem take_v (hsrc : ∀ r, Spec.InRange (W (Proc.devRef .tc main_arg0)) r) :
    (StableHlo.after hostOps2_2 W (Proc.devRef .tc main_v4) : S800000x128.Idx → EReal)
      = Spec.rows (W (Proc.devRef .tc main_v0_2)) (W (Proc.devRef .tc main_arg0)) := by
  rw [Take.take_v_eq]
  funext i
  obtain ⟨r, c, rfl⟩ : ∃ r c, i = ix2 r c := ⟨i 0, i 1, eq_ix2 i⟩
  refine (Take.takeW_apply _ _ _ _ _ _ _ _ _ _ rfl rfl rfl rfl rfl rfl rfl _ _ r c (hsrc r)).trans ?_
  rfl

/-- The second take at an edge whose destination word names a node: the row of the query table it names (where the
    word names no node the take fills the row, and nothing is claimed). -/
theorem take_q (r : Fin 800000) (hr : Spec.InRange (W (Proc.devRef .tc main_arg1)) r) (c : Fin 128) :
    (StableHlo.after hostOps2_1 W (Proc.devRef .tc main_v3) : S800000x128.Idx → EReal) (ix2 r c)
      = Spec.rows (W (Proc.devRef .tc main_v0_0)) (Spec.wrapIx (W (Proc.devRef .tc main_arg1))) (ix2 r c) := by
  rw [Take.take_q_eq]
  refine (Take.takeW_apply _ _ _ _ _ _ _ _ _ _ rfl rfl rfl rfl rfl rfl rfl _ _ r c hr).trans ?_
  exact Take.rows_wrapIx _ _ r c hr

end Cert.KernelIdeal.Val

end
-- ==== Proof.KHost.lean ====
import proofs.«400303_j74148315398273_1_alg».proof.Proof.Gen.KernelIdeal.Launch
import proofs.«400303_j74148315398273_1_alg».proof.Proof.Spec
import proofs.«400303_j74148315398273_1_alg».proof.Proof.LibIndex
import Idealize.ShloMosaic.Lib.StableHlo.Run
import Idealize.ShloMosaic.Lib.Pipeline.Value
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx Cert.KernelIdeal Cert.KernelIdeal.Gen

variable (W : Valuation τ sig (Elt Ideal))

/-- The two constant matrices the edge region is given. -/
theorem host0_mg : (StableHlo.after hostOps0 W (Proc.devRef .tc main_cst) : S128x8.Idx → EReal)
    = fun i => Ideal.ofBits .f32 (lit0 (S128x8.rowMajor i)) := by
  dsimp only [hostOps0]
  after_results
  rfl
theorem host0_mb : (StableHlo.after hostOps0 W (Proc.devRef .tc main_cst_0) : S8x128.Idx → EReal)
    = fun i => Ideal.ofBits .f32 (lit1 (S8x128.rowMajor i)) := by
  dsimp only [hostOps0]
  after_results
  rfl

/-! ## Reading the pieces of the host stretches at an index -/

namespace HostRead

/-- The inserted index of a sum over the nodes: column `c` with the node `n` put in front. -/
theorem lift_nodes (h : S50000x128.Reduces [0] S128) (c : Fin 128) (n : Fin 50000) :
    h.lift (ix1 c) n = ix2 n c := by
  funext a
  refine Fin.ext ?_
  match a with
  | ⟨0, _⟩ => rfl
  | ⟨1, _⟩ => rfl

/-- The host's sum over the nodes at column `c`: the initial value plus the column's sum. -/
theorem colSum_apply (x : FVec Ideal S50000x128 .f32) (init : FVec Ideal S_ .f32)
    (h' : S50000x128.ReducesTo [0] S128) (hu : 0 < S_.numel) (c : Fin 128) :
    Host.reduceAdd (F := Ideal) x init h' hu (ix1 c) = init ix0 + ∑ n : Fin 50000, x (ix2 n c) := by
  have h : S50000x128.Reduces [0] S128 := ⟨h'.1, Nat.one_pos, h'.2⟩
  show Ideal.hostReduceAdd h' x (init (Shape.Idx.first hu)) (ix1 c) = _
  rw [Ideal.hostReduceAdd_single h' h, show init (Shape.Idx.first hu) = init ix0 from congrArg init (eq_ix0 _)]
  exact congrArg (init ix0 + ·) (Finset.sum_congr rfl fun n _ => congrArg x (lift_nodes h c n))

/-- A rank-zero constant spread over any shape reads the constant's word. -/
theorem splat_apply {T : Shape} (hb : S_.BroadcastsInDim T ![]) (b : BitVec 32) (j : T.Idx) :
    broadcastInDim T ![] hb (constant (F := Ideal) S_ .f32 b) j = Ideal.ofBits .f32 b :=
  broadcastInDim_scalar_apply hb _ j

/-- A row vector spread to one row and then down the nodes: at (n, c) it is the vector's entry c. -/
theorem spread_apply (mu : FVec Ideal S128 .f32) (hb1 : S128.BroadcastsInDim S1x128 ![1])
    (hb2 : S1x128.BroadcastsInDim S50000x128 ![0, 1]) (n : Fin 50000) (c : Fin 128) :
    broadcastInDim S50000x128 ![0, 1] hb2 (broadcastInDim S1x128 ![1] hb1 mu) (ix2 n c) = mu (ix1 c) := by
  refine (broadcastInDim_apply ![0, 1] hb2 _ (ix2 n c) (ix2 (0 : Fin 1) c) (fun a => ?_)).trans
    (broadcastInDim_apply ![1] hb1 mu (ix2 (0 : Fin 1) c) (ix1 c) (fun a => ?_))
  · match a with
    | ⟨0, _⟩ => rfl
    | ⟨1, _⟩ => rfl
  · match a with
    | ⟨0, _⟩ => rfl

/-- The host's mean over the nodes (sum from the zero word, divided by the node count's word) is the specification's. -/
theorem hostMean_eq (x : FVec Ideal S50000x128 .f32) (h' : S50000x128.ReducesTo [0] S128) (hu : 0 < S_.numel)
    (hb : S_.BroadcastsInDim S128 ![]) :
    Host.divf (Host.reduceAdd x (constant (F := Ideal) S_ .f32 0x00000000#32) h' hu)
        (broadcastInDim S128 ![] hb (constant (F := Ideal) S_ .f32 0x47435000#32)) = Spec.mean x := by
  funext j
  obtain ⟨c, rfl⟩ : ∃ c : Fin 128, j = ix1 c := ⟨j 0, eq_ix1 j⟩
  rw [hostDivf_apply, colSum_apply, splat_apply]
  rfl

/-- The host's mean squared deviation from a centre spread over the nodes is the specification's. -/
theorem hostVar_eq (x : FVec Ideal S50000x128 .f32) (mu : FVec Ideal S128 .f32) (h' : S50000x128.ReducesTo [0] S128)
    (hu : 0 < S_.numel) (hb : S_.BroadcastsInDim S128 ![]) (hb1 : S128.BroadcastsInDim S1x128 ![1])
    (hb2 : S1x128.BroadcastsInDim S50000x128 ![0, 1]) :
    Host.divf (Host.reduceAdd
          (mulf (subf x (broadcastInDim S50000x128 ![0, 1] hb2 (broadcastInDim S1x128 ![1] hb1 mu)))
            (subf x (broadcastInDim S50000x128 ![0, 1] hb2 (broadcastInDim S1x128 ![1] hb1 mu))))
          (constant (F := Ideal) S_ .f32 0x00000000#32) h' hu)
        (broadcastInDim S128 ![] hb (constant (F := Ideal) S_ .f32 0x47435000#32)) = Spec.variance x mu := by
  funext j
  obtain ⟨c, rfl⟩ : ∃ c : Fin 128, j = ix1 c := ⟨j 0, eq_ix1 j⟩
  have e : ∀ n : Fin 50000,
      mulf (subf x (broadcastInDim S50000x128 ![0, 1] hb2 (broadcastInDim S1x128 ![1] hb1 mu)))
          (subf x (broadcastInDim S50000x128 ![0, 1] hb2 (broadcastInDim S1x128 ![1] hb1 mu))) (ix2 n c)
        = (x (ix2 n c) - mu (ix1 c)) * (x (ix2 n c) - mu (ix1 c)) := fun n => by
    rw [mulf_apply, subf_apply, spread_apply]
  rw [hostDivf_apply, colSum_apply, splat_apply, Finset.sum_congr rfl fun n _ => e n]
  rfl

/-- The index vector set up as a one-column matrix reads the vector. -/
theorem col_apply (dst : IVec S800000 32) (hi : S800000.BroadcastsInDim S800000x1 ![0]) (k : Fin 800000) :
    broadcastInDim S800000x1 ![0] hi dst (ix2 k (0 : Fin 1)) = dst (ix1 k) :=
  broadcastInDim_apply ![0] hi dst (ix2 k (0 : Fin 1)) (ix1 k) (fun a => by
    match a with
    | ⟨0, _⟩ => rfl)

/-- A scatter-add of the update rows into a zero fill, the rows named by the destination column: at (n, c) the zero
    word plus the sum of column c over the edges whose destination word is n, which is the specification's sum. -/
theorem hostSeg_apply {C : Nat} (d : ScatterDims ⟨2, ![50000, C]⟩ ⟨2, ![800000, 1]⟩ ⟨2, ![800000, C]⟩)
    (h1 : d.updateWindowDims = [1]) (h2 : d.insertedWindowDims = [0]) (h3 : d.scatterDimsToOperandDims = [0])
    (h4 : d.indexVectorDim = 1)
    (hz : S_.BroadcastsInDim ⟨2, ![50000, C]⟩ ![]) (hi : S800000.BroadcastsInDim S800000x1 ![0])
    (upd : FVec Ideal ⟨2, ![800000, C]⟩ .f32) (dst : IVec S800000 32) (n : Fin 50000) (c : Fin C) :
    Host.scatterAdd (F := Ideal) d (broadcastInDim ⟨2, ![50000, C]⟩ ![] hz (constant (F := Ideal) S_ .f32 0x00000000#32))
        (broadcastInDim S800000x1 ![0] hi dst) upd (ix2 n c)
      = Spec.segSum upd dst (ix2 n c) := by
  have e : ∀ k : Fin 800000,
      (if (broadcastInDim S800000x1 ![0] hi dst (ix2 k (0 : Fin 1))).toInt = (n.val : Int) then upd (ix2 k c) else 0)
        = if (dst (ix1 k)).toInt = (n.val : Int) then upd (ix2 k c) else 0 := fun k => by
    rw [col_apply]
  rw [LibIndex.scatterAdd_row_apply_of d h1 h2 h3 h4, splat_apply, Finset.sum_congr rfl fun k _ => e k]
  rfl

/-- An array over nodes and heads repeated over the 16 channels of each head and laid out over the 128 channels: at
    (n, c) it is the array at (n, c / 16), since (n · 8 + c / 16) · 16 + c % 16 = n · 128 + c. -/
theorem headSpread_apply (z : FVec Ideal S50000x8 .f32) (hb3 : S50000x8.BroadcastsInDim S50000x8x16 ![0, 1])
    (hc : S50000x8x16.ShapeCasts S50000x128) (n : Fin 50000) (c : Fin 128) :
    shapeCast S50000x128 (broadcastInDim S50000x8x16 ![0, 1] hb3 z) hc (ix2 n c) = z (ix2 n (Spec.headOf c)) := by
  refine (shapeCast_apply _ hc (ix2 n c) (ix3 n (Spec.headOf c) (⟨c.val % 16, Nat.mod_lt _ (by decide)⟩ : Fin 16)) ?_).trans
    (broadcastInDim_apply ![0, 1] hb3 z _ (ix2 n (Spec.headOf c)) (fun a => ?_))
  · rw [Shape.rowMajor_val_three, Shape.rowMajor_val_two]
    show (n.val * 8 + c.val / 16) * 16 + c.val % 16 = n.val * 128 + c.val
    omega
  · match a with
    | ⟨0, _⟩ => rfl
    | ⟨1, _⟩ => rfl

/-- The quotient stretch: the two sums over the edges ending in a node, the second spread over its head's channels
    with 1e-6 added, and their quotient. -/
theorem hostAttn_eq (wv : FVec Ideal S800000x128 .f32) (wt : FVec Ideal S800000x8 .f32) (dst : IVec S800000 32)
    (d128 : ScatterDims S50000x128 S800000x1 S800000x128) (d8 : ScatterDims S50000x8 S800000x1 S800000x8)
    (h1 : d128.updateWindowDims = [1]) (h2 : d128.insertedWindowDims = [0]) (h3 : d128.scatterDimsToOperandDims = [0])
    (h4 : d128.indexVectorDim = 1)
    (g1 : d8.updateWindowDims = [1]) (g2 : d8.insertedWindowDims = [0]) (g3 : d8.scatterDimsToOperandDims = [0])
    (g4 : d8.indexVectorDim = 1)
    (hz : S_.BroadcastsInDim S50000x128 ![]) (hz8 : S_.BroadcastsInDim S50000x8 ![])
    (hi : S800000.BroadcastsInDim S800000x1 ![0]) (hb3 : S50000x8.BroadcastsInDim S50000x8x16 ![0, 1])
    (hc : S50000x8x16.ShapeCasts S50000x128) :
    Host.divf
        (Host.scatterAdd d128 (broadcastInDim S50000x128 ![] hz (constant (F := Ideal) S_ .f32 0x00000000#32))
          (broadcastInDim S800000x1 ![0] hi dst) wv)
        (addf
          (shapeCast S50000x128 (broadcastInDim S50000x8x16 ![0, 1] hb3
            (Host.scatterAdd d8 (broadcastInDim S50000x8 ![] hz8 (constant (F := Ideal) S_ .f32 0x00000000#32))
              (broadcastInDim S800000x1 ![0] hi dst) wt)) hc)
          (broadcastInDim S50000x128 ![] hz (constant (F := Ideal) S_ .f32 0x358637BD#32)))
      = Spec.attn (Spec.segSum wv dst) (Spec.segSum wt dst) := by
  funext j
  obtain ⟨n, c, rfl⟩ : ∃ (n : Fin 50000) (c : Fin 128), j = ix2 n c := ⟨j 0, j 1, eq_ix2 j⟩
  rw [hostDivf_apply, addf_apply, splat_apply, hostSeg_apply d128 h1 h2 h3 h4, headSpread_apply,
    hostSeg_apply d8 g1 g2 g3 g4]
  rfl

end HostRead

open HostRead

/-! ## The stretches -/

/-- The stretch between the edge region and the projection: the two sums over the edges ending in a node, and their
    quotient. -/
theorem host3_attn :
    (StableHlo.after hostOps3 W (Proc.devRef .tc main_v16) : S50000x128.Idx → EReal)
      = Spec.attn (Spec.segSum (W (Proc.devRef .tc main_v5_0)) (W (Proc.devRef .tc main_arg1)))
          (Spec.segSum (W (Proc.devRef .tc main_v5_1)) (W (Proc.devRef .tc main_arg1))) := by
  dsimp only [hostOps3]
  after_results_simp
  exact hostAttn_eq _ _ _ _ _ rfl rfl rfl rfl rfl rfl rfl rfl _ _ _ _ _

/-- The statistics before the first normalisation. -/
theorem host4_mean :
    (StableHlo.after hostOps4 W (Proc.devRef .tc main_v20) : S128.Idx → EReal) = Spec.mean (W (Proc.devRef .tc main_v17)) := by
  dsimp only [hostOps4]
  after_results_simp
  exact hostMean_eq _ _ _ _
theorem host4_var :
    (StableHlo.after hostOps4 W (Proc.devRef .tc main_v27) : S128.Idx → EReal)
      = Spec.variance (W (Proc.devRef .tc main_v17)) (Spec.mean (W (Proc.devRef .tc main_v17))) := by
  dsimp only [hostOps4]
  after_results_simp
  rw [hostMean_eq (W (Proc.devRef .tc main_v17))]
  exact hostVar_eq _ _ _ _ _ _ _

/-- The statistics before the second normalisation. -/
theorem host5_mean :
    (StableHlo.after hostOps5 W (Proc.devRef .tc main_v31) : S128.Idx → EReal) = Spec.mean (W (Proc.devRef .tc main_v28)) := by
  dsimp only [hostOps5]
  after_results_simp
  exact hostMean_eq _ _ _ _
theorem host5_var :
    (StableHlo.after hostOps5 W (Proc.devRef .tc main_v38) : S128.Idx → EReal)
      = Spec.variance (W (Proc.devRef .tc main_v28)) (Spec.mean (W (Proc.devRef .tc main_v28))) := by
  dsimp only [hostOps5]
  after_results_simp
  rw [hostMean_eq (W (Proc.devRef .tc main_v28))]
  exact hostVar_eq _ _ _ _ _ _ _

end Cert.KernelIdeal.Val

end
-- ==== Proof.KMask.lean ====
import proofs.«400303_j74148315398273_1_alg».proof.KernelIdeal
import proofs.«400303_j74148315398273_1_alg».proof.Proof.Spec

noncomputable section

open scoped BigOperators

namespace Cert.KernelIdeal.Val

open Idealize.ShloMosaic Idealize.ShloMosaic.ValueIdx Cert.KernelIdeal

/-! ## The two tables -/

set_option maxRecDepth 100000 in
/-- The 128 × 8 table, row-major: entry 8 d + h is the word of 1.0 when channel d lies in head h, the zero word
    otherwise. -/
theorem lit0_table : ∀ i : Fin 1024, lit0 i = if i.val / 8 / 16 = i.val % 8 then 0x3F800000#32 else 0#32 := by
  decide

set_option maxRecDepth 100000 in
/-- The 8 × 128 table, row-major: entry 128 h + d is the word of 1.0 when channel d lies in head h, the zero word
    otherwise. -/
theorem lit1_table : ∀ i : Fin 1024, lit1 i = if i.val / 128 = i.val % 128 / 16 then 0x3F800000#32 else 0#32 := by
  decide

/-- The word of 1.0 denotes 1. -/
theorem ofBits_one : Ideal.ofBits .f32 0x3F800000#32 = 1 := by
  simp [Ideal.ofBits, Ideal.ieee, -EReal.coe_mul]; norm_num

/-- The zero word denotes 0. -/
theorem ofBits_zero : Ideal.ofBits .f32 0#32 = 0 := by
  simp [Ideal.ofBits, Ideal.ieee]

/-- The first table at position 8 d + h. -/
theorem lit0_at (i : Fin 1024) (d h : Nat) (hi : i.val = d * 8 + h) (hh : h < 8) :
    Ideal.ofBits .f32 (lit0 i) = if d / 16 = h then (1 : EReal) else 0 := by
  have e1 : (d * 8 + h) / 8 / 16 = d / 16 := by omega
  have e2 : (d * 8 + h) % 8 = h := by omega
  rw [lit0_table i, hi, e1, e2]
  by_cases c : d / 16 = h
  · rw [if_pos c, if_pos c]; exact ofBits_one
  · rw [if_neg c, if_neg c]; exact ofBits_zero

/-- The second table at position 128 h + d. -/
theorem lit1_at (i : Fin 1024) (h d : Nat) (hi : i.val = h * 128 + d) (hd : d < 128) :
    Ideal.ofBits .f32 (lit1 i) = if h = d / 16 then (1 : EReal) else 0 := by
  have e1 : (h * 128 + d) / 128 = h := by omega
  have e2 : (h * 128 + d) % 128 = d := by omega
  rw [lit1_table i, hi, e1, e2]
  by_cases c : h = d / 16
  · rw [if_pos c, if_pos c]; exact ofBits_one
  · rw [if_neg c, if_neg c]; exact ofBits_zero

/-- Entry (d, h) of the 128 × 8 matrix: one when channel d lies in head h, zero otherwise. -/
theorem mg_entry (d : Fin 128) (h : Fin 8) :
    Ideal.ofBits .f32 (lit0 (S128x8.rowMajor (ix2 d h))) = if d.val / 16 = h.val then (1 : EReal) else 0 :=
  lit0_at _ d.val h.val (Shape.rowMajor_val_two (ix2 d h)) h.isLt

/-- Entry (h, d) of the 8 × 128 matrix: one when channel d lies in head h, zero otherwise. -/
theorem mb_entry (h : Fin 8) (d : Fin 128) :
    Ideal.ofBits .f32 (lit1 (S8x128.rowMajor (ix2 h d))) = if h.val = d.val / 16 then (1 : EReal) else 0 :=
  lit1_at _ h.val d.val (Shape.rowMajor_val_two (ix2 h d)) d.isLt

/-! ## Sums against the two matrices -/

/-- The channels are the pairs of a head and a place within the head. -/
def chanEquiv : Fin 8 × Fin 16 ≃ Fin 128 where
  toFun p := Spec.chan p.1 p.2
  invFun d := (Spec.headOf d, ⟨d.val % 16, Nat.mod_lt _ (by decide)⟩)
  left_inv p := by
    obtain ⟨a, b⟩ := p
    refine Prod.ext (Fin.ext ?_) (Fin.ext ?_)
    · show (16 * a.val + b.val) / 16 = a.val
      omega
    · show (16 * a.val + b.val) % 16 = b.val
      omega
  right_inv d := by
    refine Fin.ext ?_
    show 16 * (d.val / 16) + d.val % 16 = d.val
    omega

/-- A sum over the channels against a column of the first matrix keeps the head's sixteen channels: the other terms
    are products with zero, the kept ones products with one. -/
theorem sum_mask_head (f : Fin 128 → EReal) (h : Fin 8) :
    (∑ d : Fin 128, f d * (if d.val / 16 = h.val then (1 : EReal) else 0)) = ∑ j : Fin 16, f (Spec.chan h j) := by
  rw [← chanEquiv.sum_comp, Fintype.sum_prod_type]
  have key : ∀ a : Fin 8,
      (∑ b : Fin 16, f (chanEquiv (a, b)) * (if (chanEquiv (a, b)).val / 16 = h.val then (1 : EReal) else 0))
        = if a = h then ∑ b : Fin 16, f (Spec.chan a b) else 0 := by
    intro a
    have hv : ∀ b : Fin 16, (chanEquiv (a, b)).val / 16 = a.val := fun b => by
      show (16 * a.val + b.val) / 16 = a.val
      omega
    by_cases hah : a = h
    · rw [if_pos hah]
      refine Finset.sum_congr rfl fun b _ => ?_
      rw [hv, if_pos (congrArg Fin.val hah), mul_one]
      rfl
    · rw [if_neg hah]
      refine Finset.sum_eq_zero fun b _ => ?_
      rw [hv, if_neg (fun e => hah (Fin.ext e)), mul_zero]
  rw [Finset.sum_congr rfl fun a _ => key a, Finset.sum_ite_eq' Finset.univ h, if_pos (Finset.mem_univ h)]

/-- A sum over the heads against a column of the second matrix keeps the channel's own head. -/
theorem sum_mask_chan (w : Fin 8 → EReal) (d : Fin 128) :
    (∑ h : Fin 8, w h * (if h.val = d.val / 16 then (1 : EReal) else 0)) = w (Spec.headOf d) := by
  have key : ∀ h : Fin 8, w h * (if h.val = d.val / 16 then (1 : EReal) else 0) = if h = Spec.headOf d then w h else 0 := by
    intro h
    by_cases e : h = Spec.headOf d
    · rw [if_pos e, if_pos (by rw [e]; rfl), mul_one]
    · rw [if_neg e, if_neg (fun (e' : h.val = d.val / 16) => e (Fin.ext e')), mul_zero]
  rw [Finset.sum_congr rfl fun h _ => key h, Finset.sum_ite_eq' Finset.univ (Spec.headOf d), if_pos (Finset.mem_univ _)]

/-! ## The two product forms -/

/-- With the 128 × 8 matrix of ones where the channel lies in the head, the product form of the weight is the sum
    over the head's sixteen channels. -/
theorem weightM_mask (s : FVec Ideal Spec.SExD .f32) :
    Spec.weightM s (fun i => Ideal.ofBits .f32 (lit0 (S128x8.rowMajor i))) = Spec.weight s := by
  funext i
  obtain ⟨r, h, rfl⟩ : ∃ r h, i = ix2 r h := ⟨i 0, i 1, eq_ix2 i⟩
  show Ideal.exp (min Spec.hi (max Spec.lo
      (∑ d : Fin 128, s (ix2 r d) * Ideal.ofBits .f32 (lit0 (S128x8.rowMajor (ix2 d h))))))
    = Ideal.exp (min Spec.hi (max Spec.lo (∑ j : Fin 16, s (ix2 r (Spec.chan h j)))))
  rw [Finset.sum_congr rfl fun d _ => congrArg (s (ix2 r d) * ·) (mg_entry d h),
    sum_mask_head (fun d => s (ix2 r d)) h]

/-- With the 8 × 128 matrix of ones where the channel lies in the head, the product form spreads a head's weight over
    its channels. -/
theorem weightedM_mask (vs : FVec Ideal Spec.SExD .f32) (wt : FVec Ideal Spec.SExH .f32) :
    Spec.weightedM vs wt (fun i => Ideal.ofBits .f32 (lit1 (S8x128.rowMajor i))) = Spec.weighted vs wt := by
  funext i
  obtain ⟨r, c, rfl⟩ : ∃ r c, i = ix2 r c := ⟨i 0, i 1, eq_ix2 i⟩
  show vs (ix2 r c) * (∑ h : Fin 8, wt (ix2 r h) * Ideal.ofBits .f32 (lit1 (S8x128.rowMajor (ix2 h c))))
    = vs (ix2 r c) * wt (ix2 r (Spec.headOf c))
  rw [Finset.sum_congr rfl fun h _ => congrArg (wt (ix2 r h) * ·) (mb_entry h c),
    sum_mask_chan (fun h => wt (ix2 r h)) c]

end Cert.KernelIdeal.Val

end
-- ==== Proof.SpecLaws.lean ====
import proofs.«400303_j74148315398273_1_alg».proof.Proof.Spec
import Mathlib.Data.EReal.Operations

noncomputable section

open scoped BigOperators

namespace Cert.Spec

open Idealize.ShloMosaic Idealize.ShloMosaic.ValueIdx

/-- The word of 4.0 denotes the real 4. -/
theorem four_eq : four = ((4 : ℝ) : EReal) := by
  simp [four, Ideal.ofBits, Ideal.ieee, -EReal.coe_mul]; norm_num

/-- The word of 0.25 denotes the real 1/4. -/
theorem quarter_eq : quarter = ((1 / 4 : ℝ) : EReal) := by
  simp [quarter, Ideal.ofBits, Ideal.ieee, -EReal.coe_mul]; norm_num

/-- Dividing by four is multiplying by a quarter, on every extended real. -/
theorem div_four (x : EReal) : Ideal.div x four = x * quarter := by
  rw [four_eq, quarter_eq]
  exact Ideal.div_coe (by norm_num) x

/-- The sum over the edges ending in a node only looks at rows of edges whose destination word names a node: two
    update arrays that agree on those rows have the same sums. -/
theorem segSum_congr {C : Nat} (u u' : FVec Ideal ⟨2, ![800000, C]⟩ .f32) (dst : IVec SE 32)
    (h : ∀ r, InRange dst r → ∀ c : Fin C, u (ix2 r c) = u' (ix2 r c)) : segSum u dst = segSum u' dst := by
  funext i
  simp only [segSum, of2]
  refine congrArg (fun t => zero + t) (Finset.sum_congr rfl fun r _ => ?_)
  by_cases hr : (dst (ix1 r)).toInt = ((i 0).val : Int)
  · -- the destination word is the node's number, so it lies in [0, 50000)
    rw [if_pos hr, if_pos hr]
    refine h r ⟨?_, ?_⟩ (i 1)
    · rw [hr]; exact Int.natCast_nonneg _
    · rw [hr]; exact_mod_cast (i 0).isLt
  · rw [if_neg hr, if_neg hr]

/-- The weight of an edge depends on the edge's own row of scores only. -/
theorem weight_row (s s' : FVec Ideal SExD .f32) (r : Fin 800000) (h : ∀ c, s (ix2 r c) = s' (ix2 r c)) (hd : Fin 8) :
    weight s (ix2 r hd) = weight s' (ix2 r hd) := by
  simp only [weight, of2_ix2, h]

end Cert.Spec

end
-- ==== Proof.KChain.lean ====
import proofs.«400303_j74148315398273_1_alg».proof.Proof.Gen.KernelIdeal.Frame
import proofs.«400303_j74148315398273_1_alg».proof.Proof.Spec
import proofs.«400303_j74148315398273_1_alg».proof.Proof.K0
import proofs.«400303_j74148315398273_1_alg».proof.Proof.K2
import proofs.«400303_j74148315398273_1_alg».proof.Proof.K3
import proofs.«400303_j74148315398273_1_alg».proof.Proof.K4
import proofs.«400303_j74148315398273_1_alg».proof.Proof.KTake
import proofs.«400303_j74148315398273_1_alg».proof.Proof.KHost
import proofs.«400303_j74148315398273_1_alg».proof.Proof.KMask
import proofs.«400303_j74148315398273_1_alg».proof.Proof.SpecLaws

noncomputable section

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg) (c : Dev nD)

/-- No operation of a host stretch writes the buffer: each operation's written buffer is another one. -/
macro "host_nw " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## A buffer no host stretch writes keeps its contents across the stretch -/

theorem skip0 (b : Ref sig .tc) (hb : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ hb
theorem skip2 (b : Ref sig .tc) (hb : ∀ op ∈ (hostOps2 : List (HloOp τ sig (Elt Ideal))), Proc.devRef .tc b ∉ op.writes) :
    W4 m ρ c (Proc.devRef .tc b) = W3 m ρ c (Proc.devRef .tc b) := StableHlo.after_of_forall_not_mem _ _ hb
theorem skip2_1 (b : Ref sig .tc) (hb : ∀ op ∈ (hostOps2_1 : List (HloOp τ sig (Elt Ideal))), Proc.devRef .tc b ∉ op.writes) :
    W5 m ρ c (Proc.devRef .tc b) = W4 m ρ c (Proc.devRef .tc b) := StableHlo.after_of_forall_not_mem _ _ hb
theorem skip2_2 (b : Ref sig .tc) (hb : ∀ op ∈ (hostOps2_2 : List (HloOp τ sig (Elt Ideal))), Proc.devRef .tc b ∉ op.writes) :
    W6 m ρ c (Proc.devRef .tc b) = W5 m ρ c (Proc.devRef .tc b) := StableHlo.after_of_forall_not_mem _ _ hb
theorem skip3 (b : Ref sig .tc) (hb : ∀ op ∈ (hostOps3 : List (HloOp τ sig (Elt Ideal))), Proc.devRef .tc b ∉ op.writes) :
    W8 m ρ c (Proc.devRef .tc b) = W7 m ρ c (Proc.devRef .tc b) := StableHlo.after_of_forall_not_mem _ _ hb
theorem skip4 (b : Ref sig .tc) (hb : ∀ op ∈ (hostOps4 : List (HloOp τ sig (Elt Ideal))), Proc.devRef .tc b ∉ op.writes) :
    W10 m ρ c (Proc.devRef .tc b) = W9 m ρ c (Proc.devRef .tc b) := StableHlo.after_of_forall_not_mem _ _ hb
theorem skip5 (b : Ref sig .tc) (hb : ∀ op ∈ (hostOps5 : List (HloOp τ sig (Elt Ideal))), Proc.devRef .tc b ∉ op.writes) :
    W12 m ρ c (Proc.devRef .tc b) = W11 m ρ c (Proc.devRef .tc b) := StableHlo.after_of_forall_not_mem _ _ hb

/-! ## One step down at each boundary, for a buffer the step leaves alone -/

macro "d13" : tactic => `(tactic| refine (W13_of_ne _ _ _ _ (by decide)).trans ?_)
macro "d12" : tactic => `(tactic| refine (skip5 _ _ _ _ (by host_nw hostOps5)).trans ?_)
macro "d11" : tactic => `(tactic| refine (W11_of_ne _ _ _ _ (by decide)).trans ?_)
macro "d10" : tactic => `(tactic| refine (skip4 _ _ _ _ (by host_nw hostOps4)).trans ?_)
macro "d9" : tactic => `(tactic| refine (W9_of_ne _ _ _ _ (by decide)).trans ?_)
macro "d8" : tactic => `(tactic| refine (skip3 _ _ _ _ (by host_nw hostOps3)).trans ?_)
macro "d7" : tactic => `(tactic| refine (W7_of_ne _ _ _ _ (by decide)).trans ?_)
macro "d6" : tactic => `(tactic| refine (skip2_2 _ _ _ _ (by host_nw hostOps2_2)).trans ?_)
macro "d5" : tactic => `(tactic| refine (skip2_1 _ _ _ _ (by host_nw hostOps2_1)).trans ?_)
macro "d4" : tactic => `(tactic| refine (skip2 _ _ _ _ (by host_nw hostOps2)).trans ?_)
macro "d3" : tactic => `(tactic| refine (W3_of_ne _ _ _ _ (by decide)).trans ?_)
macro "d2" : tactic => `(tactic| refine (W2_of_ne _ _ _ _ (by decide)).trans ?_)
macro "d1" : tactic => `(tactic| refine (skip0 _ _ _ _ (by host_nw hostOps0)).trans ?_)

/-! ## One step down across a region that reads the buffer through an input window: the window's array ends as entered -/

macro "i11 " w:term : tactic => `(tactic| refine ((W11_arr _ _ _ $w).trans (((dat4 (V10 _ _) _).arrAt_in $w rfl _).trans (A_eq4 (V10 _ _) _ $w))).trans ?_)
macro "i9 " w:term : tactic => `(tactic| refine ((W9_arr _ _ _ $w).trans (((dat3 (V8 _ _) _).arrAt_in $w rfl _).trans (A_eq3 (V8 _ _) _ $w))).trans ?_)
macro "i2 " w:term : tactic => `(tactic| refine ((W2_arr _ _ _ $w).trans (((dat0 (V1 _ _) _).arrAt_in $w rfl _).trans (A_eq0 (V1 _ _) _ $w))).trans ?_)

/-! ## The arguments at the boundaries where a region or a stretch reads them -/

theorem a12_15 : W12 m ρ c (Proc.devRef .tc main_arg15) = m ((c : Thread nD τ).loc main_arg15) := by
  d12; i11 3; d10; d9; d8; d7; d6; d5; d4; d3; d2; d1; rfl
theorem a12_16 : W12 m ρ c (Proc.devRef .tc main_arg16) = m ((c : Thread nD τ).loc main_arg16) := by
  d12; i11 4; d10; d9; d8; d7; d6; d5; d4; d3; d2; d1; rfl
theorem a10_15 : W10 m ρ c (Proc.devRef .tc main_arg15) = m ((c : Thread nD τ).loc main_arg15) := by
  d10; d9; d8; d7; d6; d5; d4; d3; d2; d1; rfl
theorem a10_16 : W10 m ρ c (Proc.devRef .tc main_arg16) = m ((c : Thread nD τ).loc main_arg16) := by
  d10; d9; d8; d7; d6; d5; d4; d3; d2; d1; rfl
theorem a10_11 : W10 m ρ c (Proc.devRef .tc main_arg11) = m ((c : Thread nD τ).loc main_arg11) := by
  d10; d9; d8; d7; d6; d5; d4; d3; d2; d1; rfl
theorem a10_12 : W10 m ρ c (Proc.devRef .tc main_arg12) = m ((c : Thread nD τ).loc main_arg12) := by
  d10; d9; d8; d7; d6; d5; d4; d3; d2; d1; rfl
theorem a10_13 : W10 m ρ c (Proc.devRef .tc main_arg13) = m ((c : Thread nD τ).loc main_arg13) := by
  d10; d9; d8; d7; d6; d5; d4; d3; d2; d1; rfl
theorem a10_14 : W10 m ρ c (Proc.devRef .tc main_arg14) = m ((c : Thread nD τ).loc main_arg14) := by
  d10; d9; d8; d7; d6; d5; d4; d3; d2; d1; rfl
theorem a8_2 : W8 m ρ c (Proc.devRef .tc main_arg2) = m ((c : Thread nD τ).loc main_arg2) := by
  d8; d7; d6; d5; d4; d3; i2 0; d1; rfl
theorem a8_9 : W8 m ρ c (Proc.devRef .tc main_arg9) = m ((c : Thread nD τ).loc main_arg9) := by
  d8; d7; d6; d5; d4; d3; d2; d1; rfl
theorem a8_10 : W8 m ρ c (Proc.devRef .tc main_arg10) = m ((c : Thread nD τ).loc main_arg10) := by
  d8; d7; d6; d5; d4; d3; d2; d1; rfl
theorem a7_1 : W7 m ρ c (Proc.devRef .tc main_arg1) = m ((c : Thread nD τ).loc main_arg1) := by
  d7; d6; d5; d4; d3; d2; d1; rfl
theorem a5_0 : W5 m ρ c (Proc.devRef .tc main_arg0) = m ((c : Thread nD τ).loc main_arg0) := by
  d5; d4; d3; d2; d1; rfl
theorem a4_1 : W4 m ρ c (Proc.devRef .tc main_arg1) = m ((c : Thread nD τ).loc main_arg1) := by
  d4; d3; d2; d1; rfl
theorem a3_0 : W3 m ρ c (Proc.devRef .tc main_arg0) = m ((c : Thread nD τ).loc main_arg0) := by
  d3; d2; d1; rfl
theorem a2_3 : W2 m ρ c (Proc.devRef .tc main_arg3) = m ((c : Thread nD τ).loc main_arg3) := by
  d2; d1; rfl
theorem a2_8 : W2 m ρ c (Proc.devRef .tc main_arg8) = m ((c : Thread nD τ).loc main_arg8) := by
  d2; d1; rfl
theorem a1_2 : W1 m ρ c (Proc.devRef .tc main_arg2) = m ((c : Thread nD τ).loc main_arg2) := by d1; rfl
theorem a1_5 : W1 m ρ c (Proc.devRef .tc main_arg5) = m ((c : Thread nD τ).loc main_arg5) := by d1; rfl
theorem a1_6 : W1 m ρ c (Proc.devRef .tc main_arg6) = m ((c : Thread nD τ).loc main_arg6) := by d1; rfl
theorem a1_7 : W1 m ρ c (Proc.devRef .tc main_arg7) = m ((c : Thread nD τ).loc main_arg7) := by d1; rfl

/-! ## The arrays the regions and stretches leave, boundary by boundary -/

/-- The queries, keys and values after region 0, and the projected edge features after region 1. -/
theorem q_at2 : (W2 m ρ c (Proc.devRef .tc main_v0_0) : S50000x128.Idx → EReal) = Spec.proj (m ((c : Thread nD τ).loc main_arg2)) (m ((c : Thread nD τ).loc main_arg5)) := by
  refine (W2_arr m ρ c 4).trans ((region0_q (V1 m ρ) c).trans ?_)
  rw [show V1 m ρ c main_arg2 = _ from a1_2 m ρ c, show V1 m ρ c main_arg5 = _ from a1_5 m ρ c]
theorem k_at2 : (W2 m ρ c (Proc.devRef .tc main_v0_1) : S50000x128.Idx → EReal) = Spec.proj (m ((c : Thread nD τ).loc main_arg2)) (m ((c : Thread nD τ).loc main_arg6)) := by
  refine (W2_arr m ρ c 5).trans ((region0_k (V1 m ρ) c).trans ?_)
  rw [show V1 m ρ c main_arg2 = _ from a1_2 m ρ c, show V1 m ρ c main_arg6 = _ from a1_6 m ρ c]
theorem v_at2 : (W2 m ρ c (Proc.devRef .tc main_v0_2) : S50000x128.Idx → EReal) = Spec.proj (m ((c : Thread nD τ).loc main_arg2)) (m ((c : Thread nD τ).loc main_arg7)) := by
  refine (W2_arr m ρ c 6).trans ((region0_v (V1 m ρ) c).trans ?_)
  rw [show V1 m ρ c main_arg2 = _ from a1_2 m ρ c, show V1 m ρ c main_arg7 = _ from a1_7 m ρ c]
theorem ef_at3 : (W3 m ρ c (Proc.devRef .tc main_v1) : S800000x128.Idx → EReal) = Spec.proj (m ((c : Thread nD τ).loc main_arg3)) (m ((c : Thread nD τ).loc main_arg8)) := by
  refine (W3_arr m ρ c 2).trans ((region1_ef (V2 m ρ) c).trans ?_)
  rw [show V2 m ρ c main_arg3 = _ from a2_3 m ρ c, show V2 m ρ c main_arg8 = _ from a2_8 m ρ c]

/-- The same three tables one region later (region 1 leaves them alone). -/
theorem q_at3 : (W3 m ρ c (Proc.devRef .tc main_v0_0) : S50000x128.Idx → EReal) = Spec.proj (m ((c : Thread nD τ).loc main_arg2)) (m ((c : Thread nD τ).loc main_arg5)) := by
  d3; exact q_at2 m ρ c
theorem k_at3 : (W3 m ρ c (Proc.devRef .tc main_v0_1) : S50000x128.Idx → EReal) = Spec.proj (m ((c : Thread nD τ).loc main_arg2)) (m ((c : Thread nD τ).loc main_arg6)) := by
  d3; exact k_at2 m ρ c
theorem v_at3 : (W3 m ρ c (Proc.devRef .tc main_v0_2) : S50000x128.Idx → EReal) = Spec.proj (m ((c : Thread nD τ).loc main_arg2)) (m ((c : Thread nD τ).loc main_arg7)) := by
  d3; exact v_at2 m ρ c

/-! ## Short names for the edge stage's arrays -/

/-- The keys and the values at the edges' sources, the projected edge features, the specification's queries at the
    edges' destinations, and the queries the edge region finds. -/
abbrev ksA : FVec Ideal Spec.SExD .f32 := Spec.rows (Spec.proj (m ((c : Thread nD τ).loc main_arg2)) (m ((c : Thread nD τ).loc main_arg6))) (m ((c : Thread nD τ).loc main_arg0))
abbrev vsA : FVec Ideal Spec.SExD .f32 := Spec.rows (Spec.proj (m ((c : Thread nD τ).loc main_arg2)) (m ((c : Thread nD τ).loc main_arg7))) (m ((c : Thread nD τ).loc main_arg0))
abbrev efA : FVec Ideal Spec.SExD .f32 := Spec.proj (m ((c : Thread nD τ).loc main_arg3)) (m ((c : Thread nD τ).loc main_arg8))
abbrev qdS : FVec Ideal Spec.SExD .f32 := Spec.rows (Spec.proj (m ((c : Thread nD τ).loc main_arg2)) (m ((c : Thread nD τ).loc main_arg5))) (Spec.wrapIx (m ((c : Thread nD τ).loc main_arg1)))
abbrev qdK : FVec Ideal Spec.SExD .f32 := W6 m ρ c (Proc.devRef .tc main_v3)

section Edge
variable (hsrc : ∀ r, Spec.InRange (m ((c : Thread nD τ).loc main_arg0)) r)
include hsrc

/-- The keys at the edges' sources, as the edge region finds them. -/
theorem ks_at6 : (W6 m ρ c (Proc.devRef .tc main_v2) : S800000x128.Idx → EReal)
    = Spec.rows (Spec.proj (m ((c : Thread nD τ).loc main_arg2)) (m ((c : Thread nD τ).loc main_arg6))) (m ((c : Thread nD τ).loc main_arg0)) := by
  d6; d5
  refine (take_k (W3 m ρ c) (fun r => by rw [a3_0 m ρ c]; exact hsrc r)).trans ?_
  rw [k_at3 m ρ c, a3_0 m ρ c]

/-- The values at the edges' sources, as the edge region finds them. -/
theorem vs_at6 : (W6 m ρ c (Proc.devRef .tc main_v4) : S800000x128.Idx → EReal)
    = Spec.rows (Spec.proj (m ((c : Thread nD τ).loc main_arg2)) (m ((c : Thread nD τ).loc main_arg7))) (m ((c : Thread nD τ).loc main_arg0)) := by
  refine (take_v (W5 m ρ c) (fun r => by rw [a5_0 m ρ c]; exact hsrc r)).trans ?_
  have hv : (W5 m ρ c (Proc.devRef .tc main_v0_2) : S50000x128.Idx → EReal) = Spec.proj (m ((c : Thread nD τ).loc main_arg2)) (m ((c : Thread nD τ).loc main_arg7)) := by
    d5; d4; exact v_at3 m ρ c
  rw [hv, a5_0 m ρ c]
omit hsrc

/-- The queries at the edges' destinations, as the edge region finds them, at an edge whose destination word names a
    node. -/
theorem qd_at6 (r : Fin 800000) (hr : Spec.InRange (m ((c : Thread nD τ).loc main_arg1)) r) (j : Fin 128) :
    (W6 m ρ c (Proc.devRef .tc main_v3) : S800000x128.Idx → EReal) (ix2 r j)
      = Spec.rows (Spec.proj (m ((c : Thread nD τ).loc main_arg2)) (m ((c : Thread nD τ).loc main_arg5))) (Spec.wrapIx (m ((c : Thread nD τ).loc main_arg1))) (ix2 r j) := by
  have h6 : W6 m ρ c (Proc.devRef .tc main_v3) = W5 m ρ c (Proc.devRef .tc main_v3) := by d6; rfl
  have hq : (W4 m ρ c (Proc.devRef .tc main_v0_0) : S50000x128.Idx → EReal) = Spec.proj (m ((c : Thread nD τ).loc main_arg2)) (m ((c : Thread nD τ).loc main_arg5)) := by
    d4; exact q_at3 m ρ c
  rw [h6]
  refine (take_q (W4 m ρ c) r (by rw [a4_1 m ρ c]; exact hr) j).trans ?_
  rw [hq, a4_1 m ρ c]

/-- The projected edge features, as the edge region finds them. -/
theorem ef_at6 : (W6 m ρ c (Proc.devRef .tc main_v1) : S800000x128.Idx → EReal) = Spec.proj (m ((c : Thread nD τ).loc main_arg3)) (m ((c : Thread nD τ).loc main_arg8)) := by
  d6; d5; d4; exact ef_at3 m ρ c

/-- The two constant matrices, as the edge region finds them. -/
theorem mg_at6 : (W6 m ρ c (Proc.devRef .tc main_cst) : S128x8.Idx → EReal) = fun i => Ideal.ofBits .f32 (lit0 (S128x8.rowMajor i)) := by
  d6; d5; d4; d3; d2; exact host0_mg (W0 m ρ c)
theorem mb_at6 : (W6 m ρ c (Proc.devRef .tc main_cst_0) : S8x128.Idx → EReal) = fun i => Ideal.ofBits .f32 (lit1 (S8x128.rowMajor i)) := by
  d6; d5; d4; d3; d2; exact host0_mb (W0 m ρ c)

include hsrc

/-- The weights after the edge region: the specification's weights of the scores over the queries the region found. -/
theorem wt_at7 : (W7 m ρ c (Proc.devRef .tc main_v5_1) : S800000x8.Idx → EReal)
    = Spec.weight (Spec.score (ksA m c) (qdK m ρ c) (efA m c)) := by
  refine (W7_arr m ρ c 7).trans ((region2_wt (V6 m ρ) c).trans ?_)
  rw [show V6 m ρ c main_v2 = _ from ks_at6 m ρ c hsrc, show V6 m ρ c main_v1 = _ from ef_at6 m ρ c,
    show V6 m ρ c main_cst = _ from mg_at6 m ρ c]
  exact weightM_mask _

/-- The weighted values after the edge region. -/
theorem wv_at7 : (W7 m ρ c (Proc.devRef .tc main_v5_0) : S800000x128.Idx → EReal)
    = Spec.weighted (vsA m c) (Spec.weight (Spec.score (ksA m c) (qdK m ρ c) (efA m c))) := by
  refine (W7_arr m ρ c 6).trans ((region2_wv (V6 m ρ) c).trans ?_)
  rw [show V6 m ρ c main_v2 = _ from ks_at6 m ρ c hsrc, show V6 m ρ c main_v1 = _ from ef_at6 m ρ c,
    show V6 m ρ c main_cst = _ from mg_at6 m ρ c, show V6 m ρ c main_v4 = _ from vs_at6 m ρ c hsrc,
    show V6 m ρ c main_cst_0 = _ from mb_at6 m ρ c, weightM_mask]
  exact weightedM_mask _ _
omit hsrc

/-- The scores over the queries the region found and over the specification's queries agree at every edge whose
    destination word names a node. -/
theorem score_row (r : Fin 800000) (hr : Spec.InRange (m ((c : Thread nD τ).loc main_arg1)) r) (j : Fin 128) :
    Spec.score (ksA m c) (qdK m ρ c) (efA m c) (ix2 r j) = Spec.score (ksA m c) (qdS m c) (efA m c) (ix2 r j) := by
  unfold Spec.score
  rw [Spec.of2_ix2, Spec.of2_ix2]
  exact congrArg (fun t => ksA m c (ix2 r j) * t * Spec.quarter * efA m c (ix2 r j)) (qd_at6 m ρ c r hr j)

/-- The weights over the two score arrays agree at every edge whose destination word names a node. -/
theorem weight_rowK (r : Fin 800000) (hr : Spec.InRange (m ((c : Thread nD τ).loc main_arg1)) r) (h : Fin 8) :
    Spec.weight (Spec.score (ksA m c) (qdK m ρ c) (efA m c)) (ix2 r h)
      = Spec.weight (Spec.score (ksA m c) (qdS m c) (efA m c)) (ix2 r h) :=
  Spec.weight_row _ _ r (fun j' => score_row m ρ c r hr j') h

/-- The two sums over the edges ending in a node do not see the difference. -/
theorem sum_wt : Spec.segSum (Spec.weight (Spec.score (ksA m c) (qdK m ρ c) (efA m c))) (m ((c : Thread nD τ).loc main_arg1))
    = Spec.segSum (Spec.weight (Spec.score (ksA m c) (qdS m c) (efA m c))) (m ((c : Thread nD τ).loc main_arg1)) :=
  Spec.segSum_congr _ _ _ fun r hr h => weight_rowK m ρ c r hr h
theorem sum_wv : Spec.segSum (Spec.weighted (vsA m c) (Spec.weight (Spec.score (ksA m c) (qdK m ρ c) (efA m c)))) (m ((c : Thread nD τ).loc main_arg1))
    = Spec.segSum (Spec.weighted (vsA m c) (Spec.weight (Spec.score (ksA m c) (qdS m c) (efA m c)))) (m ((c : Thread nD τ).loc main_arg1)) :=
  Spec.segSum_congr _ _ _ fun r hr j => by
    unfold Spec.weighted
    rw [Spec.of2_ix2, Spec.of2_ix2, weight_rowK m ρ c r hr (Spec.headOf j)]
include hsrc

/-- The attention output, as the projection region finds it: the specification's. Only the edges whose destination
    word names a node enter the two sums, and there the region's queries are the specification's. -/
theorem ha_at8 : (W8 m ρ c (Proc.devRef .tc main_v16) : S50000x128.Idx → EReal)
    = Spec.attention (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (host3_attn (W7 m ρ c)).trans ?_
  rw [wv_at7 m ρ c hsrc, wt_at7 m ρ c hsrc, a7_1 m ρ c, sum_wv m ρ c, sum_wt m ρ c]
  rfl

/-- The residual after the projection region. -/
theorem x1_at9 : (W9 m ρ c (Proc.devRef .tc main_v17) : S50000x128.Idx → EReal)
    = Spec.residual (Spec.attention (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg9)) (m ((c : Thread nD τ).loc main_arg10)) := by
  refine (W9_arr m ρ c 4).trans ((region3_value (V8 m ρ) c).trans ?_)
  rw [show V8 m ρ c main_v16 = _ from ha_at8 m ρ c hsrc, show V8 m ρ c main_arg2 = _ from a8_2 m ρ c,
    show V8 m ρ c main_arg9 = _ from a8_9 m ρ c, show V8 m ρ c main_arg10 = _ from a8_10 m ρ c]

/-- The network's output after the fourth region. -/
theorem x2_at11 : (W11 m ρ c (Proc.devRef .tc main_v28) : S50000x128.Idx → EReal)
    = (let x1 := Spec.residual (Spec.attention (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg9)) (m ((c : Thread nD τ).loc main_arg10))
       Spec.ffn (Spec.norm x1 (Spec.mean x1) (Spec.variance x1 (Spec.mean x1)) (m ((c : Thread nD τ).loc main_arg15)) (m ((c : Thread nD τ).loc main_arg16))) (m ((c : Thread nD τ).loc main_arg11)) (m ((c : Thread nD τ).loc main_arg12)) (m ((c : Thread nD τ).loc main_arg13)) (m ((c : Thread nD τ).loc main_arg14))) := by
  have h17 : W10 m ρ c (Proc.devRef .tc main_v17) = W9 m ρ c (Proc.devRef .tc main_v17) := by d10; rfl
  refine (W11_arr m ρ c 9).trans ((region4_value (V10 m ρ) c).trans ?_)
  rw [show V10 m ρ c main_v20 = _ from host4_mean (W9 m ρ c), show V10 m ρ c main_v27 = _ from host4_var (W9 m ρ c),
    show V10 m ρ c main_v17 = _ from h17, x1_at9 m ρ c hsrc,
    show V10 m ρ c main_arg15 = _ from a10_15 m ρ c, show V10 m ρ c main_arg16 = _ from a10_16 m ρ c,
    show V10 m ρ c main_arg11 = _ from a10_11 m ρ c, show V10 m ρ c main_arg12 = _ from a10_12 m ρ c,
    show V10 m ρ c main_arg13 = _ from a10_13 m ρ c, show V10 m ρ c main_arg14 = _ from a10_14 m ρ c]

/-- THE KERNEL'S RESULT: the last boundary's contents at the result buffer are the specification's layer of the
    arguments. -/
theorem kernel_value : (W13 m ρ c (Proc.devRef .tc main_v39) : S50000x128.Idx → EReal)
    = Spec.encode (Spec.attention (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)))
        (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h28 : W12 m ρ c (Proc.devRef .tc main_v28) = W11 m ρ c (Proc.devRef .tc main_v28) := by d12; rfl
  refine (W13_arr m ρ c 5).trans ((region5_value (V12 m ρ) c).trans ?_)
  rw [show V12 m ρ c main_v31 = _ from host5_mean (W11 m ρ c), show V12 m ρ c main_v38 = _ from host5_var (W11 m ρ c),
    show V12 m ρ c main_v28 = _ from h28, x2_at11 m ρ c hsrc,
    show V12 m ρ c main_arg15 = _ from a12_15 m ρ c, show V12 m ρ c main_arg16 = _ from a12_16 m ρ c]
  rfl

end Edge

end Cert.KernelIdeal.Val

end
-- ==== Proof.LibSlab.lean ====
/-
  A host gather of whole slabs of a rank-3 array, read at an index.

  The operand is an array `[N, A, B]`, the start indices are `[R, 1]` (one slab number per result slab) and the result
  is `[R, A, B]`: result slab `k` is the operand's slab whose number is the start index `idx[k, 0]`, read signed and
  clamped into `[0, N − 1]`. Read at one element `(k, a, b)` the result is element `(a, b)` of that slab. A lookup of
  per-node `[A, B]` tables at the ends of edges has this shape.
-/
import Idealize.ShloMosaic.PureOps.Ideal
import Idealize.ShloMosaic.Lib.ValueIdx

namespace Cert.LibSlab

open Idealize.ShloMosaic Idealize.ShloMosaic.ValueIdx

section SlabGather
variable {α : Type}

/-- The dimension numbers of a gather of whole slabs: operand `[N, A, B]`, start indices `[R, 1]` (one slab number
    per result slab), result `[R, A, B]`; axis 0 of the operand is collapsed and indexed, axes 1 and 2 of the result
    are the offset axes and read the operand's axes 1 and 2, the slice is one whole slab. The conditions `wf` are
    decided on a program's literal shapes. -/
abbrev slabGatherDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER READ AT `(k, a, b)`: element `(a, b)` of the operand's slab whose number is the start index
    `idx[k, 0]`, read signed and clamped into `[0, N − 1]`. -/
theorem gather_slab_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (k : Fin R) (a : Fin A) (b : Fin B) :
    Host.gather (slabGatherDims N A B R wf) x idx (ix3 k a b)
      = x (ix3 ⟨min (idx (ix2 k (0 : Fin 1))).toInt.toNat (N - 1), by omega⟩ a b) := by
  -- the start on axis 0: the clamped start index; on the axes 1 and 2 (not in the start index map): zero
  have hst0 : (slabGatherDims N A B R wf).start (ix3 k a b) idx (0 : Fin 3)
      = min (idx (ix2 k (0 : Fin 1))).toInt.toNat (N - 1) := by
    unfold GatherDims.start
    rw [dif_pos (show (0 : Fin 3) ∈ (slabGatherDims N A B R wf).startIndexMap from List.mem_singleton.mpr rfl)]
    have hsi : (slabGatherDims N A B R wf).siIdx (ix3 k a b)
        ⟨List.idxOf (0 : Fin 3) (slabGatherDims N A B R wf).startIndexMap,
          List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl
  have hst1 : (slabGatherDims N A B R wf).start (ix3 k a b) idx (1 : Fin 3) = 0 := by
    unfold GatherDims.start
    exact dif_neg (show (1 : Fin 3) ∉ ([0] : List (Fin 3)) from by decide)
  have hst2 : (slabGatherDims N A B R wf).start (ix3 k a b) idx (2 : Fin 3) = 0 := by
    unfold GatherDims.start
    exact dif_neg (show (2 : Fin 3) ∉ ([0] : List (Fin 3)) from by decide)
  -- the offset coordinate: zero on the collapsed axis 0, the result's coordinates on the axes 1 and 2
  have hoff0 : (slabGatherDims N A B R wf).offCoord (ix3 k a b) (0 : Fin 3) = 0 :=
    GatherDims.offCoord_eq_zero _ _ _ (fun h => ((GatherDims.mem_sKept _ _).mp h).1 (List.mem_singleton.mpr rfl))
  have hoff1 : (slabGatherDims N A B R wf).offCoord (ix3 k a b) (1 : Fin 3) = a.val := by
    unfold GatherDims.offCoord
    rw [dif_pos ((GatherDims.mem_sKept (slabGatherDims N A B R wf) (1 : Fin 3)).mpr
      ⟨(show (1 : Fin 3) ∉ ([0] : List (Fin 3)) from by decide), List.not_mem_nil⟩)]
    rfl
  have hoff2 : (slabGatherDims N A B R wf).offCoord (ix3 k a b) (2 : Fin 3) = b.val := by
    unfold GatherDims.offCoord
    rw [dif_pos ((GatherDims.mem_sKept (slabGatherDims N A B R wf) (2 : Fin 3)).mpr
      ⟨(show (2 : Fin 3) ∉ ([0] : List (Fin 3)) from by decide), List.not_mem_nil⟩)]
    rfl
  unfold Host.gather
  congr 1
  funext c
  refine Fin.ext ?_
  match c with
  | ⟨0, _⟩ =>
    show (slabGatherDims N A B R wf).start (ix3 k a b) idx (0 : Fin 3)
      + (slabGatherDims N A B R wf).batchCoord (ix3 k a b) (0 : Fin 3)
      + (slabGatherDims N A B R wf).offCoord (ix3 k a b) (0 : Fin 3) = min (idx (ix2 k (0 : Fin 1))).toInt.toNat (N - 1)
    rw [GatherDims.batchCoord_eq_zero _ _ _ List.not_mem_nil, hst0, hoff0]
    rfl
  | ⟨1, _⟩ =>
    show (slabGatherDims N A B R wf).start (ix3 k a b) idx (1 : Fin 3)
      + (slabGatherDims N A B R wf).batchCoord (ix3 k a b) (1 : Fin 3)
      + (slabGatherDims N A B R wf).offCoord (ix3 k a b) (1 : Fin 3) = a.val
    rw [GatherDims.batchCoord_eq_zero _ _ _ List.not_mem_nil, hst1, hoff1]
    omega
  | ⟨2, _⟩ =>
    show (slabGatherDims N A B R wf).start (ix3 k a b) idx (2 : Fin 3)
      + (slabGatherDims N A B R wf).batchCoord (ix3 k a b) (2 : Fin 3)
      + (slabGatherDims N A B R wf).offCoord (ix3 k a b) (2 : Fin 3) = b.val
    rw [GatherDims.batchCoord_eq_zero _ _ _ List.not_mem_nil, hst2, hoff2]
    omega

/-- The same for any dimension numbers whose fields are those of a gather of slabs (a printed record's are, each by
    `rfl`). -/
theorem gather_slab_apply_of {N A B R w : Nat} (hN : 0 < N)
    (d : GatherDims ⟨3, ![N, A, B]⟩ ⟨2, ![R, 1]⟩ ⟨3, ![R, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![N, A, B]⟩ : Shape).Idx → α) (idx : IVec ⟨2, ![R, 1]⟩ w) (k : Fin R) (a : Fin A) (b : Fin B) :
    Host.gather d x idx (ix3 k a b)
      = x (ix3 ⟨min (idx (ix2 k (0 : Fin 1))).toInt.toNat (N - 1), by omega⟩ a b) := by
  obtain ⟨od, cd, ob, sb, sm, iv, ss, wf⟩ := d
  dsimp only at h1 h2 h3 h4 h5 h6 h7
  subst h1 h2 h3 h4 h5 h6 h7
  exact gather_slab_apply hN wf x idx k a b

end SlabGather

end Cert.LibSlab
-- ==== Proof.RefEdge.lean ====
/-
  The reference's edge stage, read at an index.

  The reference keeps heads and channels apart: its projections are arrays over (row, head, channel of the head), entry
  (n, h, j) being entry (n, 16 h + j) of the rows times the weight matrix. For an edge r it reads the keys and the values
  at the source word and the queries at the destination word (a negative word moved up by the table's length, the result
  clamped into the table), multiplies key and query, divides by four, multiplies by the edge feature, sums the sixteen
  channels of a head from zero, clips to [-5, 5] and exponentiates: the edge's weight for the head (stage 28); the values
  times the weight of their head are the weighted values (stage 38). When every source word names a node these are the
  specification's weight and weighted values: a source word is then not moved, dividing by four is the product with a
  quarter, and the sum from zero is the sum.
-/
import proofs.«400303_j74148315398273_1_alg».proof.Proof.Gen.ReferenceIdeal.Read
import proofs.«400303_j74148315398273_1_alg».proof.Proof.Spec
import proofs.«400303_j74148315398273_1_alg».proof.Proof.SpecLaws
import proofs.«400303_j74148315398273_1_alg».proof.Proof.LibSlab

noncomputable section

namespace Cert.ReferenceIdeal.RefVal

open Idealize.ShloMosaic Idealize.ShloMosaic.ValueIdx Cert.ReferenceIdeal Cert.ReferenceIdeal.Read

variable (x0 x1 : (⟨S800000, .i32⟩ : BufTy).Contents (Elt Ideal)) (x2 : (⟨S50000x128, .f32⟩ : BufTy).Contents (Elt Ideal))
  (x3 : (⟨S800000x128, .f32⟩ : BufTy).Contents (Elt Ideal)) (x5 x6 x7 x8 x9 : (⟨S128x128, .f32⟩ : BufTy).Contents (Elt Ideal))
  (x10 : (⟨S128, .f32⟩ : BufTy).Contents (Elt Ideal)) (x11 : (⟨S128x256, .f32⟩ : BufTy).Contents (Elt Ideal))
  (x12 : (⟨S256, .f32⟩ : BufTy).Contents (Elt Ideal)) (x13 : (⟨S256x128, .f32⟩ : BufTy).Contents (Elt Ideal))
  (x14 x15 x16 : (⟨S128, .f32⟩ : BufTy).Contents (Elt Ideal))

/-! ## The four projections, head by head

  The reference keeps a projection as an array over (row, head, channel of the head); entry (n, h, j) is entry
  (n, 16 h + j) of the product of the rows with the weight matrix, because the reshape reads row-major. -/

/-- Entry (n, h, j) of the reshaped array lies at row n, column 16 h + j of the matrix: ((8 n + h) 16 + j) = 128 n + (16 h + j). -/
theorem idx_v1 (n : Fin 50000) (h : Fin 8) (j : Fin 16) : idx_main_v1 (ix3 n h j) = ix2 n (Spec.chan h j) :=
  funext fun a => Fin.ext (by
    have hh := h.isLt
    have hj := j.isLt
    match a with
    | ⟨0, _⟩ => show ((n.val * 8 + h.val) * 16 + j.val) / 128 = n.val; omega
    | ⟨1, _⟩ => show ((n.val * 8 + h.val) * 16 + j.val) % 128 = 16 * h.val + j.val; omega)
/-- The product's left factor at (n, c) and contraction index k is entry (n, k) … -/
theorem lidx_v0 (n : Fin 50000) (c k : Fin 128) : lidx_main_v0 (ix2 n c) k = ix2 n k :=
  funext fun a => Fin.ext (by match a with | ⟨0, _⟩ => rfl | ⟨1, _⟩ => rfl)
/-- … and its right factor is entry (k, c). -/
theorem ridx_v0 (n : Fin 50000) (c k : Fin 128) : ridx_main_v0 (ix2 n c) k = ix2 k c :=
  funext fun a => Fin.ext (by match a with | ⟨0, _⟩ => rfl | ⟨1, _⟩ => rfl)
/-- The queries (stage 1) at (n, h, j): the rows times the matrix at (n, 16 h + j). -/
theorem ref_q (n : Fin 50000) (h : Fin 8) (j : Fin 16) :
    val_main_v1 (F := Ideal) x2 x5 (ix3 n h j) = Spec.proj x2 x5 (ix2 n (Spec.chan h j)) := by
  rw [val_main_v1_apply, idx_v1, val_main_v0_apply]
  simp only [lidx_v0, ridx_v0]
  rfl

/-- Entry (n, h, j) of the reshaped array lies at row n, column 16 h + j of the matrix: ((8 n + h) 16 + j) = 128 n + (16 h + j). -/
theorem idx_v3 (n : Fin 50000) (h : Fin 8) (j : Fin 16) : idx_main_v3 (ix3 n h j) = ix2 n (Spec.chan h j) :=
  funext fun a => Fin.ext (by
    have hh := h.isLt
    have hj := j.isLt
    match a with
    | ⟨0, _⟩ => show ((n.val * 8 + h.val) * 16 + j.val) / 128 = n.val; omega
    | ⟨1, _⟩ => show ((n.val * 8 + h.val) * 16 + j.val) % 128 = 16 * h.val + j.val; omega)
/-- The product's left factor at (n, c) and contraction index k is entry (n, k) … -/
theorem lidx_v2 (n : Fin 50000) (c k : Fin 128) : lidx_main_v2 (ix2 n c) k = ix2 n k :=
  funext fun a => Fin.ext (by match a with | ⟨0, _⟩ => rfl | ⟨1, _⟩ => rfl)
/-- … and its right factor is entry (k, c). -/
theorem ridx_v2 (n : Fin 50000) (c k : Fin 128) : ridx_main_v2 (ix2 n c) k = ix2 k c :=
  funext fun a => Fin.ext (by match a with | ⟨0, _⟩ => rfl | ⟨1, _⟩ => rfl)
/-- The keys (stage 3) at (n, h, j): the rows times the matrix at (n, 16 h + j). -/
theorem ref_k (n : Fin 50000) (h : Fin 8) (j : Fin 16) :
    val_main_v3 (F := Ideal) x2 x6 (ix3 n h j) = Spec.proj x2 x6 (ix2 n (Spec.chan h j)) := by
  rw [val_main_v3_apply, idx_v3, val_main_v2_apply]
  simp only [lidx_v2, ridx_v2]
  rfl

/-- Entry (n, h, j) of the reshaped array lies at row n, column 16 h + j of the matrix: ((8 n + h) 16 + j) = 128 n + (16 h + j). -/
theorem idx_v5 (n : Fin 50000) (h : Fin 8) (j : Fin 16) : idx_main_v5 (ix3 n h j) = ix2 n (Spec.chan h j) :=
  funext fun a => Fin.ext (by
    have hh := h.isLt
    have hj := j.isLt
    match a with
    | ⟨0, _⟩ => show ((n.val * 8 + h.val) * 16 + j.val) / 128 = n.val; omega
    | ⟨1, _⟩ => show ((n.val * 8 + h.val) * 16 + j.val) % 128 = 16 * h.val + j.val; omega)
/-- The product's left factor at (n, c) and contraction index k is entry (n, k) … -/
theorem lidx_v4 (n : Fin 50000) (c k : Fin 128) : lidx_main_v4 (ix2 n c) k = ix2 n k :=
  funext fun a => Fin.ext (by match a with | ⟨0, _⟩ => rfl | ⟨1, _⟩ => rfl)
/-- … and its right factor is entry (k, c). -/
theorem ridx_v4 (n : Fin 50000) (c k : Fin 128) : ridx_main_v4 (ix2 n c) k = ix2 k c :=
  funext fun a => Fin.ext (by match a with | ⟨0, _⟩ => rfl | ⟨1, _⟩ => rfl)
/-- The values (stage 5) at (n, h, j): the rows times the matrix at (n, 16 h + j). -/
theorem ref_v (n : Fin 50000) (h : Fin 8) (j : Fin 16) :
    val_main_v5 (F := Ideal) x2 x7 (ix3 n h j) = Spec.proj x2 x7 (ix2 n (Spec.chan h j)) := by
  rw [val_main_v5_apply, idx_v5, val_main_v4_apply]
  simp only [lidx_v4, ridx_v4]
  rfl

/-- Entry (n, h, j) of the reshaped array lies at row n, column 16 h + j of the matrix: ((8 n + h) 16 + j) = 128 n + (16 h + j). -/
theorem idx_v7 (n : Fin 800000) (h : Fin 8) (j : Fin 16) : idx_main_v7 (ix3 n h j) = ix2 n (Spec.chan h j) :=
  funext fun a => Fin.ext (by
    have hh := h.isLt
    have hj := j.isLt
    match a with
    | ⟨0, _⟩ => show ((n.val * 8 + h.val) * 16 + j.val) / 128 = n.val; omega
    | ⟨1, _⟩ => show ((n.val * 8 + h.val) * 16 + j.val) % 128 = 16 * h.val + j.val; omega)
/-- The product's left factor at (n, c) and contraction index k is entry (n, k) … -/
theorem lidx_v6 (n : Fin 800000) (c k : Fin 128) : lidx_main_v6 (ix2 n c) k = ix2 n k :=
  funext fun a => Fin.ext (by match a with | ⟨0, _⟩ => rfl | ⟨1, _⟩ => rfl)
/-- … and its right factor is entry (k, c). -/
theorem ridx_v6 (n : Fin 800000) (c k : Fin 128) : ridx_main_v6 (ix2 n c) k = ix2 k c :=
  funext fun a => Fin.ext (by match a with | ⟨0, _⟩ => rfl | ⟨1, _⟩ => rfl)
/-- The edge features' projection (stage 7) at (n, h, j): the rows times the matrix at (n, 16 h + j). -/
theorem ref_ef (n : Fin 800000) (h : Fin 8) (j : Fin 16) :
    val_main_v7 (F := Ideal) x3 x8 (ix3 n h j) = Spec.proj x3 x8 (ix2 n (Spec.chan h j)) := by
  rw [val_main_v7_apply, idx_v7, val_main_v6_apply]
  simp only [lidx_v6, ridx_v6]
  rfl

/-! ## The index words

  The reference moves a negative index word up by the table's length before it gathers. -/

/-- On one word: the select on "less than zero" between the word plus 50000 and the word. -/
theorem select_wrap (x : BitVec 32) :
    Scalar.select (IntOp.cmpi .slt x 0#32) (IntOp.addi x 50000#32) x = if x.toInt < 0 then x + 50000#32 else x := by
  unfold Scalar.select IntOp.cmpi IntOp.addi
  by_cases hx : x.toInt < 0
  · have hs : x.slt 0#32 = true := by simp [BitVec.slt, hx]
    rw [if_pos hx, hs]
    rfl
  · have hs : x.slt 0#32 = false := by simp [BitVec.slt, hx]
    rw [if_neg hx, hs]
    rfl

/-- A word that names a node is not moved. -/
theorem wrap_of_inRange (idx : IVec Spec.SE 32) (r : Fin 800000) (h : Spec.InRange idx r) :
    Spec.wrapIx idx (ix1 r) = idx (ix1 r) := if_neg (not_lt.mpr h.1)

/-- The start-index column's entry (r, 0) is the vector's entry r. -/
theorem idx_v13 (r : Fin 800000) : idx_main_v13 (ix2 r (0 : Fin 1)) = ix1 r :=
  funext fun a => Fin.ext (by match a with | ⟨0, _⟩ => rfl)
/-- The start index of the keys' gather (stage 13) for edge r: the edge's word, moved up when negative. -/
theorem ref_src (r : Fin 800000) : val_main_v13 (F := Ideal) x0 (ix2 r (0 : Fin 1)) = Spec.wrapIx x0 (ix1 r) := by
  rw [val_main_v13_apply, idx_v13, val_main_v12_apply, val_main_v9_apply, val_main_v11_apply, val_main_v8_apply,
    val_main_c_apply, val_main_v10_apply, val_main_c_0_apply]
  exact select_wrap _

/-- The start-index column's entry (r, 0) is the vector's entry r. -/
theorem idx_v20 (r : Fin 800000) : idx_main_v20 (ix2 r (0 : Fin 1)) = ix1 r :=
  funext fun a => Fin.ext (by match a with | ⟨0, _⟩ => rfl)
/-- The start index of the queries' gather (stage 20) for edge r: the edge's word, moved up when negative. -/
theorem ref_dst (r : Fin 800000) : val_main_v20 (F := Ideal) x1 (ix2 r (0 : Fin 1)) = Spec.wrapIx x1 (ix1 r) := by
  rw [val_main_v20_apply, idx_v20, val_main_v19_apply, val_main_v16_apply, val_main_v18_apply, val_main_v15_apply,
    val_main_c_1_apply, val_main_v17_apply, val_main_c_2_apply]
  exact select_wrap _

/-- The start-index column's entry (r, 0) is the vector's entry r. -/
theorem idx_v35 (r : Fin 800000) : idx_main_v35 (ix2 r (0 : Fin 1)) = ix1 r :=
  funext fun a => Fin.ext (by match a with | ⟨0, _⟩ => rfl)
/-- The start index of the values' gather (stage 35) for edge r: the edge's word, moved up when negative. -/
theorem ref_src' (r : Fin 800000) : val_main_v35 (F := Ideal) x0 (ix2 r (0 : Fin 1)) = Spec.wrapIx x0 (ix1 r) := by
  rw [val_main_v35_apply, idx_v35, val_main_v34_apply, val_main_v31_apply, val_main_v33_apply, val_main_v30_apply,
    val_main_c_6_apply, val_main_v32_apply, val_main_c_7_apply]
  exact select_wrap _

/-! ## The three gathers -/

/-- A gather of the reference read at (r, h, j): when the operand at (n, h, j) is a node table at (n, 16 h + j) and the
    start index of edge r is the word w r, it is the table's row named by w r (clamped into the table), at 16 h + j. -/
theorem ref_gather (x : (⟨S50000x8x16, .f32⟩ : BufTy).Contents (Elt Ideal)) (idx : (⟨S800000x1, .i32⟩ : BufTy).Contents (Elt Ideal))
    (w : IVec Spec.SE 32) (T : FVec Ideal Spec.SNxD .f32)
    (hx : ∀ (n : Fin 50000) (h : Fin 8) (j : Fin 16), x (ix3 n h j) = T (ix2 n (Spec.chan h j)))
    (hidx : ∀ r : Fin 800000, idx (ix2 r (0 : Fin 1)) = w (ix1 r))
    (r : Fin 800000) (h : Fin 8) (j : Fin 16) :
    Host.gather gather_S50000x8x16_S800000x1_S800000x8x16_12_0_n_n_0_1_1816 x idx (ix3 r h j)
      = Spec.rows T w (ix2 r (Spec.chan h j)) := by
  have hrow : (⟨min (idx (ix2 r (0 : Fin 1))).toInt.toNat (50000 - 1), by omega⟩ : Fin 50000) = Spec.rowIx w r :=
    Fin.ext (congrArg (fun v : BitVec 32 => min v.toInt.toNat 49999) (hidx r))
  rw [LibSlab.gather_slab_apply_of (by decide) gather_S50000x8x16_S800000x1_S800000x8x16_12_0_n_n_0_1_1816
    rfl rfl rfl rfl rfl rfl rfl x idx r h j, hx, hrow]
  rfl

/-- The keys at the edges' sources (stage 14). -/
theorem ref_ks (hsrc : ∀ r, Spec.InRange x0 r) (r : Fin 800000) (h : Fin 8) (j : Fin 16) :
    val_main_v14 (F := Ideal) x0 x2 x6 (ix3 r h j) = Spec.rows (Spec.proj x2 x6) x0 (ix2 r (Spec.chan h j)) := by
  unfold val_main_v14
  exact ref_gather _ _ x0 _ (ref_k x2 x6) (fun r => (ref_src x0 r).trans (wrap_of_inRange x0 r (hsrc r))) r h j

/-- The queries at the edges' destinations (stage 21). -/
theorem ref_qd (r : Fin 800000) (h : Fin 8) (j : Fin 16) :
    val_main_v21 (F := Ideal) x1 x2 x5 (ix3 r h j) = Spec.rows (Spec.proj x2 x5) (Spec.wrapIx x1) (ix2 r (Spec.chan h j)) := by
  unfold val_main_v21
  exact ref_gather _ _ (Spec.wrapIx x1) _ (ref_q x2 x5) (ref_dst x1) r h j

/-- The values at the edges' sources (stage 36). -/
theorem ref_vs (hsrc : ∀ r, Spec.InRange x0 r) (r : Fin 800000) (h : Fin 8) (j : Fin 16) :
    val_main_v36 (F := Ideal) x0 x2 x7 (ix3 r h j) = Spec.rows (Spec.proj x2 x7) x0 (ix2 r (Spec.chan h j)) := by
  unfold val_main_v36
  exact ref_gather _ _ x0 _ (ref_v x2 x7) (fun r => (ref_src' x0 r).trans (wrap_of_inRange x0 r (hsrc r))) r h j

/-! ## The scores, the weights and the weighted values -/

/-- The score the reference computes (stage 25) at (r, h, j): the key times the query, divided by four (the product with
    a quarter), times the edge feature. -/
theorem ref_score (hsrc : ∀ r, Spec.InRange x0 r) (r : Fin 800000) (h : Fin 8) (j : Fin 16) :
    val_main_v25 (F := Ideal) x0 x1 x2 x3 x5 x6 x8 (ix3 r h j)
      = Spec.score (Spec.rows (Spec.proj x2 x6) x0) (Spec.rows (Spec.proj x2 x5) (Spec.wrapIx x1)) (Spec.proj x3 x8)
          (ix2 r (Spec.chan h j)) := by
  rw [val_main_v25_apply, val_main_v24_apply, val_main_v22_apply, val_main_v23_apply, val_main_cst_apply,
    ref_ks x0 x2 x6 hsrc, ref_qd x1 x2 x5, ref_ef x3 x8]
  simp only [Ideal.mulf_def, Ideal.hostDivf_def, Ideal.ofBits_def]
  exact congrArg (· * Spec.proj x3 x8 (ix2 r (Spec.chan h j))) (Spec.div_four _)

/-- The sum over a head's channels runs over the entries (r, h, k). -/
theorem idx_v26 (r : Fin 800000) (h : Fin 8) (k : Fin 16) : idx_main_v26 (ix2 r h) k = ix3 r h k :=
  funext fun a => Fin.ext (by match a with | ⟨0, _⟩ => rfl | ⟨1, _⟩ => rfl | ⟨2, _⟩ => rfl)

/-- The weights the reference computes (its stage 28), at an edge and a head, when every source word names a node. -/
theorem ref_weight (hsrc : ∀ r, Spec.InRange x0 r) (r : Fin 800000) (h : Fin 8) :
    val_main_v28 (F := Ideal) x0 x1 x2 x3 x5 x6 x8 (ix2 r h)
      = Spec.weight (Spec.score (Spec.rows (Spec.proj x2 x6) x0) (Spec.rows (Spec.proj x2 x5) (Spec.wrapIx x1)) (Spec.proj x3 x8)) (ix2 r h) := by
  rw [val_main_v28_apply, val_main_v27_apply, val_main_call0_v4_apply, val_main_call0_v3_apply, val_main_cst_5_apply,
    val_main_call0_v2_apply, val_main_call0_v1_apply, val_main_call0_v0_apply, val_main_cst_4_apply, val_main_v26_apply,
    val_main_cst_3_apply]
  -- the sum starts from the zero word, which is zero
  simp only [idx_v26, ref_score x0 x1 x2 x3 x5 x6 x8 hsrc, Ideal.hostUnary_exp_def, Ideal.minimumf_def, Ideal.maximumf_def,
    Ideal.ofBits_def, Ideal.ofBits_zero_f32, zero_add]
  rfl

/-- A channel of a head lies in that head. -/
theorem headOf_chan (h : Fin 8) (j : Fin 16) : Spec.headOf (Spec.chan h j) = h :=
  Fin.ext (by show (16 * h.val + j.val) / 16 = h.val; omega)

/-- The weight spread over a head's channels is read at (r, h). -/
theorem idx_v37 (r : Fin 800000) (h : Fin 8) (j : Fin 16) : idx_main_v29 (idx_main_v37 (ix3 r h j)) = ix2 r h :=
  funext fun a => Fin.ext (by match a with | ⟨0, _⟩ => rfl | ⟨1, _⟩ => rfl)

/-- The weighted values the reference computes (its stage 38), at an edge, a head and a channel of the head. -/
theorem ref_weighted (hsrc : ∀ r, Spec.InRange x0 r) (r : Fin 800000) (h : Fin 8) (j : Fin 16) :
    val_main_v38 (F := Ideal) x0 x1 x2 x3 x5 x6 x7 x8 (ix3 r h j)
      = Spec.weighted (Spec.rows (Spec.proj x2 x7) x0)
          (Spec.weight (Spec.score (Spec.rows (Spec.proj x2 x6) x0) (Spec.rows (Spec.proj x2 x5) (Spec.wrapIx x1)) (Spec.proj x3 x8)))
          (ix2 r (Spec.chan h j)) := by
  rw [val_main_v38_apply, val_main_v37_apply, val_main_v29_apply, idx_v37, ref_vs x0 x2 x7 hsrc,
    ref_weight x0 x1 x2 x3 x5 x6 x8 hsrc]
  simp only [Spec.weighted, Spec.of2_ix2, headOf_chan, Ideal.mulf_def]

end Cert.ReferenceIdeal.RefVal

end
-- ==== Proof.LibScatter3.lean ====
/-
  A host scatter that adds whole slabs of a rank-3 array, read at an index.

  The operand is an array `[N, A, B]`, the scatter indices are `[R, 1]` (one slab number per update slab) and the
  updates are `[R, A, B]`: update slab `k` is added into the operand's slab whose number is `idx[k, 0]`. Read at one
  element at the ideal instance, where a float is an extended real, the result is the operand's element plus the
  exact sum of the same element of every update slab that lands on that slab. A segment sum of an `(R, A, B)` array
  has this shape.
-/
import Idealize.ShloMosaic.PureOps.Ideal
import Idealize.ShloMosaic.Lib.ValueIdx
import Mathlib.Algebra.BigOperators.Group.Finset.Basic

noncomputable section

open scoped BigOperators

namespace Cert.LibScatter3

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A double sum whose summand vanishes off the one pair `(a, b)` is the summand there. -/
theorem sum_sum_ite_pair {M : Type*} [AddCommMonoid M] {A B : Nat} (a : Fin A) (b : Fin B) (f : Fin A → Fin B → M) :
    ∑ a' : Fin A, ∑ b' : Fin B, (if a' = a ∧ b' = b then f a' b' else 0) = f a b := by
  rw [Finset.sum_eq_single a]
  · rw [Finset.sum_eq_single b]
    · exact if_pos ⟨rfl, rfl⟩
    · intro b' _ hb
      exact if_neg fun h => hb h.2
    · intro h
      exact absurd (Finset.mem_univ b) h
  · intro a' _ ha
    exact Finset.sum_eq_zero fun b' _ => if_neg fun h => ha h.1
  · intro h
    exact absurd (Finset.mem_univ a) h

/-! ## A scatter that adds slabs -/

/-- An axis is among a shape's kept axes exactly when it is not among the removed ones. -/
private theorem mem_kept {s : Shape} (axes : List (Fin s.rank)) (a : Fin s.rank) : a ∈ s.kept axes ↔ a ∉ axes := by
  simp [Shape.kept, List.mem_filter, List.mem_finRange]

/-- The dimension numbers of a scatter of whole slabs: operand `[N, A, B]`, scatter indices `[R, 1]` (one slab
    number per update slab), updates `[R, A, B]`; axis 0 of the operand is the inserted, indexed axis, axes 1 and 2
    of the updates are the window axes and go to the operand's axes 1 and 2. -/
abbrev slabScatterDims (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

section Slab
variable {N A B R : Nat} (wf : ScatterDims.WF ⟨3, ![N, A, B]⟩ ⟨2, ![R, 1]⟩ ⟨3, ![R, A, B]⟩ [1, 2] [0] [0] 1)

/-- The window of update slab `k` starts, on the operand's axis 0, at the scatter index `idx[k, 0]` read signed. -/
theorem slabScatter_start0 {w : Nat} (idx : IVec ⟨2, ![R, 1]⟩ w) (k : Fin R) (a : Fin A) (b : Fin B) :
    (slabScatterDims N A B R wf).start (ix3 k a b) idx (0 : Fin 3) = (idx (ix2 k (0 : Fin 1))).toInt := by
  unfold ScatterDims.start
  rw [dif_pos (show (0 : Fin 3) ∈ (slabScatterDims N A B R wf).scatterDimsToOperandDims from List.mem_singleton.mpr rfl)]
  have hsi : (slabScatterDims N A B R wf).siIdx (ix3 k a b)
      ⟨List.idxOf (0 : Fin 3) (slabScatterDims N A B R wf).scatterDimsToOperandDims,
        List.idxOf_lt_length_iff.2 (List.mem_singleton.mpr rfl)⟩ = ix2 k (0 : Fin 1) := by
    funext c; refine Fin.ext ?_
    match c with
    | ⟨0, _⟩ => rfl
    | ⟨1, _⟩ => rfl
  rw [hsi]

/-- On an operand axis other than 0, which the scatter indices do not address, the window starts at zero. -/
theorem slabScatter_start_of_ne {w : Nat} (idx : IVec ⟨2, ![R, 1]⟩ w) (j : (⟨3, ![R, A, B]⟩ : Shape).Idx)
    (c : Fin 3) (hc : c ≠ 0) :
    (slabScatterDims N A B R wf).start j idx c = 0 := by
  unfold ScatterDims.start
  exact dif_neg fun h => hc (List.mem_singleton.mp h)

/-- The window coordinate on the inserted axis 0 is zero. -/
theorem slabScatter_window0 (j : (⟨3, ![R, A, B]⟩ : Shape).Idx) :
    (slabScatterDims N A B R wf).window j (0 : Fin 3) = 0 := by
  unfold ScatterDims.window
  exact dif_neg fun h => ((mem_kept _ _).mp h) (List.mem_singleton.mpr rfl)

/-- The window coordinate on axis 1 is the update's coordinate on its axis 1. -/
theorem slabScatter_window1 (j : (⟨3, ![R, A, B]⟩ : Shape).Idx) :
    (slabScatterDims N A B R wf).window j (1 : Fin 3) = (j 1).val := by
  have hk : (1 : Fin 3) ∈ (slabScatterDims N A B R wf).sKept :=
    (mem_kept _ _).mpr (show (1 : Fin 3) ∉ ([0] : List (Fin 3)) from by decide)
  unfold ScatterDims.window
  rw [dif_pos hk]
  rfl

/-- The window coordinate on axis 2 is the update's coordinate on its axis 2. -/
theorem slabScatter_window2 (j : (⟨3, ![R, A, B]⟩ : Shape).Idx) :
    (slabScatterDims N A B R wf).window j (2 : Fin 3) = (j 2).val := by
  have hk : (2 : Fin 3) ∈ (slabScatterDims N A B R wf).sKept :=
    (mem_kept _ _).mpr (show (2 : Fin 3) ∉ ([0] : List (Fin 3)) from by decide)
  unfold ScatterDims.window
  rw [dif_pos hk]
  rfl

/-- Update element `(k, a', b')` lands on operand element `(v, a, b)` exactly when slab `k`'s scatter index, read
    signed, is `v` and the two window coordinates agree (an index that is not a slab number lands nowhere). -/
theorem slabScatter_resultIdx?_eq_some {w : Nat} (idx : IVec ⟨2, ![R, 1]⟩ w) (k : Fin R) (a' : Fin A) (b' : Fin B)
    (v : Fin N) (a : Fin A) (b : Fin B) :
    (slabScatterDims N A B R wf).resultIdx? (ix3 k a' b') idx = some (ix3 v a b)
      ↔ (idx (ix2 k (0 : Fin 1))).toInt = (v.val : Int) ∧ a' = a ∧ b' = b := by
  have hs0 := slabScatter_start0 wf idx k a' b'
  have hs1 := slabScatter_start_of_ne wf idx (ix3 k a' b') (1 : Fin 3) (by decide)
  have hs2 := slabScatter_start_of_ne wf idx (ix3 k a' b') (2 : Fin 3) (by decide)
  have hw0 := slabScatter_window0 wf (ix3 k a' b')
  have hw1 : (slabScatterDims N A B R wf).window (ix3 k a' b') (1 : Fin 3) = a'.val :=
    slabScatter_window1 wf (ix3 k a' b')
  have hw2 : (slabScatterDims N A B R wf).window (ix3 k a' b') (2 : Fin 3) = b'.val :=
    slabScatter_window2 wf (ix3 k a' b')
  have hv := v.isLt
  have ha' := a'.isLt
  have hb' := b'.isLt
  unfold ScatterDims.resultIdx?
  split
  · rename_i h
    rw [Option.some.injEq]
    constructor
    · intro hf
      have h0 : ((slabScatterDims N A B R wf).start (ix3 k a' b') idx (0 : Fin 3)
          + ((slabScatterDims N A B R wf).window (ix3 k a' b') (0 : Fin 3) : Int)).toNat = v.val :=
        congrArg Fin.val (congrFun hf (0 : Fin 3))
      have h1 : ((slabScatterDims N A B R wf).start (ix3 k a' b') idx (1 : Fin 3)
          + ((slabScatterDims N A B R wf).window (ix3 k a' b') (1 : Fin 3) : Int)).toNat = a.val :=
        congrArg Fin.val (congrFun hf (1 : Fin 3))
      have h2 : ((slabScatterDims N A B R wf).start (ix3 k a' b') idx (2 : Fin 3)
          + ((slabScatterDims N A B R wf).window (ix3 k a' b') (2 : Fin 3) : Int)).toNat = b.val :=
        congrArg Fin.val (congrFun hf (2 : Fin 3))
      have hh := (h (0 : Fin 3)).1
      rw [hs0, hw0] at h0 hh
      rw [hs1, hw1] at h1
      rw [hs2, hw2] at h2
      exact ⟨by omega, Fin.ext (by omega), Fin.ext (by omega)⟩
    · rintro ⟨hv', haa, hbb⟩
      have hav : a'.val = a.val := congrArg Fin.val haa
      have hbv : b'.val = b.val := congrArg Fin.val hbb
      funext c
      refine Fin.ext ?_
      match c with
      | ⟨0, _⟩ =>
        show ((slabScatterDims N A B R wf).start (ix3 k a' b') idx (0 : Fin 3)
          + ((slabScatterDims N A B R wf).window (ix3 k a' b') (0 : Fin 3) : Int)).toNat = v.val
        rw [hs0, hw0, hv']; omega
      | ⟨1, _⟩ =>
        show ((slabScatterDims N A B R wf).start (ix3 k a' b') idx (1 : Fin 3)
          + ((slabScatterDims N A B R wf).window (ix3 k a' b') (1 : Fin 3) : Int)).toNat = a.val
        rw [hs1, hw1]; omega
      | ⟨2, _⟩ =>
        show ((slabScatterDims N A B R wf).start (ix3 k a' b') idx (2 : Fin 3)
          + ((slabScatterDims N A B R wf).window (ix3 k a' b') (2 : Fin 3) : Int)).toNat = b.val
        rw [hs2, hw2]; omega
  · rename_i h
    refine iff_of_false (by simp) ?_
    rintro ⟨hv', -, -⟩
    apply h
    intro c
    match c with
    | ⟨0, _⟩ =>
      show 0 ≤ (slabScatterDims N A B R wf).start (ix3 k a' b') idx (0 : Fin 3)
          + ((slabScatterDims N A B R wf).window (ix3 k a' b') (0 : Fin 3) : Int)
        ∧ (slabScatterDims N A B R wf).start (ix3 k a' b') idx (0 : Fin 3)
          + ((slabScatterDims N A B R wf).window (ix3 k a' b') (0 : Fin 3) : Int) < (N : Int)
      rw [hs0, hw0, hv']; omega
    | ⟨1, _⟩ =>
      show 0 ≤ (slabScatterDims N A B R wf).start (ix3 k a' b') idx (1 : Fin 3)
          + ((slabScatterDims N A B R wf).window (ix3 k a' b') (1 : Fin 3) : Int)
        ∧ (slabScatterDims N A B R wf).start (ix3 k a' b') idx (1 : Fin 3)
          + ((slabScatterDims N A B R wf).window (ix3 k a' b') (1 : Fin 3) : Int) < (A : Int)
      rw [hs1, hw1]; omega
    | ⟨2, _⟩ =>
      show 0 ≤ (slabScatterDims N A B R wf).start (ix3 k a' b') idx (2 : Fin 3)
          + ((slabScatterDims N A B R wf).window (ix3 k a' b') (2 : Fin 3) : Int)
        ∧ (slabScatterDims N A B R wf).start (ix3 k a' b') idx (2 : Fin 3)
          + ((slabScatterDims N A B R wf).window (ix3 k a' b') (2 : Fin 3) : Int) < (B : Int)
      rw [hs2, hw2]; omega

/-- THE SLAB SCATTER-ADD READ AT `(v, a, b)`, at the ideal instance: the operand's element plus element `(a, b)` of
    every update slab whose scatter index, read signed, is `v`. -/
theorem scatterAdd_slab_apply {w : Nat} {φ : FTy}
    (x : FVec Ideal ⟨3, ![N, A, B]⟩ φ) (idx : IVec ⟨2, ![R, 1]⟩ w) (upd : FVec Ideal ⟨3, ![R, A, B]⟩ φ)
    (v : Fin N) (a : Fin A) (b : Fin B) :
    Host.scatterAdd (F := Ideal) (slabScatterDims N A B R wf) x idx upd (ix3 v a b)
      = x (ix3 v a b)
        + ∑ k : Fin R, if (idx (ix2 k (0 : Fin 1))).toInt = (v.val : Int) then upd (ix3 k a b) else 0 := by
  show Ideal.hostScatterAdd (slabScatterDims N A B R wf) x idx upd (ix3 v a b) = _
  unfold Ideal.hostScatterAdd
  congr 1
  rw [Finset.sum_filter, sum_idx3]
  refine Finset.sum_congr rfl fun k _ => ?_
  simp only [slabScatter_resultIdx?_eq_some]
  by_cases hk : (idx (ix2 k (0 : Fin 1))).toInt = (v.val : Int)
  · have hcg : ∀ (a' : Fin A) (b' : Fin B),
        (if (idx (ix2 k (0 : Fin 1))).toInt = (v.val : Int) ∧ a' = a ∧ b' = b then upd (ix3 k a' b') else 0)
          = if a' = a ∧ b' = b then upd (ix3 k a' b') else 0 :=
      fun a' b' => if_congr (and_iff_right hk) rfl rfl
    rw [if_pos hk, Finset.sum_congr rfl fun a' _ => Finset.sum_congr rfl fun b' _ => hcg a' b']
    exact sum_sum_ite_pair a b fun a' b' => upd (ix3 k a' b')
  · rw [if_neg hk]
    exact Finset.sum_eq_zero fun a' _ => Finset.sum_eq_zero fun b' _ => if_neg fun h => hk h.1

end Slab

/-- The same for any dimension numbers whose fields are those of a scatter of slabs (a printed record's are, each by
    `rfl`). -/
theorem scatterAdd_slab_apply_of {N A B R w : Nat} (d : ScatterDims ⟨3, ![N, A, B]⟩ ⟨2, ![R, 1]⟩ ⟨3, ![R, A, B]⟩)
    (h1 : d.updateWindowDims = [1, 2]) (h2 : d.insertedWindowDims = [0]) (h3 : d.scatterDimsToOperandDims = [0])
    (h4 : d.indexVectorDim = 1) {φ : FTy}
    (x : FVec Ideal ⟨3, ![N, A, B]⟩ φ) (idx : IVec ⟨2, ![R, 1]⟩ w) (upd : FVec Ideal ⟨3, ![R, A, B]⟩ φ)
    (v : Fin N) (a : Fin A) (b : Fin B) :
    Host.scatterAdd (F := Ideal) d x idx upd (ix3 v a b)
      = x (ix3 v a b)
        + ∑ k : Fin R, if (idx (ix2 k (0 : Fin 1))).toInt = (v.val : Int) then upd (ix3 k a b) else 0 := by
  obtain ⟨uw, iw, sd, iv, wf⟩ := d
  dsimp only at h1 h2 h3 h4
  subst h1 h2 h3 h4
  exact scatterAdd_slab_apply wf x idx upd v a b

end Cert.LibScatter3

end
-- ==== Proof.RefAttn.lean ====
/-
  The reference's attention output is the specification's.

  The reference keeps heads and channels apart: entry (n, h, j) of its [50000, 8, 16] arrays is entry (n, 16 h + j) of
  the specification's [50000, 128] arrays. Its stage 41 adds the weighted values of the edges that end in a node into a
  zero array, its stage 44 the weights themselves (as slabs one wide); stage 46 adds the 1e-6 word, stage 48 is the
  quotient, stage 49 its rearrangement into [50000, 128]. Read at entry (n, c) this is the specification's quotient
  at (n, c), with head c / 16 and channel c % 16 of that head.
-/
import proofs.«400303_j74148315398273_1_alg».proof.Proof.Gen.ReferenceIdeal.Read
import proofs.«400303_j74148315398273_1_alg».proof.Proof.Spec
import proofs.«400303_j74148315398273_1_alg».proof.Proof.RefEdge
import proofs.«400303_j74148315398273_1_alg».proof.Proof.LibScatter3

noncomputable section

open scoped BigOperators

namespace Cert.ReferenceIdeal.RefVal

open Idealize.ShloMosaic Idealize.ShloMosaic.ValueIdx Cert.ReferenceIdeal Cert.ReferenceIdeal.Read

variable (x0 x1 : (⟨S800000, .i32⟩ : BufTy).Contents (Elt Ideal)) (x2 : (⟨S50000x128, .f32⟩ : BufTy).Contents (Elt Ideal))
  (x3 : (⟨S800000x128, .f32⟩ : BufTy).Contents (Elt Ideal)) (x5 x6 x7 x8 x9 : (⟨S128x128, .f32⟩ : BufTy).Contents (Elt Ideal))
  (x10 : (⟨S128, .f32⟩ : BufTy).Contents (Elt Ideal)) (x11 : (⟨S128x256, .f32⟩ : BufTy).Contents (Elt Ideal))
  (x12 : (⟨S256, .f32⟩ : BufTy).Contents (Elt Ideal)) (x13 : (⟨S256x128, .f32⟩ : BufTy).Contents (Elt Ideal))
  (x14 x15 x16 : (⟨S128, .f32⟩ : BufTy).Contents (Elt Ideal))

/-! ## The destination words as a column, the weights as a one-wide slab -/

/-- Entry (k, 0) of the destination words spread as a column (stage 40) is the word of edge k. -/
theorem attn_dst_col40 (k : Fin 800000) : val_main_v40 (F := Ideal) x1 (ix2 k (0 : Fin 1)) = x1 (ix1 k) :=
  (val_main_v40_apply (F := Ideal) x1 _).trans
    (congrArg x1 (funext fun a => Fin.ext (by match a with | ⟨0, _⟩ => rfl)))

/-- The same for the second copy of the column (stage 43). -/
theorem attn_dst_col43 (k : Fin 800000) : val_main_v43 (F := Ideal) x1 (ix2 k (0 : Fin 1)) = x1 (ix1 k) :=
  (val_main_v43_apply (F := Ideal) x1 _).trans
    (congrArg x1 (funext fun a => Fin.ext (by match a with | ⟨0, _⟩ => rfl)))

/-- Entry (k, h, 0) of the weights as a one-wide slab (stage 29) is the weight of edge k for head h (stage 28). -/
theorem attn_wt_slab (k : Fin 800000) (h : Fin 8) :
    val_main_v29 (F := Ideal) x0 x1 x2 x3 x5 x6 x8 (ix3 k h (0 : Fin 1))
      = val_main_v28 (F := Ideal) x0 x1 x2 x3 x5 x6 x8 (ix2 k h) :=
  (val_main_v29_apply (F := Ideal) x0 x1 x2 x3 x5 x6 x8 _).trans
    (congrArg (val_main_v28 (F := Ideal) x0 x1 x2 x3 x5 x6 x8)
      (funext fun a => Fin.ext (by match a with | ⟨0, _⟩ => rfl | ⟨1, _⟩ => rfl)))

/-! ## The two sums over the edges that end in a node -/

/-- Stage 41 at (n, h, j): zero plus the weighted values (stage 38) at (k, h, j) of the edges k whose destination word
    is n. -/
theorem attn_sum_weighted (n : Fin 50000) (h : Fin 8) (j : Fin 16) :
    val_main_v41 (F := Ideal) x0 x1 x2 x3 x5 x6 x7 x8 (ix3 n h j)
      = Spec.zero + ∑ k : Fin 800000, if (x1 (ix1 k)).toInt = (n.val : Int)
          then val_main_v38 (F := Ideal) x0 x1 x2 x3 x5 x6 x7 x8 (ix3 k h j) else 0 := by
  unfold val_main_v41
  refine (Cert.LibScatter3.scatterAdd_slab_apply_of (φ := .f32) (w := 32)
    scatter_S50000x8x16_S800000x1_S800000x8x16_12_0_0_1 rfl rfl rfl rfl (val_main_v39 (F := Ideal))
    (val_main_v40 (F := Ideal) x1) (val_main_v38 (F := Ideal) x0 x1 x2 x3 x5 x6 x7 x8) n h j).trans ?_
  refine congrArg₂ (· + ·) ?_ (Finset.sum_congr rfl fun k _ => ?_)
  · rw [val_main_v39_apply, val_main_cst_8_apply]; rfl
  · rw [attn_dst_col40]

/-- Stage 44 at (n, h, 0): zero plus the weights (stage 28) at (k, h) of the edges k whose destination word is n. -/
theorem attn_sum_weight (n : Fin 50000) (h : Fin 8) :
    val_main_v44 (F := Ideal) x0 x1 x2 x3 x5 x6 x8 (ix3 n h (0 : Fin 1))
      = Spec.zero + ∑ k : Fin 800000, if (x1 (ix1 k)).toInt = (n.val : Int)
          then val_main_v28 (F := Ideal) x0 x1 x2 x3 x5 x6 x8 (ix2 k h) else 0 := by
  unfold val_main_v44
  refine (Cert.LibScatter3.scatterAdd_slab_apply_of (φ := .f32) (w := 32)
    scatter_S50000x8x1_S800000x1_S800000x8x1_12_0_0_1 rfl rfl rfl rfl (val_main_v42 (F := Ideal))
    (val_main_v43 (F := Ideal) x1) (val_main_v29 (F := Ideal) x0 x1 x2 x3 x5 x6 x8) n h (0 : Fin 1)).trans ?_
  refine congrArg₂ (· + ·) ?_ (Finset.sum_congr rfl fun k _ => ?_)
  · rw [val_main_v42_apply, val_main_cst_9_apply]; rfl
  · rw [attn_dst_col43, attn_wt_slab]

/-! ## The quotient -/

/-- The reference's attention output (its stage 49) is the specification's, when every source word names a node. -/
theorem ref_attention (hsrc : ∀ r, Spec.InRange x0 r) :
    val_main_v49 (F := Ideal) x0 x1 x2 x3 x5 x6 x7 x8 = Spec.attention x0 x1 x2 x3 x5 x6 x7 x8 := by
  funext i
  obtain ⟨n, c, rfl⟩ : ∃ (n : Fin 50000) (c : Fin 128), i = ix2 n c := ⟨i 0, i 1, eq_ix2 i⟩
  -- channel c is channel c % 16 of head c / 16
  have hc : Spec.chan (Spec.headOf c) ⟨c.val % 16, Nat.mod_lt _ (by decide)⟩ = c :=
    Fin.ext (by show 16 * (c.val / 16) + c.val % 16 = c.val; omega)
  -- row-major, entry (n, c) of the [50000, 128] array is entry (n, c / 16, c % 16) of the [50000, 8, 16] array
  have e49 : idx_main_v49 (ix2 n c) = ix3 n (Spec.headOf c) ⟨c.val % 16, Nat.mod_lt _ (by decide)⟩ :=
    funext fun a => Fin.ext (by
      have hn := n.isLt
      have hc' := c.isLt
      match a with
      | ⟨0, _⟩ => show (n.val * 128 + c.val) / 128 = n.val; omega
      | ⟨1, _⟩ => show (n.val * 128 + c.val) / 16 % 8 = c.val / 16; omega
      | ⟨2, _⟩ => show (n.val * 128 + c.val) % 16 = c.val % 16; omega)
  have e47 : ∀ (h : Fin 8) (j : Fin 16), idx_main_v47 (ix3 n h j) = ix3 n h (0 : Fin 1) := fun h j =>
    funext fun a => Fin.ext (by match a with | ⟨0, _⟩ => rfl | ⟨1, _⟩ => rfl | ⟨2, _⟩ => rfl)
  rw [val_main_v49_apply, e49, val_main_v48_apply, val_main_v47_apply, e47, val_main_v46_apply, attn_sum_weighted,
    attn_sum_weight, val_main_v45_apply, val_main_cst_10_apply]
  -- both sums, edge by edge, are the specification's; the quotient and the 1e-6 word are the same on both sides
  simp only [ref_weighted x0 x1 x2 x3 x5 x6 x7 x8 hsrc, ref_weight x0 x1 x2 x3 x5 x6 x8 hsrc, hc, Spec.attention,
    Spec.attn, Spec.segSum, Spec.of2_ix2, Spec.eps6, Ideal.hostDivf_def, Ideal.addf_def, Ideal.ofBits_def]

end Cert.ReferenceIdeal.RefVal

end
-- ==== Proof.RefEncode.lean ====
import proofs.«400303_j74148315398273_1_alg».proof.Proof.Gen.ReferenceIdeal.Read
import proofs.«400303_j74148315398273_1_alg».proof.Proof.Spec

noncomputable section

namespace Cert.ReferenceIdeal.RefVal

open Idealize.ShloMosaic Idealize.ShloMosaic.ValueIdx Cert.ReferenceIdeal Cert.ReferenceIdeal.Read

variable (x0 x1 : (⟨S800000, .i32⟩ : BufTy).Contents (Elt Ideal)) (x2 : (⟨S50000x128, .f32⟩ : BufTy).Contents (Elt Ideal))
  (x3 : (⟨S800000x128, .f32⟩ : BufTy).Contents (Elt Ideal)) (x5 x6 x7 x8 x9 : (⟨S128x128, .f32⟩ : BufTy).Contents (Elt Ideal))
  (x10 : (⟨S128, .f32⟩ : BufTy).Contents (Elt Ideal)) (x11 : (⟨S128x256, .f32⟩ : BufTy).Contents (Elt Ideal))
  (x12 : (⟨S256, .f32⟩ : BufTy).Contents (Elt Ideal)) (x13 : (⟨S256x128, .f32⟩ : BufTy).Contents (Elt Ideal))
  (x14 x15 x16 : (⟨S128, .f32⟩ : BufTy).Contents (Elt Ideal))

/-! ## The projected attention output, its bias and the node features (stages 50 to 54) -/

/-- Stage 54 is the specification's residual of stage 49: entry (n, c) is h[n, c] plus the row n of stage 49 times column
    c of the projection, plus the bias at c. -/
theorem ref_residual :
    val_main_v54 (F := Ideal) x0 x1 x2 x3 x5 x6 x7 x8 x9 x10 = Spec.residual (val_main_v49 (F := Ideal) x0 x1 x2 x3 x5 x6 x7 x8) x2 x9 x10 := by
  funext i
  obtain ⟨n, c, rfl⟩ : ∃ (n : Fin 50000) (c : Fin 128), i = ix2 n c := ⟨i 0, i 1, eq_ix2 i⟩
  have el : ∀ k : Fin 128, lidx_main_v50 (ix2 n c) k = ix2 n k := fun k => funext fun a => Fin.ext (by match a with | ⟨0, _⟩ => rfl | ⟨1, _⟩ => rfl)
  have er : ∀ k : Fin 128, ridx_main_v50 (ix2 n c) k = ix2 k c := fun k => funext fun a => Fin.ext (by match a with | ⟨0, _⟩ => rfl | ⟨1, _⟩ => rfl)
  have eb : idx_main_v51 (idx_main_v52 (ix2 n c)) = ix1 c := funext fun a => Fin.ext (by match a with | ⟨0, _⟩ => rfl)
  rw [val_main_v54_apply, val_main_v53_apply, val_main_v50_apply, val_main_v52_apply, val_main_v51_apply, eb]
  generalize val_main_v49 (F := Ideal) x0 x1 x2 x3 x5 x6 x7 x8 = ha
  simp only [el, er, Spec.residual, Spec.of2_ix2, Ideal.addf_def]

/-! ## The first normalisation (stages 55 to 79) -/

/-- Stage 57 is the column means of stage 54: the zero word plus the column's sum, over the word of 50000. -/
theorem ref_mean1 :
    val_main_v57 (F := Ideal) x0 x1 x2 x3 x5 x6 x7 x8 x9 x10 = Spec.mean (val_main_v54 (F := Ideal) x0 x1 x2 x3 x5 x6 x7 x8 x9 x10) := by
  funext i
  obtain ⟨c, rfl⟩ : ∃ c : Fin 128, i = ix1 c := ⟨i 0, eq_ix1 i⟩
  have es : ∀ k : Fin 50000, idx_main_v55 (ix1 c) k = ix2 k c := fun k => funext fun a => Fin.ext (by match a with | ⟨0, _⟩ => rfl | ⟨1, _⟩ => rfl)
  rw [val_main_v57_apply, val_main_v55_apply, val_main_cst_11_apply, val_main_v56_apply, val_main_cst_12_apply]
  generalize val_main_v54 (F := Ideal) x0 x1 x2 x3 x5 x6 x7 x8 x9 x10 = y
  simp only [es, Spec.mean, Spec.of1_ix1, Spec.zero, Spec.nodes, Ideal.hostDivf_def, Ideal.ofBits_def]

/-- Stage 64 is the column variances of stage 54 about stage 57: the summand at row k is the squared deviation of
    entry (k, c) from the mean at c. -/
theorem ref_variance1 :
    val_main_v64 (F := Ideal) x0 x1 x2 x3 x5 x6 x7 x8 x9 x10 = Spec.variance (val_main_v54 (F := Ideal) x0 x1 x2 x3 x5 x6 x7 x8 x9 x10) (val_main_v57 (F := Ideal) x0 x1 x2 x3 x5 x6 x7 x8 x9 x10) := by
  funext i
  obtain ⟨c, rfl⟩ : ∃ c : Fin 128, i = ix1 c := ⟨i 0, eq_ix1 i⟩
  have es : ∀ k : Fin 50000, idx_main_v62 (ix1 c) k = ix2 k c := fun k => funext fun a => Fin.ext (by match a with | ⟨0, _⟩ => rfl | ⟨1, _⟩ => rfl)
  have eb : ∀ k : Fin 50000, idx_main_v58 (idx_main_v59 (ix2 k c)) = ix1 c := fun k => funext fun a => Fin.ext (by match a with | ⟨0, _⟩ => rfl)
  rw [val_main_v64_apply, val_main_v62_apply, val_main_cst_13_apply, val_main_v63_apply, val_main_cst_14_apply]
  simp only [es, val_main_v61_apply, val_main_v60_apply, val_main_v59_apply, val_main_v58_apply, eb]
  generalize val_main_v57 (F := Ideal) x0 x1 x2 x3 x5 x6 x7 x8 x9 x10 = mu
  generalize val_main_v54 (F := Ideal) x0 x1 x2 x3 x5 x6 x7 x8 x9 x10 = y
  simp only [Spec.variance, Spec.of1_ix1, Spec.zero, Spec.nodes, Ideal.hostDivf_def, Ideal.mulf_def, Ideal.subf_def,
    Ideal.ofBits_def]

/-- Stage 79 is stage 54 normalised: centred at stage 57, times the inverse root of stage 64 plus the 1e-5 word, times
    gamma, plus beta, the four vectors read at the entry's column. -/
theorem ref_norm1 :
    val_main_v79 (F := Ideal) x0 x1 x2 x3 x5 x6 x7 x8 x9 x10 x15 x16
      = Spec.norm (val_main_v54 (F := Ideal) x0 x1 x2 x3 x5 x6 x7 x8 x9 x10) (val_main_v57 (F := Ideal) x0 x1 x2 x3 x5 x6 x7 x8 x9 x10) (val_main_v64 (F := Ideal) x0 x1 x2 x3 x5 x6 x7 x8 x9 x10) x15 x16 := by
  funext i
  obtain ⟨n, c, rfl⟩ : ∃ (n : Fin 50000) (c : Fin 128), i = ix2 n c := ⟨i 0, i 1, eq_ix2 i⟩
  have e1 : idx_main_v65 (idx_main_v66 (ix2 n c)) = ix1 c := funext fun a => Fin.ext (by match a with | ⟨0, _⟩ => rfl)
  have e2 : idx_main_v71 (idx_main_v72 (ix2 n c)) = ix1 c := funext fun a => Fin.ext (by match a with | ⟨0, _⟩ => rfl)
  have e3 : idx_main_v74 (idx_main_v75 (ix2 n c)) = ix1 c := funext fun a => Fin.ext (by match a with | ⟨0, _⟩ => rfl)
  have e4 : idx_main_v77 (idx_main_v78 (ix2 n c)) = ix1 c := funext fun a => Fin.ext (by match a with | ⟨0, _⟩ => rfl)
  rw [val_main_v79_apply, val_main_v76_apply, val_main_v73_apply, val_main_v67_apply, val_main_v66_apply,
    val_main_v65_apply, e1, val_main_v72_apply, val_main_v71_apply, e2, val_main_v70_apply, val_main_v69_apply,
    val_main_v68_apply, val_main_cst_15_apply, val_main_v75_apply, val_main_v74_apply, e3, val_main_v78_apply,
    val_main_v77_apply, e4]
  generalize val_main_v64 (F := Ideal) x0 x1 x2 x3 x5 x6 x7 x8 x9 x10 = var
  generalize val_main_v57 (F := Ideal) x0 x1 x2 x3 x5 x6 x7 x8 x9 x10 = mu
  generalize val_main_v54 (F := Ideal) x0 x1 x2 x3 x5 x6 x7 x8 x9 x10 = y
  simp only [Spec.norm, Spec.of2_ix2, Spec.eps5, Ideal.addf_def, Ideal.mulf_def, Ideal.subf_def,
    Ideal.hostUnary_rsqrt_def, Ideal.ofBits_def]

/-! ## The two-layer network and its residual (stages 80 to 89) -/

/-- Stage 84 is the hidden layer of stage 79: row n times column k of the first matrix, plus the bias at k, and the
    zero word where that is negative. -/
theorem ref_hidden :
    val_main_v84 (F := Ideal) x0 x1 x2 x3 x5 x6 x7 x8 x9 x10 x11 x12 x15 x16 = Spec.hidden (val_main_v79 (F := Ideal) x0 x1 x2 x3 x5 x6 x7 x8 x9 x10 x15 x16) x11 x12 := by
  funext i
  obtain ⟨n, k, rfl⟩ : ∃ (n : Fin 50000) (k : Fin 256), i = ix2 n k := ⟨i 0, i 1, eq_ix2 i⟩
  have el : ∀ j : Fin 128, lidx_main_v80 (ix2 n k) j = ix2 n j := fun j => funext fun a => Fin.ext (by match a with | ⟨0, _⟩ => rfl | ⟨1, _⟩ => rfl)
  have er : ∀ j : Fin 128, ridx_main_v80 (ix2 n k) j = ix2 j k := fun j => funext fun a => Fin.ext (by match a with | ⟨0, _⟩ => rfl | ⟨1, _⟩ => rfl)
  have eb : idx_main_v81 (idx_main_v82 (ix2 n k)) = ix1 k := funext fun a => Fin.ext (by match a with | ⟨0, _⟩ => rfl)
  rw [val_main_v84_apply, val_main_v83_apply, val_main_v80_apply, val_main_v82_apply, val_main_v81_apply, eb,
    val_main_call1_v0_apply, val_main_call1_cst_apply]
  generalize val_main_v79 (F := Ideal) x0 x1 x2 x3 x5 x6 x7 x8 x9 x10 x15 x16 = y
  simp only [el, er, Spec.hidden, Spec.of2_ix2, Spec.zero, Ideal.addf_def, Ideal.maximumf_def, Ideal.ofBits_def]

/-- Stage 89 is the network applied to stage 79 with its residual: entry (n, c) is stage 79 there plus row n of the
    hidden layer times column c of the second matrix, plus the bias at c. -/
theorem ref_ffn :
    val_main_v89 (F := Ideal) x0 x1 x2 x3 x5 x6 x7 x8 x9 x10 x11 x12 x13 x14 x15 x16 = Spec.ffn (val_main_v79 (F := Ideal) x0 x1 x2 x3 x5 x6 x7 x8 x9 x10 x15 x16) x11 x12 x13 x14 := by
  funext i
  obtain ⟨n, c, rfl⟩ : ∃ (n : Fin 50000) (c : Fin 128), i = ix2 n c := ⟨i 0, i 1, eq_ix2 i⟩
  have el : ∀ k : Fin 256, lidx_main_v85 (ix2 n c) k = ix2 n k := fun k => funext fun a => Fin.ext (by match a with | ⟨0, _⟩ => rfl | ⟨1, _⟩ => rfl)
  have er : ∀ k : Fin 256, ridx_main_v85 (ix2 n c) k = ix2 k c := fun k => funext fun a => Fin.ext (by match a with | ⟨0, _⟩ => rfl | ⟨1, _⟩ => rfl)
  have eb : idx_main_v86 (idx_main_v87 (ix2 n c)) = ix1 c := funext fun a => Fin.ext (by match a with | ⟨0, _⟩ => rfl)
  rw [val_main_v89_apply, val_main_v88_apply, val_main_v85_apply, val_main_v87_apply, val_main_v86_apply, eb,
    ref_hidden]
  generalize val_main_v79 (F := Ideal) x0 x1 x2 x3 x5 x6 x7 x8 x9 x10 x15 x16 = y
  simp only [el, er, Spec.ffn, Spec.of2_ix2, Ideal.addf_def]

/-! ## The second normalisation (stages 90 to 114) -/

/-- Stage 92 is the column means of stage 89. -/
theorem ref_mean2 :
    val_main_v92 (F := Ideal) x0 x1 x2 x3 x5 x6 x7 x8 x9 x10 x11 x12 x13 x14 x15 x16 = Spec.mean (val_main_v89 (F := Ideal) x0 x1 x2 x3 x5 x6 x7 x8 x9 x10 x11 x12 x13 x14 x15 x16) := by
  funext i
  obtain ⟨c, rfl⟩ : ∃ c : Fin 128, i = ix1 c := ⟨i 0, eq_ix1 i⟩
  have es : ∀ k : Fin 50000, idx_main_v90 (ix1 c) k = ix2 k c := fun k => funext fun a => Fin.ext (by match a with | ⟨0, _⟩ => rfl | ⟨1, _⟩ => rfl)
  rw [val_main_v92_apply, val_main_v90_apply, val_main_cst_16_apply, val_main_v91_apply, val_main_cst_17_apply]
  generalize val_main_v89 (F := Ideal) x0 x1 x2 x3 x5 x6 x7 x8 x9 x10 x11 x12 x13 x14 x15 x16 = y
  simp only [es, Spec.mean, Spec.of1_ix1, Spec.zero, Spec.nodes, Ideal.hostDivf_def, Ideal.ofBits_def]

/-- Stage 99 is the column variances of stage 89 about stage 92. -/
theorem ref_variance2 :
    val_main_v99 (F := Ideal) x0 x1 x2 x3 x5 x6 x7 x8 x9 x10 x11 x12 x13 x14 x15 x16 = Spec.variance (val_main_v89 (F := Ideal) x0 x1 x2 x3 x5 x6 x7 x8 x9 x10 x11 x12 x13 x14 x15 x16) (val_main_v92 (F := Ideal) x0 x1 x2 x3 x5 x6 x7 x8 x9 x10 x11 x12 x13 x14 x15 x16) := by
  funext i
  obtain ⟨c, rfl⟩ : ∃ c : Fin 128, i = ix1 c := ⟨i 0, eq_ix1 i⟩
  have es : ∀ k : Fin 50000, idx_main_v97 (ix1 c) k = ix2 k c := fun k => funext fun a => Fin.ext (by match a with | ⟨0, _⟩ => rfl | ⟨1, _⟩ => rfl)
  have eb : ∀ k : Fin 50000, idx_main_v93 (idx_main_v94 (ix2 k c)) = ix1 c := fun k => funext fun a => Fin.ext (by match a with | ⟨0, _⟩ => rfl)
  rw [val_main_v99_apply, val_main_v97_apply, val_main_cst_18_apply, val_main_v98_apply, val_main_cst_19_apply]
  simp only [es, val_main_v96_apply, val_main_v95_apply, val_main_v94_apply, val_main_v93_apply, eb]
  generalize val_main_v92 (F := Ideal) x0 x1 x2 x3 x5 x6 x7 x8 x9 x10 x11 x12 x13 x14 x15 x16 = mu
  generalize val_main_v89 (F := Ideal) x0 x1 x2 x3 x5 x6 x7 x8 x9 x10 x11 x12 x13 x14 x15 x16 = y
  simp only [Spec.variance, Spec.of1_ix1, Spec.zero, Spec.nodes, Ideal.hostDivf_def, Ideal.mulf_def, Ideal.subf_def,
    Ideal.ofBits_def]

/-- Stage 114 is stage 89 normalised with stage 92 and stage 99, gamma and beta. -/
theorem ref_norm2 :
    val_main_v114 (F := Ideal) x0 x1 x2 x3 x5 x6 x7 x8 x9 x10 x11 x12 x13 x14 x15 x16
      = Spec.norm (val_main_v89 (F := Ideal) x0 x1 x2 x3 x5 x6 x7 x8 x9 x10 x11 x12 x13 x14 x15 x16) (val_main_v92 (F := Ideal) x0 x1 x2 x3 x5 x6 x7 x8 x9 x10 x11 x12 x13 x14 x15 x16) (val_main_v99 (F := Ideal) x0 x1 x2 x3 x5 x6 x7 x8 x9 x10 x11 x12 x13 x14 x15 x16) x15 x16 := by
  funext i
  obtain ⟨n, c, rfl⟩ : ∃ (n : Fin 50000) (c : Fin 128), i = ix2 n c := ⟨i 0, i 1, eq_ix2 i⟩
  have e1 : idx_main_v100 (idx_main_v101 (ix2 n c)) = ix1 c := funext fun a => Fin.ext (by match a with | ⟨0, _⟩ => rfl)
  have e2 : idx_main_v106 (idx_main_v107 (ix2 n c)) = ix1 c := funext fun a => Fin.ext (by match a with | ⟨0, _⟩ => rfl)
  have e3 : idx_main_v109 (idx_main_v110 (ix2 n c)) = ix1 c := funext fun a => Fin.ext (by match a with | ⟨0, _⟩ => rfl)
  have e4 : idx_main_v112 (idx_main_v113 (ix2 n c)) = ix1 c := funext fun a => Fin.ext (by match a with | ⟨0, _⟩ => rfl)
  rw [val_main_v114_apply, val_main_v111_apply, val_main_v108_apply, val_main_v102_apply, val_main_v101_apply,
    val_main_v100_apply, e1, val_main_v107_apply, val_main_v106_apply, e2, val_main_v105_apply, val_main_v104_apply,
    val_main_v103_apply, val_main_cst_20_apply, val_main_v110_apply, val_main_v109_apply, e3, val_main_v113_apply,
    val_main_v112_apply, e4]
  generalize val_main_v99 (F := Ideal) x0 x1 x2 x3 x5 x6 x7 x8 x9 x10 x11 x12 x13 x14 x15 x16 = var
  generalize val_main_v92 (F := Ideal) x0 x1 x2 x3 x5 x6 x7 x8 x9 x10 x11 x12 x13 x14 x15 x16 = mu
  generalize val_main_v89 (F := Ideal) x0 x1 x2 x3 x5 x6 x7 x8 x9 x10 x11 x12 x13 x14 x15 x16 = y
  simp only [Spec.norm, Spec.of2_ix2, Spec.eps5, Ideal.addf_def, Ideal.mulf_def, Ideal.subf_def,
    Ideal.hostUnary_rsqrt_def, Ideal.ofBits_def]

/-! ## The node stage -/

/-- The reference's result (its stage 114) is the specification's node stage applied to its attention output (stage 49). -/
theorem ref_encode :
    val_main_v114 (F := Ideal) x0 x1 x2 x3 x5 x6 x7 x8 x9 x10 x11 x12 x13 x14 x15 x16
      = Spec.encode (val_main_v49 (F := Ideal) x0 x1 x2 x3 x5 x6 x7 x8) x2 x9 x10 x11 x12 x13 x14 x15 x16 := by
  rw [ref_norm2, ref_variance2, ref_mean2, ref_ffn, ref_norm1, ref_variance1, ref_mean1, ref_residual]
  rfl

end Cert.ReferenceIdeal.RefVal

end
-- ==== Proof.RefValue.lean ====
import proofs.«400303_j74148315398273_1_alg».proof.Proof.RefAttn
import proofs.«400303_j74148315398273_1_alg».proof.Proof.RefEncode

noncomputable section

namespace Cert.ReferenceIdeal.RefVal

open Idealize.ShloMosaic Idealize.ShloMosaic.TcCoe Idealize.ShloMosaic.ValueIdx Cert.ReferenceIdeal Cert.ReferenceIdeal.Read

/-- THE REFERENCE'S RESULT: the term its run ends at is the specification's layer of the arguments, when every source
    word names a node. -/
theorem ref_value (m : (ℓ : Loc nD τ sig) → Buf (Elt Ideal) ℓ) (c : Dev nD)
    (hsrc : ∀ r, Spec.InRange (m ((c.tc : Thread Cert.ReferenceIdeal.nD Cert.ReferenceIdeal.τ).loc Cert.ReferenceIdeal.main_arg0)) r) :
    (Cert.ReferenceIdeal.Value.res_main_v114 m c : S50000x128.Idx → EReal)
      = Spec.encode (Spec.attention (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  rw [val_main_v114_eq, ref_encode, ref_attention _ _ _ _ _ _ _ _ hsrc]

end Cert.ReferenceIdeal.RefVal

end
-- ==== Proof.PreDecode.lean ====
import proofs.«400303_j74148315398273_1_alg».proof.Defs
import proofs.«400303_j74148315398273_1_alg».proof.Proof.Spec
import Idealize.ShloMosaic.Lib.StableHlo.Predicate
import Idealize.ShloMosaic.Lib.ReduceAll

noncomputable section

namespace Cert.Proof.PreDecode

open Idealize.ShloMosaic Idealize.ShloMosaic.TcCoe Idealize.ShloMosaic.ValueIdx

variable [Cert.Pre_finite_inputs.Facts]

/-- The scalar shape has one index. -/
instance : Subsingleton Cert.Pre_finite_inputs.S_.Idx := ⟨fun _ _ => funext fun d => d.elim0⟩

/-- The last part of the precondition, read back at one edge: its result is the conjunction of what came before with
    "every word of the first index vector is at least 0 and below 50000, read signed"; when the result is 1 the
    conjunction over the edges is 1, so both comparisons are 1 at each edge. -/
theorem part4_range {F : FTy → Type} [FloatOps F] (a0 : IVec Cert.Pre_finite_inputs.S800000 32)
    (a16 : FVec F Cert.Pre_finite_inputs.S128 .f32) (v63 v67 : IVec Cert.Pre_finite_inputs.S_ 1)
    (j : Cert.Pre_finite_inputs.S_.Idx) (e : Cert.Pre_finite_inputs.fn_part4 (F := F) a0 a16 v63 v67 j = 1#1)
    (i : Cert.Pre_finite_inputs.S800000.Idx) : 0 ≤ (a0 i).toInt ∧ (a0 i).toInt < 50000 := by
  dsimp only [Cert.Pre_finite_inputs.fn_part4] at e
  have hall := Host.reduce_andi_all _ _ _ _ j (IntOp.andi_eq_one.1 e).2 i
  obtain ⟨hge, hlt⟩ := IntOp.andi_eq_one.1 hall
  have h0 := IntOp.cmpi_sge.1 hge
  have h5 := IntOp.cmpi_slt.1 hlt
  have z0 : (0#32 : BitVec 32).toInt = 0 := by decide
  have z5 : (50000#32 : BitVec 32).toInt = 50000 := by decide
  exact ⟨z0 ▸ h0, z5 ▸ h5⟩

/-- Under the precondition every source word names a node: read signed it lies in [0, 50000). -/
theorem src_in_range (m : (ℓ : Loc Cert.KernelIdeal.nD Cert.KernelIdeal.τ Cert.KernelIdeal.sig) → Buf (Elt Ideal) ℓ)
    (h : Cert.Pre_KernelIdeal m) (c : Dev Cert.KernelIdeal.nD) (r : Fin 800000) :
    Spec.InRange (m ((c.tc : Thread Cert.KernelIdeal.nD Cert.KernelIdeal.τ).loc Cert.KernelIdeal.main_arg0)) r := by
  have e := congrFun (h c) ValueIdx.ix0
  dsimp only [Cert.Pre_finite_inputs.fn, Cert.Pre_finite_inputs.fn_part1, Cert.Pre_finite_inputs.fn_part2,
    Cert.Pre_finite_inputs.fn_part3] at e
  exact part4_range _ _ _ _ _ e (ix1 r)

end Cert.Proof.PreDecode

end
-- ==== Proof.lean ====
/-
  The kernel is a graph attention layer in six tiled regions with gathers and sums over edges between them; the
  reference is the same layer as plain array operations.  Both are shown to compute one function of their arguments
  (the specification): the projections of the node and edge features, the scores of an edge as products of the key at
  its source and the query at its destination with its own features, the weights as clipped exponentials of the scores
  summed over a head's sixteen channels, the weighted values and the weights summed over the edges ending in a node,
  their quotient, and the node stage (projection and residual, normalisation over the nodes, a two-layer network with
  a residual, normalisation again).

  Where the two differ and why it does not matter at the extended reals: the kernel multiplies a score by a quarter
  where the reference divides by four (the same on every extended real); it sums a head's scores, and spreads a head's
  weight over its channels, by products with matrices of zeros and ones (x · 1 = x and x · 0 = 0 for every extended
  real); it adds the bias after the residual where the reference adds it before (addition is associative); it works
  tile by tile.  A source index outside the node table is read differently by the two (the kernel fills the row, the
  reference clamps), so the claim is stated for source indices inside the table.  A destination index outside the
  table is read differently too, but such an edge enters neither sum over the edges ending in a node, in either
  program, so nothing is assumed of the destination indices.

  The frames of the two kernel programs are the generated ones; the reference's frame is its generated run with the
  result dropped; the idealization's ledger is empty.
-/
import proofs.«400303_j74148315398273_1_alg».proof.Defs
import proofs.«400303_j74148315398273_1_alg».proof.Proof.Gen.Kernel
import proofs.«400303_j74148315398273_1_alg».proof.Proof.Gen.Kernel.Skeleton
import proofs.«400303_j74148315398273_1_alg».proof.Proof.Gen.Kernel.Launch
import proofs.«400303_j74148315398273_1_alg».proof.Proof.Gen.Kernel.Points
import proofs.«400303_j74148315398273_1_alg».proof.Proof.Gen.Kernel.Frame
import proofs.«400303_j74148315398273_1_alg».proof.Proof.Gen.KernelIdeal
import proofs.«400303_j74148315398273_1_alg».proof.Proof.Gen.KernelIdeal.Skeleton
import proofs.«400303_j74148315398273_1_alg».proof.Proof.Gen.KernelIdeal.Launch
import proofs.«400303_j74148315398273_1_alg».proof.Proof.Gen.KernelIdeal.Points
import proofs.«400303_j74148315398273_1_alg».proof.Proof.Gen.KernelIdeal.Frame
import proofs.«400303_j74148315398273_1_alg».proof.Proof.Gen.ReferenceIdeal
import proofs.«400303_j74148315398273_1_alg».proof.Proof.Gen.ReferenceIdeal.Run
import proofs.«400303_j74148315398273_1_alg».proof.Proof.Gen.ReferenceIdeal.Read
import proofs.«400303_j74148315398273_1_alg».proof.Proof.Gen.Pre_finite_inputs
import proofs.«400303_j74148315398273_1_alg».proof.Proof.KRun
import proofs.«400303_j74148315398273_1_alg».proof.Proof.KChain
import proofs.«400303_j74148315398273_1_alg».proof.Proof.RefValue
import proofs.«400303_j74148315398273_1_alg».proof.Proof.PreDecode
import Idealize.ShloMosaic.Adequacy
import Idealize.ShloMosaic.Init

noncomputable section

namespace Cert.Proof

open Idealize.ShloMosaic Idealize.ShloMosaic.TcCoe Idealize.SL.Sem

section Claims
variable [Cert.Kernel.Facts] [Cert.KernelIdeal.Facts] [Cert.ReferenceIdeal.Facts] [Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the specification's layer of the arguments
    in their result arrays and with the edge features, which both return unchanged, in the second result. -/
theorem algebraic : Cert.algebraic_KernelIdeal_ReferenceIdeal := by
  intro m ρ m' ρ' hpre hagree
  have hsrc : ∀ (c : Dev Cert.KernelIdeal.nD) (r : Fin 800000), Spec.InRange (m ((c.tc : Thread Cert.KernelIdeal.nD Cert.KernelIdeal.τ).loc Cert.KernelIdeal.main_arg0)) r :=
    fun c r => Cert.Proof.PreDecode.src_in_range m hpre c r
  refine ⟨fun c => Spec.encode (Spec.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.kernel_value m ρ c (hsrc c)), (h c).2.2.2.2.1, (h c).2⟩)
      (Cert.KernelIdeal.Val.run_values (F := Ideal) m ρ)
  · refine (θ_run Cert.ReferenceIdeal.defs _ _).mono (fun _ h c => ⟨?_, ?_, (h c).2.2⟩)
      (Cert.ReferenceIdeal.Value.run (F := Ideal) m' ρ')
    · obtain ⟨h0, h1, h2, h3, _, h5, h6, h7, h8, h9, h10, h11, h12, h13, h14, h15, h16⟩ := hagree c
      refine (h c).1.trans ((Cert.ReferenceIdeal.RefVal.ref_value m' c (by rw [h0]; exact hsrc c)).trans ?_)
      rw [h0, h1, h2, h3, h5, h6, h7, h8, h9, h10, h11, h12, h13, h14, h15, h16]
    · exact (h c).2.1.trans (hagree c).2.2.2.1

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
